-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S7x128 : Shape := ⟨2, ![7, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S7x128 : S_.BroadcastsInDim S7x128 (![] : Fin 0 → Fin S7x128.rank)
  reducesTo_S7x128_S_d0_1 : S7x128.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg4 : IVec S1000000 32) (main_v13 : IVec S_ 1) (main_v15 : IVec S1000000 1) (main_c_5 : IVec S_ 1) : IVec S_ 1 :=
  let main_v16 : IVec S_ 1 := (fun x v => Host.reduce IntOp.andi x v reducesTo_S1000000_S_d0 h_S_) main_v15 main_c_5
  let main_v17 : IVec S_ 1 := andi main_v13 main_v16
  let main_c_6 : IVec S_ 32 := constantI S_ 32 7#32
  let main_v18 : IVec S1000000 32 := broadcastInDim S1000000 ![] bcast_S_S1000000 main_c_6
  let main_v19 : IVec S1000000 1 := cmpi .slt main_arg4 main_v18
  let main_c_7 : IVec S_ 1 := constantI S_ 1 1#1
  let main_v20 : IVec S_ 1 := (fun x v => Host.reduce IntOp.andi x v reducesTo_S1000000_S_d0 h_S_) main_v19 main_c_7
  let main_v21 : IVec S_ 1 := andi main_v17 main_v20
  main_v21

def fn {F : FTy → Type} [FloatOps F] (main_arg0 : FVec F S1000000x128 .f32) (main_arg1 : FVec F S1000000x128 .f32) (main_arg2 : FVec F S7x128 .f32) (main_arg3 : IVec S1000000 32) (main_arg4 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S7x128 .f32 := Host.absf main_arg2
  let main_cst_2 : FVec F S_ .f32 := constant S_ .f32 0x7F800000#32
  let main_v10 : FVec F S7x128 .f32 := broadcastInDim S7x128 ![] bcast_S_S7x128 main_cst_2
  let main_v11 : IVec S7x128 1 := cmpf .olt main_v9 main_v10
  let main_c_3 : IVec S_ 1 := constantI S_ 1 1#1
  let main_v12 : IVec S_ 1 := (fun x v => Host.reduce IntOp.andi x v reducesTo_S7x128_S_d0_1 h_S_) main_v11 main_c_3
  let main_v13 : IVec S_ 1 := andi main_v8 main_v12
  let main_c_4 : IVec S_ 32 := constantI S_ 32 7#32
  let main_v14 : IVec S1000000 32 := broadcastInDim S1000000 ![] bcast_S_S1000000 main_c_4
  let main_v15 : IVec S1000000 1 := cmpi .slt main_arg3 main_v14
  let main_c_5 : IVec S_ 1 := constantI S_ 1 1#1
  fn_part1 (F := F) main_arg4 main_v13 main_v15 main_c_5
-- ==== Kernel.lean ====
abbrev S1000000x128 : Shape := ⟨2, ![1000000, 128]⟩
abbrev S7x128 : Shape := ⟨2, ![7, 128]⟩
abbrev S1000000 : Shape := ⟨1, ![1000000]⟩
abbrev S_ : Shape := ⟨0, ![]⟩
abbrev S7 : Shape := ⟨1, ![7]⟩
abbrev S7x1 : Shape := ⟨2, ![7, 1]⟩
abbrev S128x7 : Shape := ⟨2, ![128, 7]⟩
abbrev S1000000x1 : Shape := ⟨2, ![1000000, 1]⟩
abbrev S1x1 : Shape := ⟨2, ![1, 1]⟩
abbrev S4000x128 : Shape := ⟨2, ![4000, 128]⟩
abbrev S4000x1 : Shape := ⟨2, ![4000, 1]⟩
abbrev S4000 : Shape := ⟨1, ![4000]⟩
abbrev S4000x7 : Shape := ⟨2, ![4000, 7]⟩
abbrev S1 : Shape := ⟨1, ![1]⟩

abbrev nBuf : Space → Nat
  | .hbm => 23
  | .vmem => 14
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S7x128, .f32⟩
  | .hbm, ⟨3, _⟩ => ⟨S1000000, .i32⟩
  | .hbm, ⟨4, _⟩ => ⟨S1000000, .i32⟩
  | .hbm, ⟨5, _⟩ => ⟨S7x128, .f32⟩
  | .hbm, ⟨6, _⟩ => ⟨S_, .f32⟩
  | .hbm, ⟨7, _⟩ => ⟨S7, .f32⟩
  | .hbm, ⟨8, _⟩ => ⟨S7x1, .f32⟩
  | .hbm, ⟨9, _⟩ => ⟨S7x1, .f32⟩
  | .hbm, ⟨10, _⟩ => ⟨S_, .f32⟩
  | .hbm, ⟨11, _⟩ => ⟨S7x1, .f32⟩
  | .hbm, ⟨12, _⟩ => ⟨S7x1, .f32⟩
  | .hbm, ⟨13, _⟩ => ⟨S7x128, .f32⟩
  | .hbm, ⟨14, _⟩ => ⟨S7x128, .f32⟩
  | .hbm, ⟨15, _⟩ => ⟨S128x7, .f32⟩
  | .hbm, ⟨16, _⟩ => ⟨S1000000x1, .i32⟩
  | .hbm, ⟨17, _⟩ => ⟨S1x1, .f32⟩
  | .hbm, ⟨18, _⟩ => ⟨S_, .f32⟩
  | .hbm, ⟨19, _⟩ => ⟨S1000000x1, .i32⟩
  | .hbm, ⟨20, _⟩ => ⟨S1x1, .f32⟩
  | .hbm, ⟨21, _⟩ => ⟨S_, .f32⟩
  | .hbm, ⟨22, _⟩ => ⟨S_, .f32⟩
  | .local _ .vmem, ⟨0, _⟩ => ⟨S4000x128, .f32⟩
  | .local _ .vmem, ⟨1, _⟩ => ⟨S4000x128, .f32⟩
  | .local _ .vmem, ⟨2, _⟩ => ⟨S4000x1, .i32⟩
  | .local _ .vmem, ⟨3, _⟩ => ⟨S4000x1, .i32⟩
  | .local _ .vmem, ⟨4, _⟩ => ⟨S128x7, .f32⟩
  | .local _ .vmem, ⟨5, _⟩ => ⟨S1x1, .f32⟩
  | .local _ .vmem, ⟨6, _⟩ => ⟨S1x1, .f32⟩
  | .local _ .vmem, ⟨7, _⟩ => ⟨S4000x128, .f32⟩
  | .local _ .vmem, ⟨8, _⟩ => ⟨S4000x128, .f32⟩
  | .local _ .vmem, ⟨9, _⟩ => ⟨S4000x1, .i32⟩
  | .local _ .vmem, ⟨10, _⟩ => ⟨S4000x1, .i32⟩
  | .local _ .vmem, ⟨11, _⟩ => ⟨S128x7, .f32⟩
  | .local _ .vmem, ⟨12, _⟩ => ⟨S1x1, .f32⟩
  | .local _ .vmem, ⟨13, _⟩ => ⟨S1x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![250], ![false]⟩

def k0_cond2 (i : grid0.Coords) : BitVec 1 :=
  let arg0 : BitVec 32 := BitVec.ofNat 32 (i 0).val
  let c249_i32 : BitVec 32 := 249#32
  let v41 : BitVec 1 := Scalar.cmpi .eq arg0 c249_i32
  let v42 : BitVec 32 := Scalar.extui v41
  let c0_i32_15 : BitVec 32 := 0#32
  let v43 : BitVec 1 := Scalar.cmpi .ne v42 c0_i32_15
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![250], ![false]⟩

def k1_cond2 (i : grid1.Coords) : BitVec 1 :=
  let arg0 : BitVec 32 := BitVec.ofNat 32 (i 0).val
  let c249_i32 : BitVec 32 := 249#32
  let v41 : BitVec 1 := Scalar.cmpi .eq arg0 c249_i32
  let v42 : BitVec 32 := Scalar.extui v41
  let c0_i32_15 : BitVec 32 := 0#32
  let v43 : BitVec 1 := Scalar.cmpi .ne v42 c0_i32_15
  v43

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  reducesTo_S7x128_S7_d1 : S7x128.ReducesTo [1] S7
  h_S_ : 0 < S_.numel
  bcast_S7_S7x1_0 : S7.BroadcastsInDim S7x1 (![0] : Fin 1 → Fin S7x1.rank)
  bcast_S_S7x1 : S_.BroadcastsInDim S7x1 (![] : Fin 0 → Fin S7x1.rank)
  bcast_S7x1_S7x128_0_1 : S7x1.BroadcastsInDim S7x128 (![0, 1] : Fin 2 → Fin S7x128.rank)
  transposes_S7x128_S128x7_1_0 : S7x128.Transposes [1, 0] S128x7
  shapeCasts_S1000000_S1000000x1 : S1000000.ShapeCasts S1000000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4000x128_S4000x128_0_0 : ∀ a, (![0, 0] : Fin 2 → Nat) a + S4000x128.size a ≤ S4000x128.size a
  h_S4000x128 : 0 < S4000x128.numel
  reduces_S4000x128_S4000 : S4000x128.Reduces [1] S4000
  shapeCasts_S4000_S4000x1 : S4000.ShapeCasts S4000x1
  broadcasts_S4000x1_S4000x128 : S4000x1.Broadcasts S4000x128
  inb_S128x7_S128x7_0_0 : ∀ a, (![0, 0] : Fin 2 → Nat) a + S128x7.size a ≤ S128x7.size a
  h_S128x7 : 0 < S128x7.numel
  shapeCasts_S128x7_S128x7 : S128x7.ShapeCasts S128x7
  bitsLt_bf16_f32 : FTy.bits .bf16 < FTy.bits .f32
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x7_d1_w32 : S4000x7.Iotas .tc 32 [1]
  broadcasts_S4000x1_S4000x7 : S4000x1.Broadcasts S4000x7
  natLt_1_32 : 1 < 32
  reduces_S4000x7_S4000 : S4000x7.Reduces [1] S4000
  reduces_S4000x1_S1 : S4000x1.Reduces [0] S1
  shapeCasts_S1_S1x1 : S1.ShapeCasts S1x1
  shapeCasts_S1x1_S_ : S1x1.ShapeCasts S_
  dot_S4000x128_S128x7_S4000x7_1_0_0_1_n_n_wf : DotDims.WF S4000x128 S128x7 S4000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .i32 = 32 ∨ (Rect.block (s := S1000000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x7.size a ≤ S128x7.size a
  hwx0_2 : ∀ i : grid0.Coords, EltTy.bits .f32 = 32 ∨ (Rect.block (s := S128x7) S128x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S1000000x128.size a
  hwx1_0 : ∀ i : grid1.Coords, EltTy.bits .f32 = 32 ∨ (Rect.block (s := S1000000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S1000000x1.size a
  hwx1_1 : ∀ i : grid1.Coords, EltTy.bits .i32 = 32 ∨ (Rect.block (s := S1000000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x7.size a ≤ S128x7.size a
  hwx1_2 : ∀ i : grid1.Coords, EltTy.bits .f32 = 32 ∨ (Rect.block (s := S128x7) S128x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S4000x128_S128x7_S4000x7_1_0_0_1_n_n : DotDims S4000x128 S128x7 S4000x7 where
  lhsContracting := [1]
  rhsContracting := [0]
  lhsNonContracting := [0]
  rhsNonContracting := [1]
  lhsBatch := []
  rhsBatch := []
  wf := dot_S4000x128_S128x7_S4000x7_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S128x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1000000x128 : Shape := ⟨2, ![1000000, 128]⟩
abbrev S7x128 : Shape := ⟨2, ![7, 128]⟩
abbrev S1000000 : Shape := ⟨1, ![1000000]⟩
abbrev S_ : Shape := ⟨0, ![]⟩
abbrev S7 : Shape := ⟨1, ![7]⟩
abbrev S7x1 : Shape := ⟨2, ![7, 1]⟩
abbrev S1000000x1 : Shape := ⟨2, ![1000000, 1]⟩
abbrev S1000000x7 : Shape := ⟨2, ![1000000, 7]⟩
abbrev S1000000x1x1 : Shape := ⟨3, ![1000000, 1, 1]⟩
abbrev S1 : Shape := ⟨1, ![1]⟩
abbrev S1x1x1 : Shape := ⟨3, ![1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S7x128, .f32⟩
  | .hbm, ⟨3, _⟩ => ⟨S1000000, .i32⟩
  | .hbm, ⟨4, _⟩ => ⟨S1000000, .i32⟩
  | .hbm, ⟨5, _⟩ => ⟨S7x128, .f32⟩
  | .hbm, ⟨6, _⟩ => ⟨S_, .f32⟩
  | .hbm, ⟨7, _⟩ => ⟨S7, .f32⟩
  | .hbm, ⟨8, _⟩ => ⟨S7x1, .f32⟩
  | .hbm, ⟨9, _⟩ => ⟨S7x1, .f32⟩
  | .hbm, ⟨10, _⟩ => ⟨S_, .f32⟩
  | .hbm, ⟨11, _⟩ => ⟨S7x1, .f32⟩
  | .hbm, ⟨12, _⟩ => ⟨S7x1, .f32⟩
  | .hbm, ⟨13, _⟩ => ⟨S7x128, .f32⟩
  | .hbm, ⟨14, _⟩ => ⟨S7x128, .f32⟩
  | .hbm, ⟨15, _⟩ => ⟨S1000000x128, .f32⟩
  | .hbm, ⟨16, _⟩ => ⟨S_, .f32⟩
  | .hbm, ⟨17, _⟩ => ⟨S1000000, .f32⟩
  | .hbm, ⟨18, _⟩ => ⟨S1000000x1, .f32⟩
  | .hbm, ⟨19, _⟩ => ⟨S1000000x1, .f32⟩
  | .hbm, ⟨20, _⟩ => ⟨S_, .f32⟩
  | .hbm, ⟨21, _⟩ => ⟨S1000000x1, .f32⟩
  | .hbm, ⟨22, _⟩ => ⟨S1000000x1, .f32⟩
  | .hbm, ⟨23, _⟩ => ⟨S1000000x128, .f32⟩
  | .hbm, ⟨24, _⟩ => ⟨S1000000x128, .f32⟩
  | .hbm, ⟨25, _⟩ => ⟨S1000000x7, .f32⟩
  | .hbm, ⟨26, _⟩ => ⟨S1000000x1, .i32⟩
  | .hbm, ⟨27, _⟩ => ⟨S_, .i32⟩
  | .hbm, ⟨28, _⟩ => ⟨S1000000x1, .i32⟩
  | .hbm, ⟨29, _⟩ => ⟨S1000000x1, .i1⟩
  | .hbm, ⟨30, _⟩ => ⟨S_, .i32⟩
  | .hbm, ⟨31, _⟩ => ⟨S1000000x1, .i32⟩
  | .hbm, ⟨32, _⟩ => ⟨S1000000x1, .i32⟩
  | .hbm, ⟨33, _⟩ => ⟨S1000000x1, .i32⟩
  | .hbm, ⟨34, _⟩ => ⟨S1000000x1x1, .i32⟩
  | .hbm, ⟨35, _⟩ => ⟨S1, .i32⟩
  | .hbm, ⟨36, _⟩ => ⟨S_, .i32⟩
  | .hbm, ⟨37, _⟩ => ⟨S1000000x1x1, .i32⟩
  | .hbm, ⟨38, _⟩ => ⟨S1000000x1x1, .i1⟩
  | .hbm, ⟨39, _⟩ => ⟨S1x1x1, .i32⟩
  | .hbm, ⟨40, _⟩ => ⟨S1000000x1x1, .i32⟩
  | .hbm, ⟨41, _⟩ => ⟨S1000000x1x1, .i1⟩
  | .hbm, ⟨42, _⟩ => ⟨S1000000x1x1, .i1⟩
  | .hbm, ⟨43, _⟩ => ⟨S_, .i1⟩
  | .hbm, ⟨44, _⟩ => ⟨S1000000x1, .i1⟩
  | .hbm, ⟨45, _⟩ => ⟨S1000000x1, .f32⟩
  | .hbm, ⟨46, _⟩ => ⟨S_, .f32⟩
  | .hbm, ⟨47, _⟩ => ⟨S1000000x1, .f32⟩
  | .hbm, ⟨48, _⟩ => ⟨S1000000x1, .f32⟩
  | .hbm, ⟨49, _⟩ => ⟨S1000000, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .f32⟩
  | .hbm, ⟨54, _⟩ => ⟨S1000000, .f32⟩
  | .hbm, ⟨55, _⟩ => ⟨S1000000, .f32⟩
  | .hbm, ⟨56, _⟩ => ⟨S_, .f32⟩
  | .hbm, ⟨57, _⟩ => ⟨S_, .f32⟩
  | .hbm, ⟨58, _⟩ => ⟨S1000000, .f32⟩
  | .hbm, ⟨59, _⟩ => ⟨S1000000, .f32⟩
  | .hbm, ⟨60, _⟩ => ⟨S_, .f32⟩
  | .hbm, ⟨61, _⟩ => ⟨S_, .f32⟩
  | .hbm, ⟨62, _⟩ => ⟨S1000000x128, .f32⟩
  | .hbm, ⟨63, _⟩ => ⟨S_, .f32⟩
  | .hbm, ⟨64, _⟩ => ⟨S1000000, .f32⟩
  | .hbm, ⟨65, _⟩ => ⟨S1000000x1, .f32⟩
  | .hbm, ⟨66, _⟩ => ⟨S1000000x1, .f32⟩
  | .hbm, ⟨67, _⟩ => ⟨S_, .f32⟩
  | .hbm, ⟨68, _⟩ => ⟨S1000000x1, .f32⟩
  | .hbm, ⟨69, _⟩ => ⟨S1000000x1, .f32⟩
  | .hbm, ⟨70, _⟩ => ⟨S1000000x128, .f32⟩
  | .hbm, ⟨71, _⟩ => ⟨S1000000x128, .f32⟩
  | .hbm, ⟨72, _⟩ => ⟨S1000000x7, .f32⟩
  | .hbm, ⟨73, _⟩ => ⟨S1000000x1, .i32⟩
  | .hbm, ⟨74, _⟩ => ⟨S_, .i32⟩
  | .hbm, ⟨75, _⟩ => ⟨S1000000x1, .i32⟩
  | .hbm, ⟨76, _⟩ => ⟨S1000000x1, .i1⟩
  | .hbm, ⟨77, _⟩ => ⟨S_, .i32⟩
  | .hbm, ⟨78, _⟩ => ⟨S1000000x1, .i32⟩
  | .hbm, ⟨79, _⟩ => ⟨S1000000x1, .i32⟩
  | .hbm, ⟨80, _⟩ => ⟨S1000000x1, .i32⟩
  | .hbm, ⟨81, _⟩ => ⟨S1000000x1x1, .i32⟩
  | .hbm, ⟨82, _⟩ => ⟨S1, .i32⟩
  | .hbm, ⟨83, _⟩ => ⟨S_, .i32⟩
  | .hbm, ⟨84, _⟩ => ⟨S1000000x1x1, .i32⟩
  | .hbm, ⟨85, _⟩ => ⟨S1000000x1x1, .i1⟩
  | .hbm, ⟨86, _⟩ => ⟨S1x1x1, .i32⟩
  | .hbm, ⟨87, _⟩ => ⟨S1000000x1x1, .i32⟩
  | .hbm, ⟨88, _⟩ => ⟨S1000000x1x1, .i1⟩
  | .hbm, ⟨89, _⟩ => ⟨S1000000x1x1, .i1⟩
  | .hbm, ⟨90, _⟩ => ⟨S_, .i1⟩
  | .hbm, ⟨91, _⟩ => ⟨S1000000x1, .i1⟩
  | .hbm, ⟨92, _⟩ => ⟨S1000000x1, .f32⟩
  | .hbm, ⟨93, _⟩ => ⟨S_, .f32⟩
  | .hbm, ⟨94, _⟩ => ⟨S1000000x1, .f32⟩
  | .hbm, ⟨95, _⟩ => ⟨S1000000x1, .f32⟩
  | .hbm, ⟨96, _⟩ => ⟨S1000000, .f32⟩
  | .hbm, ⟨97, _⟩ => ⟨S_, .i32⟩
  | .hbm, ⟨98, _⟩ => ⟨S1000000, .i32⟩
  | .hbm, ⟨99, _⟩ => ⟨S1000000, .i1⟩
  | .hbm, ⟨100, _⟩ => ⟨S_, .f32⟩
  | .hbm, ⟨101, _⟩ => ⟨S1000000, .f32⟩
  | .hbm, ⟨102, _⟩ => ⟨S1000000, .f32⟩
  | .hbm, ⟨103, _⟩ => ⟨S_, .f32⟩
  | .hbm, ⟨104, _⟩ => ⟨S_, .f32⟩
  | .hbm, ⟨105, _⟩ => ⟨S1000000, .f32⟩
  | .hbm, ⟨106, _⟩ => ⟨S1000000, .f32⟩
  | .hbm, ⟨107, _⟩ => ⟨S_, .f32⟩
  | .hbm, ⟨108, _⟩ => ⟨S_, .f32⟩
  | .hbm, ⟨109, _⟩ => ⟨S_, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v18 : Ref sig .tc := ⟨.hbm, 48, rfl⟩
abbrev main_v19 : Ref sig .tc := ⟨.hbm, 49, rfl⟩
abbrev main_c : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_v24 : Ref sig .tc := ⟨.hbm, 59, rfl⟩
abbrev main_cst_5 : Ref sig .tc := ⟨.hbm, 60, rfl⟩
abbrev main_v25 : Ref sig .tc := ⟨.hbm, 61, rfl⟩
abbrev main_v26 : Ref sig .tc := ⟨.hbm, 62, rfl⟩
abbrev main_cst_6 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_7 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_cst : Ref sig .tc := ⟨.hbm, 93, rfl⟩
abbrev main_call2_v14 : Ref sig .tc := ⟨.hbm, 94, rfl⟩
abbrev main_v36 : Ref sig .tc := ⟨.hbm, 95, rfl⟩
abbrev main_v37 : Ref sig .tc := ⟨.hbm, 96, rfl⟩
abbrev main_c_8 : Ref sig .tc := ⟨.hbm, 97, rfl⟩
abbrev main_v38 : Ref sig .tc := ⟨.hbm, 98, rfl⟩
abbrev main_v39 : Ref sig .tc := ⟨.hbm, 99, rfl⟩
abbrev main_cst_9 : Ref sig .tc := ⟨.hbm, 100, rfl⟩
abbrev main_v40 : Ref sig .tc := ⟨.hbm, 101, rfl⟩
abbrev main_v41 : Ref sig .tc := ⟨.hbm, 102, rfl⟩
abbrev main_cst_10 : Ref sig .tc := ⟨.hbm, 103, rfl⟩
abbrev main_call3_v0 : Ref sig .tc := ⟨.hbm, 104, rfl⟩
abbrev main_call3_v1 : Ref sig .tc := ⟨.hbm, 105, rfl⟩
abbrev main_v42 : Ref sig .tc := ⟨.hbm, 106, rfl⟩
abbrev main_cst_11 : Ref sig .tc := ⟨.hbm, 107, rfl⟩
abbrev main_v43 : Ref sig .tc := ⟨.hbm, 108, rfl⟩
abbrev main_v44 : Ref sig .tc := ⟨.hbm, 109, rfl⟩

abbrev nD : Nat := 1
abbrev τ : Topo := Topo.v7x

variable {F : FTy → Type} [FloatOps F]

class Facts₀ : Prop where
  reducesTo_S7x128_S7_d1 : S7x128.ReducesTo [1] S7
  h_S_ : 0 < S_.numel
  bcast_S7_S7x1_0 : S7.BroadcastsInDim S7x1 (![0] : Fin 1 → Fin S7x1.rank)
  bcast_S_S7x1 : S_.BroadcastsInDim S7x1 (![] : Fin 0 → Fin S7x1.rank)
  bcast_S7x1_S7x128_0_1 : S7x1.BroadcastsInDim S7x128 (![0, 1] : Fin 2 → Fin S7x128.rank)
  reducesTo_S1000000x128_S1000000_d1 : S1000000x128.ReducesTo [1] S1000000
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  shapeCasts_S1000000x1_S1000000x1x1 : S1000000x1.ShapeCasts S1000000x1x1
  bcast_S_S1000000x1x1 : S_.BroadcastsInDim S1000000x1x1 (![] : Fin 0 → Fin S1000000x1x1.rank)
  bcast_S1_S1x1x1_2 : S1.BroadcastsInDim S1x1x1 (![2] : Fin 1 → Fin S1x1x1.rank)
  bcast_S1x1x1_S1000000x1x1_0_1_2 : S1x1x1.BroadcastsInDim S1000000x1x1 (![0, 1, 2] : Fin 3 → Fin S1000000x1x1.rank)
  reducesTo_S1000000x1x1_S1000000x1_d2 : S1000000x1x1.ReducesTo [2] S1000000x1
  shapeCasts_S1000000x1_S1000000 : S1000000x1.ShapeCasts S1000000
  bcast_S_S1000000 : S_.BroadcastsInDim S1000000 (![] : Fin 0 → Fin S1000000.rank)
  reducesTo_S1000000_S_d0 : S1000000.ReducesTo [0] S_
  dot_S1000000x128_S7x128_S1000000x7_1_1_0_0_n_n_wf : DotDims.WF S1000000x128 S7x128 S1000000x7 [1] [1] [0] [0] [] []
  gather_S1000000x7_S1000000x1x1_S1000000x1_n_1_0_0_1_2_11_wf : GatherDims.WF S1000000x7 S1000000x1x1 S1000000x1 [] [1] [0] [1] [0] 2 ![1, 1]

variable [Facts₀]

def dot_S1000000x128_S7x128_S1000000x7_1_1_0_0_n_n : DotDims S1000000x128 S7x128 S1000000x7 where
  lhsContracting := [1]
  rhsContracting := [1]
  lhsNonContracting := [0]
  rhsNonContracting := [0]
  lhsBatch := []
  rhsBatch := []
  wf := dot_S1000000x128_S7x128_S1000000x7_1_1_0_0_n_n_wf
def gather_S1000000x7_S1000000x1x1_S1000000x1_n_1_0_0_1_2_11 : GatherDims S1000000x7 S1000000x1x1 S1000000x1 where
  offsetDims := []
  collapsedSliceDims := [1]
  operandBatchingDims := [0]
  startIndicesBatchingDims := [0]
  startIndexMap := [1]
  indexVectorDim := 2
  sliceSizes := ![1, 1]
  wf := gather_S1000000x7_S1000000x1x1_S1000000x1_n_1_0_0_1_2_11_wf

class Facts : Prop extends Facts₀ where

variable [Facts]
-- ==== Proof.WBranch0.lean ====
/-
  One launch of the branch kernel as the pipeline runs it: 250 grid points, each staging a tile of 4000 rows (window 0),
  the tile's 4000 labels (window 1) and the 128×7 table of scaled centres (window 2, fetched once), a 1×1 output
  (window 3, written back at the last point only) and a 1×1 scratch cell that lives across the points.

  At every point the body adds the tile's share of the loss to the cell: at the first point it first stores zero
  into the cell, at the last point it also copies the cell into the output's staging buffer.  So after point `n` the
  cell holds `cellAt n`, defined by recursion on the point from the body's own arithmetic (the skeleton's payload):
  `cellAt 0 = step tile₀ 0`, `cellAt (n+1) = step tileₙ₊₁ (cellAt n)`.

  Stated here for any contents `V` of the core's buffers at the launch's entry: the body's run in each of the three
  cases (first point, inner point, last point), the invariant that carries the cell from point to point, the
  pipeline's proof data and the body obligation, and the invariant's two ends.
-/
import proofs.«401307_j46866683134130_1_alg».proof.Proof.Gen.Kernel.Launch
import proofs.«401307_j46866683134130_1_alg».proof.Proof.Gen.Kernel.Skeleton
import proofs.«401307_j46866683134130_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Branch0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the grid point -/

/-- The body's first `scf.if`: the point is the grid's first. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The body's second `scf.if`: the point is the grid's last. -/
abbrev atLast (i : grid0.Coords) : Prop := k0_cond2 i = 1#1
theorem atLast_iff : ∀ t : Fin cfg0.N, atLast (grid0.coords t) ↔ t.val = 249 :=
  (by decide +kernel : ∀ t : Fin grid0.N, atLast (grid0.coords t) ↔ t.val = 249)

/-- The three inputs are never idle; the output is idle, and not written back, everywhere but at the last point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬atLast (grid0.coords t) → cfg0.idle 3 (grid0.coords t) = true := by decide +kernel
theorem noFlush_3 : ∀ t : Fin cfg0.N, ¬atLast (grid0.coords t) → (cfg0.win 3).flush t = false := by decide +kernel
theorem live_3 : ∀ t : Fin cfg0.N, atLast (grid0.coords t) → cfg0.idle 3 (grid0.coords t) = false := by decide +kernel

/-! ## The staging memrefs at a point, and the cell -/

abbrev ms_0 (t : Fin cfg0.N) : Memref sig .tc .vmem S4000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4000x1 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x7 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1 .f32 := win0_3.stage (cfg0.slots t 3)
abbrev hs_3 (t : Fin cfg0.N) : (ms_3 t).IsWhole := hstage0_3 ((cfg0.slots t 3).cast nbuf0_3)
/-- The cell: the kernel's one scratch operand, a whole scoped buffer. -/
abbrev cellM : Memref sig .tc .vmem S1x1 .f32 := Memref.whole cc0_scratch0

/-- The launch's invariant with the cell split off: the cell at some contents, every other scoped buffer that is no
    staging buffer of this launch at some contents, the generator register at some state. -/
theorem PhiA_eq (c : Dev nD) :
    (Pipeline.ΦA spec0 c : sProp 𝕄)
      = iprop(((∃ d, owns (c : Thread nD τ) cellM fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [cellM, owns_whole, bigSepL]
  try rfl

/-! ## The body's run in each case

On whole memrefs holding a tile `x0`, its labels `l0`, the centres `c0`, an output buffer at `o0` and the cell at
`s0`: the body ends with the inputs as they were and the cell at the payload's value — over the zero it has just
stored (first point) or over `s0` —, the output untouched, or (last point) holding a copy of the cell. -/

set_option maxHeartbeats 1000000 in
theorem runA (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : atFirst i) (hc1 : ¬atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (o0) ∗ owns (c : Thread nD τ) arg5 fullShare (k0_pay1 (k0_pay3 x0 c0 l0 k0_pay2))) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

set_option maxHeartbeats 1000000 in
theorem runB (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : ¬atFirst i) (hc1 : ¬atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (o0) ∗ owns (c : Thread nD τ) arg5 fullShare (k0_pay1 (k0_pay3 x0 c0 l0 s0))) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

set_option maxHeartbeats 1000000 in
theorem runC (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : ¬atFirst i) (hc1 : atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (k0_pay1 (k0_pay3 x0 c0 l0 s0)) ∗ owns (c : Thread nD τ) arg5 fullShare (k0_pay1 (k0_pay3 x0 c0 l0 s0))) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_eq_canon _ _ _ (fun y => View.cover_of_tiledL _ S1x1.size (by sl_kernel_rfl) y)]
    sl_unfold_run_names
    rw [View.canon_cons_unit_zero hz]
    simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

/-! ## The blocks at a point, and what the cell holds after it -/

section AtEntry

variable (V : (c : Dev nD) → (b : Ref sig .tc) → Buf (Elt F) ((c : Thread nD τ).loc b))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile, its labels and the centres at point `t`, at their literal types. -/
abbrev tile (c : Dev nD) (t : Fin cfg0.N) : Vec F S4000x128 .f32 := iblk V c 0 t
abbrev labs (c : Dev nD) (t : Fin cfg0.N) : Vec F S4000x1 .i32 := iblk V c 1 t
abbrev cens (c : Dev nD) (t : Fin cfg0.N) : Vec F S128x7 .f32 := iblk V c 2 t

/-- What the cell holds after point `n`: the body's arithmetic over the zero it stores at the first point, then over
    what the point before left. -/
def cellAt (c : Dev nD) : (n : ℕ) → n < cfg0.N → Vec F S1x1 .f32
  | 0, hn => k0_pay1 (k0_pay3 (tile V c ⟨0, hn⟩) (cens V c ⟨0, hn⟩) (labs V c ⟨0, hn⟩) k0_pay2)
  | n + 1, hn => k0_pay1 (k0_pay3 (tile V c ⟨n + 1, hn⟩) (cens V c ⟨n + 1, hn⟩) (labs V c ⟨n + 1, hn⟩) (cellAt c n (Nat.lt_of_succ_lt hn)))

theorem cellAt_zero (c : Dev nD) (hn : 0 < cfg0.N) :
    cellAt V c 0 hn = k0_pay1 (k0_pay3 (tile V c ⟨0, hn⟩) (cens V c ⟨0, hn⟩) (labs V c ⟨0, hn⟩) k0_pay2) := rfl
theorem cellAt_succ (c : Dev nD) (n : ℕ) (hn : n + 1 < cfg0.N) :
    cellAt V c (n + 1) hn = k0_pay1 (k0_pay3 (tile V c ⟨n + 1, hn⟩) (cens V c ⟨n + 1, hn⟩) (labs V c ⟨n + 1, hn⟩) (cellAt V c n (Nat.lt_of_succ_lt hn))) := rfl
/-- At a point that is not the first, over what the point before left. -/
theorem cellAt_pos (c : Dev nD) (t : Fin cfg0.N) (ht : t.val ≠ 0) :
    cellAt V c t.val t.isLt = k0_pay1 (k0_pay3 (tile V c t) (cens V c t) (labs V c t) (cellAt V c (t.val - 1) (Nat.lt_of_le_of_lt (Nat.sub_le _ _) t.isLt))) := by
  obtain ⟨n, hn⟩ := t
  cases n with
  | zero => exact absurd rfl ht
  | succ n => rfl

/-! ## The invariant that carries the cell -/

/-- Before the first point the launch's own invariant (every scoped buffer at anything); before point `n + 1` the cell
    at what point `n` left, the other scoped buffers at anything, the generator register at some state. -/
def PhiS (c : Dev nD) : (n : ℕ) → n ≤ cfg0.N → sProp 𝕄
  | 0, _ => Pipeline.ΦA spec0 c
  | n + 1, hn => iprop((owns (c : Thread nD τ) cellM fullShare (cellAt V c n hn)
      ∗ Pipeline.scopedRestBut (Ix := Unit) (Name := ℕ) (U := UR sig nD τ) (Lvl := ℕ) (Val := Elt F) spec0 c [cc0_scratch0])
      ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) cellM fullShare (cellAt V c n hn)
      ∗ Pipeline.scopedRestBut (Ix := Unit) (Name := ℕ) (U := UR sig nD τ) (Lvl := ℕ) (Val := Elt F) spec0 c [cc0_scratch0])
      ∗ (∃ r, prngReg c r)) := rfl
theorem PhiS_pos (c : Dev nD) (n : ℕ) (h : n ≤ cfg0.N) (hz : n ≠ 0) :
    PhiS V c n h = iprop((owns (c : Thread nD τ) cellM fullShare (cellAt V c (n - 1) (by omega))
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-! ## The pipeline's proof data -/

/-- The arrays as the launch finds them; after the body each input's buffer at its block and the output's at the
    cell's contents (read only at the last point, where the body copies the cell there); the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => cellAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = cellAt V c t.val t.isLt := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; the point is the first, the last or neither, and in
    each case the run of that case applies; the invariant hands the body the cell (at anything before the first point,
    at what the point before left afterwards) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 250 := lt_of_lt_of_eq t.isLt (show cfg0.N = 250 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val = 0
  · -- the first point
    have hl : ¬t.val = 249 := by omega
    rw [Dat.leavesExact_idle (dat V c) 3 t (idle_3 t (fun h => hl ((atLast_iff t).mp h))) (noFlush_3 t (fun h => hl ((atLast_iff t).mp h)))]
    rw [Phi_castSucc V c t, PhiS_zero V c _ _ h0, PhiA_eq]
    have hcell : cellAt V c t.val t.isLt = k0_pay1 (k0_pay3 (tile V c t) (cens V c t) (labs V c t) k0_pay2) := by
      obtain ⟨n, hn⟩ := t; cases n with
      | zero => rfl
      | succ n => exact absurd h0 (Nat.succ_ne_zero n)
    rw [hcell]
    iintro ⟨⟨⟨⟨%s0, HS⟩, HR⟩, Hg⟩, Ho, ⟨%d0, H0⟩, ⟨%d1, H1⟩, ⟨%d2, H2⟩, ⟨%d3, H3⟩⟩
    iapply (runA c (grid0.coords t) _ (hs_0 t) _ (hs_1 t) _ (hs_2 t) _ (hs_3 t) cellM (Memref.isWhole_whole _)
      ((atFirst_iff t).mpr h0) (fun h => hl ((atLast_iff t).mp h)) (tile V c t) (labs V c t) (cens V c t) _ s0 Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · rw [Phi_castSucc V c t, PhiS_pos V c _ _ h0, cellAt_pos V c t h0]
    by_cases hl : t.val = 249
    · -- the last point
      rw [show (dat V c).leavesExact 3 t = owns (c : Thread nD τ) (ms_3 t) fullShare ((dat V c).after 3 t) from by
        unfold Dat.leavesExact; rw [live_3 t ((atLast_iff t).mpr hl)], after_3, cellAt_pos V c t h0]
      iintro ⟨⟨⟨HS, HR⟩, Hg⟩, Ho, ⟨%d0, H0⟩, ⟨%d1, H1⟩, ⟨%d2, H2⟩, ⟨%d3, H3⟩⟩
      iapply (runC c (grid0.coords t) _ (hs_0 t) _ (hs_1 t) _ (hs_2 t) _ (hs_3 t) cellM (Memref.isWhole_whole _)
        (fun h => h0 ((atFirst_iff t).mp h)) ((atLast_iff t).mpr hl) (tile V c t) (labs V c t) (cens V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- an inner point
      rw [Dat.leavesExact_idle (dat V c) 3 t (idle_3 t (fun h => hl ((atLast_iff t).mp h))) (noFlush_3 t (fun h => hl ((atLast_iff t).mp h)))]
      iintro ⟨⟨⟨HS, HR⟩, Hg⟩, Ho, ⟨%d0, H0⟩, ⟨%d1, H1⟩, ⟨%d2, H2⟩, ⟨%d3, H3⟩⟩
      iapply (runB c (grid0.coords t) _ (hs_0 t) _ (hs_1 t) _ (hs_2 t) _ (hs_3 t) cellM (Memref.isWhole_whole _)
        (fun h => h0 ((atFirst_iff t).mp h)) (fun h => hl ((atLast_iff t).mp h)) (tile V c t) (labs V c t) (cens V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the launch's back: the cell's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 250 := N_0; omega), PhiA_eq]
  iintro ⟨⟨HS, HR⟩, Hg⟩
  isplitl [HS HR]
  · isplitl [HS]; · iexists _; iexact HS
    iexact HR
  iexact Hg

end AtEntry

end Cert.Kernel.Branch0

end
-- ==== Proof.WBranch1.lean ====
/-
  One launch of the branch kernel as the pipeline runs it: 250 grid points, each staging a tile of 4000 rows (window 0),
  the tile's 4000 labels (window 1) and the 128×7 table of scaled centres (window 2, fetched once), a 1×1 output
  (window 3, written back at the last point only) and a 1×1 scratch cell that lives across the points.

  At every point the body adds the tile's share of the loss to the cell: at the first point it first stores zero
  into the cell, at the last point it also copies the cell into the output's staging buffer.  So after point `n` the
  cell holds `cellAt n`, defined by recursion on the point from the body's own arithmetic (the skeleton's payload):
  `cellAt 0 = step tile₀ 0`, `cellAt (n+1) = step tileₙ₊₁ (cellAt n)`.

  Stated here for any contents `V` of the core's buffers at the launch's entry: the body's run in each of the three
  cases (first point, inner point, last point), the invariant that carries the cell from point to point, the
  pipeline's proof data and the body obligation, and the invariant's two ends.
-/
import proofs.«401307_j46866683134130_1_alg».proof.Proof.Gen.Kernel.Launch
import proofs.«401307_j46866683134130_1_alg».proof.Proof.Gen.Kernel.Skeleton
import proofs.«401307_j46866683134130_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Branch1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the grid point -/

/-- The body's first `scf.if`: the point is the grid's first. -/
abbrev atFirst (i : grid1.Coords) : Prop := (Scalar.cmpi .ne (Scalar.extui (Scalar.cmpi .eq (BitVec.ofNat 32 (i 0).val) 0#32)) 0#32) = 1#1
theorem atFirst_iff : ∀ t : Fin cfg1.N, atFirst (grid1.coords t) ↔ t.val = 0 :=
  (by decide +kernel : ∀ t : Fin grid1.N, atFirst (grid1.coords t) ↔ t.val = 0)

/-- The body's second `scf.if`: the point is the grid's last. -/
abbrev atLast (i : grid1.Coords) : Prop := k1_cond2 i = 1#1
theorem atLast_iff : ∀ t : Fin cfg1.N, atLast (grid1.coords t) ↔ t.val = 249 :=
  (by decide +kernel : ∀ t : Fin grid1.N, atLast (grid1.coords t) ↔ t.val = 249)

/-- The three inputs are never idle; the output is idle, and not written back, everywhere but at the last point. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_3 : ∀ t : Fin cfg1.N, ¬atLast (grid1.coords t) → cfg1.idle 3 (grid1.coords t) = true := by decide +kernel
theorem noFlush_3 : ∀ t : Fin cfg1.N, ¬atLast (grid1.coords t) → (cfg1.win 3).flush t = false := by decide +kernel
theorem live_3 : ∀ t : Fin cfg1.N, atLast (grid1.coords t) → cfg1.idle 3 (grid1.coords t) = false := by decide +kernel

/-! ## The staging memrefs at a point, and the cell -/

abbrev ms_0 (t : Fin cfg1.N) : Memref sig .tc .vmem S4000x128 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4000x1 .i32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S128x7 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1 .f32 := win1_3.stage (cfg1.slots t 3)
abbrev hs_3 (t : Fin cfg1.N) : (ms_3 t).IsWhole := hstage1_3 ((cfg1.slots t 3).cast nbuf1_3)
/-- The cell: the kernel's one scratch operand, a whole scoped buffer. -/
abbrev cellM : Memref sig .tc .vmem S1x1 .f32 := Memref.whole cc1_scratch0

/-- The launch's invariant with the cell split off: the cell at some contents, every other scoped buffer that is no
    staging buffer of this launch at some contents, the generator register at some state. -/
theorem PhiA_eq (c : Dev nD) :
    (Pipeline.ΦA spec1 c : sProp 𝕄)
      = iprop(((∃ d, owns (c : Thread nD τ) cellM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [cellM, owns_whole, bigSepL]
  try rfl

/-! ## The body's run in each case

On whole memrefs holding a tile `x0`, its labels `l0`, the centres `c0`, an output buffer at `o0` and the cell at
`s0`: the body ends with the inputs as they were and the cell at the payload's value — over the zero it has just
stored (first point) or over `s0` —, the output untouched, or (last point) holding a copy of the cell. -/

set_option maxHeartbeats 1000000 in
theorem runA (c : Dev nD) (i : grid1.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : atFirst i) (hc1 : ¬atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (o0) ∗ owns (c : Thread nD τ) arg5 fullShare (k1_pay1 (k1_pay3 x0 c0 l0 k1_pay2))) -∗ K ⟨⟩))
      ⊢ wp frame (wpE (defs₀ (F := F)) Variants.none c none) E (cc1__branch_kernel i arg1 harg1 arg2 harg2 arg3 harg3 arg4 harg4 arg5 harg5) K := by
  simp only [cc1__branch_kernel_eq_skeleton]; unfold cc1__branch_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

set_option maxHeartbeats 1000000 in
theorem runB (c : Dev nD) (i : grid1.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : ¬atFirst i) (hc1 : ¬atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (o0) ∗ owns (c : Thread nD τ) arg5 fullShare (k1_pay1 (k1_pay3 x0 c0 l0 s0))) -∗ K ⟨⟩))
      ⊢ wp frame (wpE (defs₀ (F := F)) Variants.none c none) E (cc1__branch_kernel i arg1 harg1 arg2 harg2 arg3 harg3 arg4 harg4 arg5 harg5) K := by
  simp only [cc1__branch_kernel_eq_skeleton]; unfold cc1__branch_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

set_option maxHeartbeats 1000000 in
theorem runC (c : Dev nD) (i : grid1.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : ¬atFirst i) (hc1 : atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (k1_pay1 (k1_pay3 x0 c0 l0 s0)) ∗ owns (c : Thread nD τ) arg5 fullShare (k1_pay1 (k1_pay3 x0 c0 l0 s0))) -∗ K ⟨⟩))
      ⊢ wp frame (wpE (defs₀ (F := F)) Variants.none c none) E (cc1__branch_kernel i arg1 harg1 arg2 harg2 arg3 harg3 arg4 harg4 arg5 harg5) K := by
  simp only [cc1__branch_kernel_eq_skeleton]; unfold cc1__branch_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_eq_canon _ _ _ (fun y => View.cover_of_tiledL _ S1x1.size (by sl_kernel_rfl) y)]
    sl_unfold_run_names
    rw [View.canon_cons_unit_zero hz]
    simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

/-! ## The blocks at a point, and what the cell holds after it -/

section AtEntry

variable (V : (c : Dev nD) → (b : Ref sig .tc) → Buf (Elt F) ((c : Thread nD τ).loc b))

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile, its labels and the centres at point `t`, at their literal types. -/
abbrev tile (c : Dev nD) (t : Fin cfg1.N) : Vec F S4000x128 .f32 := iblk V c 0 t
abbrev labs (c : Dev nD) (t : Fin cfg1.N) : Vec F S4000x1 .i32 := iblk V c 1 t
abbrev cens (c : Dev nD) (t : Fin cfg1.N) : Vec F S128x7 .f32 := iblk V c 2 t

/-- What the cell holds after point `n`: the body's arithmetic over the zero it stores at the first point, then over
    what the point before left. -/
def cellAt (c : Dev nD) : (n : ℕ) → n < cfg1.N → Vec F S1x1 .f32
  | 0, hn => k1_pay1 (k1_pay3 (tile V c ⟨0, hn⟩) (cens V c ⟨0, hn⟩) (labs V c ⟨0, hn⟩) k1_pay2)
  | n + 1, hn => k1_pay1 (k1_pay3 (tile V c ⟨n + 1, hn⟩) (cens V c ⟨n + 1, hn⟩) (labs V c ⟨n + 1, hn⟩) (cellAt c n (Nat.lt_of_succ_lt hn)))

theorem cellAt_zero (c : Dev nD) (hn : 0 < cfg1.N) :
    cellAt V c 0 hn = k1_pay1 (k1_pay3 (tile V c ⟨0, hn⟩) (cens V c ⟨0, hn⟩) (labs V c ⟨0, hn⟩) k1_pay2) := rfl
theorem cellAt_succ (c : Dev nD) (n : ℕ) (hn : n + 1 < cfg1.N) :
    cellAt V c (n + 1) hn = k1_pay1 (k1_pay3 (tile V c ⟨n + 1, hn⟩) (cens V c ⟨n + 1, hn⟩) (labs V c ⟨n + 1, hn⟩) (cellAt V c n (Nat.lt_of_succ_lt hn))) := rfl
/-- At a point that is not the first, over what the point before left. -/
theorem cellAt_pos (c : Dev nD) (t : Fin cfg1.N) (ht : t.val ≠ 0) :
    cellAt V c t.val t.isLt = k1_pay1 (k1_pay3 (tile V c t) (cens V c t) (labs V c t) (cellAt V c (t.val - 1) (Nat.lt_of_le_of_lt (Nat.sub_le _ _) t.isLt))) := by
  obtain ⟨n, hn⟩ := t
  cases n with
  | zero => exact absurd rfl ht
  | succ n => rfl

/-! ## The invariant that carries the cell -/

/-- Before the first point the launch's own invariant (every scoped buffer at anything); before point `n + 1` the cell
    at what point `n` left, the other scoped buffers at anything, the generator register at some state. -/
def PhiS (c : Dev nD) : (n : ℕ) → n ≤ cfg1.N → sProp 𝕄
  | 0, _ => Pipeline.ΦA spec1 c
  | n + 1, hn => iprop((owns (c : Thread nD τ) cellM fullShare (cellAt V c n hn)
      ∗ Pipeline.scopedRestBut (Ix := Unit) (Name := ℕ) (U := UR sig nD τ) (Lvl := ℕ) (Val := Elt F) spec1 c [cc1_scratch0])
      ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((owns (c : Thread nD τ) cellM fullShare (cellAt V c n hn)
      ∗ Pipeline.scopedRestBut (Ix := Unit) (Name := ℕ) (U := UR sig nD τ) (Lvl := ℕ) (Val := Elt F) spec1 c [cc1_scratch0])
      ∗ (∃ r, prngReg c r)) := rfl
theorem PhiS_pos (c : Dev nD) (n : ℕ) (h : n ≤ cfg1.N) (hz : n ≠ 0) :
    PhiS V c n h = iprop((owns (c : Thread nD τ) cellM fullShare (cellAt V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The pipeline's proof data -/

/-- The arrays as the launch finds them; after the body each input's buffer at its block and the output's at the
    cell's contents (read only at the last point, where the body copies the cell there); the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => cellAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = cellAt V c t.val t.isLt := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; the point is the first, the last or neither, and in
    each case the run of that case applies; the invariant hands the body the cell (at anything before the first point,
    at what the point before left afterwards) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 250 := lt_of_lt_of_eq t.isLt (show cfg1.N = 250 from N_1)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val = 0
  · -- the first point
    have hl : ¬t.val = 249 := by omega
    rw [Dat.leavesExact_idle (dat V c) 3 t (idle_3 t (fun h => hl ((atLast_iff t).mp h))) (noFlush_3 t (fun h => hl ((atLast_iff t).mp h)))]
    rw [Phi_castSucc V c t, PhiS_zero V c _ _ h0, PhiA_eq]
    have hcell : cellAt V c t.val t.isLt = k1_pay1 (k1_pay3 (tile V c t) (cens V c t) (labs V c t) k1_pay2) := by
      obtain ⟨n, hn⟩ := t; cases n with
      | zero => rfl
      | succ n => exact absurd h0 (Nat.succ_ne_zero n)
    rw [hcell]
    iintro ⟨⟨⟨⟨%s0, HS⟩, HR⟩, Hg⟩, Ho, ⟨%d0, H0⟩, ⟨%d1, H1⟩, ⟨%d2, H2⟩, ⟨%d3, H3⟩⟩
    iapply (runA c (grid1.coords t) _ (hs_0 t) _ (hs_1 t) _ (hs_2 t) _ (hs_3 t) cellM (Memref.isWhole_whole _)
      ((atFirst_iff t).mpr h0) (fun h => hl ((atLast_iff t).mp h)) (tile V c t) (labs V c t) (cens V c t) _ s0 Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · rw [Phi_castSucc V c t, PhiS_pos V c _ _ h0, cellAt_pos V c t h0]
    by_cases hl : t.val = 249
    · -- the last point
      rw [show (dat V c).leavesExact 3 t = owns (c : Thread nD τ) (ms_3 t) fullShare ((dat V c).after 3 t) from by
        unfold Dat.leavesExact; rw [live_3 t ((atLast_iff t).mpr hl)], after_3, cellAt_pos V c t h0]
      iintro ⟨⟨⟨HS, HR⟩, Hg⟩, Ho, ⟨%d0, H0⟩, ⟨%d1, H1⟩, ⟨%d2, H2⟩, ⟨%d3, H3⟩⟩
      iapply (runC c (grid1.coords t) _ (hs_0 t) _ (hs_1 t) _ (hs_2 t) _ (hs_3 t) cellM (Memref.isWhole_whole _)
        (fun h => h0 ((atFirst_iff t).mp h)) ((atLast_iff t).mpr hl) (tile V c t) (labs V c t) (cens V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- an inner point
      rw [Dat.leavesExact_idle (dat V c) 3 t (idle_3 t (fun h => hl ((atLast_iff t).mp h))) (noFlush_3 t (fun h => hl ((atLast_iff t).mp h)))]
      iintro ⟨⟨⟨HS, HR⟩, Hg⟩, Ho, ⟨%d0, H0⟩, ⟨%d1, H1⟩, ⟨%d2, H2⟩, ⟨%d3, H3⟩⟩
      iapply (runB c (grid1.coords t) _ (hs_0 t) _ (hs_1 t) _ (hs_2 t) _ (hs_3 t) cellM (Memref.isWhole_whole _)
        (fun h => h0 ((atFirst_iff t).mp h)) (fun h => hl ((atLast_iff t).mp h)) (tile V c t) (labs V c t) (cens V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the launch's back: the cell's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 250 := N_1; omega), PhiA_eq]
  iintro ⟨⟨HS, HR⟩, Hg⟩
  isplitl [HS HR]
  · isplitl [HS]; · iexists _; iexact HS
    iexact HR
  iexact Hg

end AtEntry

end Cert.Kernel.Branch1

end
-- ==== Proof.WRunAll.lean ====
/-
  The whole program as a run: @main is five segments — the host stretch that scales the centres and lays out the first
  branch's labels, the first launch of the branch kernel, the stretch that reshapes its result and lays out the second
  branch's labels, the second launch, and the stretch that reshapes and adds the two results.

  The contents of the core's buffers are followed from segment to segment: a host stretch applies its operations; a
  launch leaves each of its windows' arrays at what its write-backs leave (the inputs as found, the 1×1 output at the
  block the last grid point writes back) and every other buffer as found.  Each launch is entered with its arrays
  split off the buffers, the generator register and the scoped buffers handed to the kernel's invariant, and left
  with the arrays put back.  The run ends with every buffer at the last of these contents; read at the argument
  arrays, which nothing writes, that is the frame.
-/
import proofs.«401307_j46866683134130_1_alg».proof.Proof.WBranch0
import proofs.«401307_j46866683134130_1_alg».proof.Proof.WBranch1
import proofs.«401307_j46866683134130_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RunAll

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m ((c : Dev nD), b)
/-- After the first host stretch: the first launch's entry contents. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first launch: its arrays at what the pipeline leaves, every other buffer as entered. -/
def W2 (c : Dev nD) : Valuation τ sig (Elt F) :=
  Pipeline.withArrays spec0 c (W1 m c) fun w => (Branch0.dat (V1 m) c).arrAt w cfg0.N
theorem W2_arr (c : Dev nD) (w : Fin cfg0.W) :
    W2 m c (Proc.devRef .tc (Pipeline.arrRef spec0 w)) = (Branch0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Branch0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch: the second launch's entry contents. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (Branch1.dat (V3 m) c).arrAt w cfg1.N
theorem W4_arr (c : Dev nD) (w : Fin cfg1.W) :
    W4 m c (Proc.devRef .tc (Pipeline.arrRef spec1 w)) = (Branch1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Branch1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch: the contents the run ends with. -/
abbrev W5 (c : Dev nD) : Valuation τ sig (Elt F) := StableHlo.after hostOps2 (W4 m c)

/-! ## The proof data family and the thread state -/

abbrev admK : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) admK p) c
  | ⟨0, _⟩ => fun c => Branch0.dat (V1 m) c
  | ⟨1, _⟩ => fun c => Branch1.dat (V3 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The launches as segments -/

set_option backward.isDefEq.respectTransparency.types false in
/-- The first launch: entered from every unscoped buffer at `W1`, left at `W2`. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (Branch0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Branch0.hin (V1 m) c)
    unfold Pipeline.ΦA
    iintro ⟨Hp, -, Hr⟩
    isplitl [Hr]; · iexact Hr
    iexact Hp
  hout c := by
    refine BIBase.Entails.trans (Branch0.hout (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `W3`, left at `W4`. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (Branch1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Branch1.hin (V3 m) c)
    unfold Pipeline.ΦA
    iintro ⟨Hp, -, Hr⟩
    isplitl [Hr]; · iexact Hr
    iexact Hp
  hout c := by
    refine BIBase.Entails.trans (Branch1.hout (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev host0 := hseg (F := F) hostOps0 hostOps0_sub hostOps0_fresh (W0 m)
abbrev host1 := hseg (F := F) hostOps1 hostOps1_sub hostOps1_fresh (W2 m)
abbrev host2 := hseg (F := F) hostOps2 hostOps2_sub hostOps2_fresh (W4 m)

abbrev segs : List (Pipeline.Seg (pcfgs (F := F)) admK (pdats m) () defs₀ 𝒱₀ L lv) :=
  [ .host (host0 m), .region (reg0 m), .host (host1 m), .region (reg1 m), .host (host2 m) ]

theorem main_run (c : Dev nD) : main (F := F) c = Pipeline.Seg.run (segs m) :=
  main_segs admK (pdats m) () 𝒱₀ L lv (host0 m) (host1 m) (host2 m) (reg0 m) (reg1 m) rfl rfl rfl c

set_option backward.isDefEq.respectTransparency.types false in
/-- Every weakly fair execution of @main from memory `m` with zero counters terminates, nothing faulting, and the final
    memory holds every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admK (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((Branch0.dat (V1 m) c).arrAt_in 0 rfl _).trans (Branch0.A_eq (V1 m) c 0))
    _ = m ((c : Thread nD τ).loc main_arg0) := StableHlo.after_of_writes_sub hostOps0 _ hostOps0_writes (by decide)
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := (W4_arr m c 0).trans (((Branch1.dat (V3 m) c).arrAt_in 0 rfl _).trans (Branch1.A_eq (V3 m) c 0))
    _ = W2 m c (Proc.devRef .tc main_arg1) := StableHlo.after_of_writes_sub hostOps1 _ hostOps1_writes (by decide)
    _ = W1 m c (Proc.devRef .tc main_arg1) := W2_of_ne m c main_arg1 (by decide)
    _ = m ((c : Thread nD τ).loc main_arg1) := StableHlo.after_of_writes_sub hostOps0 _ hostOps0_writes (by decide)
theorem W5_of_untouched (c : Dev nD) (b : Ref sig .tc) (h2 : b ∉ hostOps2_W) (h1 : b ∉ hostOps1_W) (h0 : b ∉ hostOps0_W)
    (ha : ∀ w, Pipeline.arrRef spec0 w ≠ b) (hb : ∀ w, Pipeline.arrRef spec1 w ≠ b) :
    W5 m c (Proc.devRef .tc b) = m ((c : Thread nD τ).loc b) :=
  calc W5 m c (Proc.devRef .tc b)
    _ = W4 m c (Proc.devRef .tc b) := StableHlo.after_of_writes_sub hostOps2 _ hostOps2_writes h2
    _ = W3 m c (Proc.devRef .tc b) := W4_of_ne m c b hb
    _ = W2 m c (Proc.devRef .tc b) := StableHlo.after_of_writes_sub hostOps1 _ hostOps1_writes h1
    _ = W1 m c (Proc.devRef .tc b) := W2_of_ne m c b ha
    _ = m ((c : Thread nD τ).loc b) := StableHlo.after_of_writes_sub hostOps0 _ hostOps0_writes h0
theorem W5_main_arg2 (c : Dev nD) : W5 m c (Proc.devRef .tc main_arg2) = m ((c : Thread nD τ).loc main_arg2) :=
  W5_of_untouched m c main_arg2 (by decide) (by decide) (by decide) (by decide) (by decide)
theorem W5_main_arg3 (c : Dev nD) : W5 m c (Proc.devRef .tc main_arg3) = m ((c : Thread nD τ).loc main_arg3) :=
  W5_of_untouched m c main_arg3 (by decide) (by decide) (by decide) (by decide) (by decide)
theorem W5_main_arg4 (c : Dev nD) : W5 m c (Proc.devRef .tc main_arg4) = m ((c : Thread nD τ).loc main_arg4) :=
  W5_of_untouched m c main_arg4 (by decide) (by decide) (by decide) (by decide) (by decide)

/-- THE FRAME, at any `F`: the run, read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.RunAll

end
-- ==== Proof.Branch0.lean ====
/-
  One launch of the branch kernel as the pipeline runs it: 250 grid points, each staging a tile of 4000 rows (window 0),
  the tile's 4000 labels (window 1) and the 128×7 table of scaled centres (window 2, fetched once), a 1×1 output
  (window 3, written back at the last point only) and a 1×1 scratch cell that lives across the points.

  At every point the body adds the tile's share of the loss to the cell: at the first point it first stores zero
  into the cell, at the last point it also copies the cell into the output's staging buffer.  So after point `n` the
  cell holds `cellAt n`, defined by recursion on the point from the body's own arithmetic (the skeleton's payload):
  `cellAt 0 = step tile₀ 0`, `cellAt (n+1) = step tileₙ₊₁ (cellAt n)`.

  Stated here for any contents `V` of the core's buffers at the launch's entry: the body's run in each of the three
  cases (first point, inner point, last point), the invariant that carries the cell from point to point, the
  pipeline's proof data and the body obligation, and the invariant's two ends.
-/
import proofs.«401307_j46866683134130_1_alg».proof.Proof.Gen.KernelIdeal.Launch
import proofs.«401307_j46866683134130_1_alg».proof.Proof.Gen.KernelIdeal.Skeleton
import proofs.«401307_j46866683134130_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Branch0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the grid point -/

/-- The body's first `scf.if`: the point is the grid's first. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The body's second `scf.if`: the point is the grid's last. -/
abbrev atLast (i : grid0.Coords) : Prop := k0_cond2 i = 1#1
theorem atLast_iff : ∀ t : Fin cfg0.N, atLast (grid0.coords t) ↔ t.val = 249 :=
  (by decide +kernel : ∀ t : Fin grid0.N, atLast (grid0.coords t) ↔ t.val = 249)

/-- The three inputs are never idle; the output is idle, and not written back, everywhere but at the last point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬atLast (grid0.coords t) → cfg0.idle 3 (grid0.coords t) = true := by decide +kernel
theorem noFlush_3 : ∀ t : Fin cfg0.N, ¬atLast (grid0.coords t) → (cfg0.win 3).flush t = false := by decide +kernel
theorem live_3 : ∀ t : Fin cfg0.N, atLast (grid0.coords t) → cfg0.idle 3 (grid0.coords t) = false := by decide +kernel

/-! ## The staging memrefs at a point, and the cell -/

abbrev ms_0 (t : Fin cfg0.N) : Memref sig .tc .vmem S4000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4000x1 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x7 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1 .f32 := win0_3.stage (cfg0.slots t 3)
abbrev hs_3 (t : Fin cfg0.N) : (ms_3 t).IsWhole := hstage0_3 ((cfg0.slots t 3).cast nbuf0_3)
/-- The cell: the kernel's one scratch operand, a whole scoped buffer. -/
abbrev cellM : Memref sig .tc .vmem S1x1 .f32 := Memref.whole cc0_scratch0

/-- The launch's invariant with the cell split off: the cell at some contents, every other scoped buffer that is no
    staging buffer of this launch at some contents, the generator register at some state. -/
theorem PhiA_eq (c : Dev nD) :
    (Pipeline.ΦA spec0 c : sProp 𝕄)
      = iprop(((∃ d, owns (c : Thread nD τ) cellM fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [cellM, owns_whole, bigSepL]
  try rfl

/-! ## The body's run in each case

On whole memrefs holding a tile `x0`, its labels `l0`, the centres `c0`, an output buffer at `o0` and the cell at
`s0`: the body ends with the inputs as they were and the cell at the payload's value — over the zero it has just
stored (first point) or over `s0` —, the output untouched, or (last point) holding a copy of the cell. -/

set_option maxHeartbeats 1000000 in
theorem runA (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : atFirst i) (hc1 : ¬atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (o0) ∗ owns (c : Thread nD τ) arg5 fullShare (k0_pay1 (k0_pay3 x0 c0 l0 k0_pay2))) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

set_option maxHeartbeats 1000000 in
theorem runB (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : ¬atFirst i) (hc1 : ¬atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (o0) ∗ owns (c : Thread nD τ) arg5 fullShare (k0_pay1 (k0_pay3 x0 c0 l0 s0))) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

set_option maxHeartbeats 1000000 in
theorem runC (c : Dev nD) (i : grid0.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : ¬atFirst i) (hc1 : atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (k0_pay1 (k0_pay3 x0 c0 l0 s0)) ∗ owns (c : Thread nD τ) arg5 fullShare (k0_pay1 (k0_pay3 x0 c0 l0 s0))) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_eq_canon _ _ _ (fun y => View.cover_of_tiledL _ S1x1.size (by sl_kernel_rfl) y)]
    sl_unfold_run_names
    rw [View.canon_cons_unit_zero hz]
    simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

/-! ## The blocks at a point, and what the cell holds after it -/

section AtEntry

variable (V : (c : Dev nD) → (b : Ref sig .tc) → Buf (Elt F) ((c : Thread nD τ).loc b))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile, its labels and the centres at point `t`, at their literal types. -/
abbrev tile (c : Dev nD) (t : Fin cfg0.N) : Vec F S4000x128 .f32 := iblk V c 0 t
abbrev labs (c : Dev nD) (t : Fin cfg0.N) : Vec F S4000x1 .i32 := iblk V c 1 t
abbrev cens (c : Dev nD) (t : Fin cfg0.N) : Vec F S128x7 .f32 := iblk V c 2 t

/-- What the cell holds after point `n`: the body's arithmetic over the zero it stores at the first point, then over
    what the point before left. -/
def cellAt (c : Dev nD) : (n : ℕ) → n < cfg0.N → Vec F S1x1 .f32
  | 0, hn => k0_pay1 (k0_pay3 (tile V c ⟨0, hn⟩) (cens V c ⟨0, hn⟩) (labs V c ⟨0, hn⟩) k0_pay2)
  | n + 1, hn => k0_pay1 (k0_pay3 (tile V c ⟨n + 1, hn⟩) (cens V c ⟨n + 1, hn⟩) (labs V c ⟨n + 1, hn⟩) (cellAt c n (Nat.lt_of_succ_lt hn)))

theorem cellAt_zero (c : Dev nD) (hn : 0 < cfg0.N) :
    cellAt V c 0 hn = k0_pay1 (k0_pay3 (tile V c ⟨0, hn⟩) (cens V c ⟨0, hn⟩) (labs V c ⟨0, hn⟩) k0_pay2) := rfl
theorem cellAt_succ (c : Dev nD) (n : ℕ) (hn : n + 1 < cfg0.N) :
    cellAt V c (n + 1) hn = k0_pay1 (k0_pay3 (tile V c ⟨n + 1, hn⟩) (cens V c ⟨n + 1, hn⟩) (labs V c ⟨n + 1, hn⟩) (cellAt V c n (Nat.lt_of_succ_lt hn))) := rfl
/-- At a point that is not the first, over what the point before left. -/
theorem cellAt_pos (c : Dev nD) (t : Fin cfg0.N) (ht : t.val ≠ 0) :
    cellAt V c t.val t.isLt = k0_pay1 (k0_pay3 (tile V c t) (cens V c t) (labs V c t) (cellAt V c (t.val - 1) (Nat.lt_of_le_of_lt (Nat.sub_le _ _) t.isLt))) := by
  obtain ⟨n, hn⟩ := t
  cases n with
  | zero => exact absurd rfl ht
  | succ n => rfl

/-! ## The invariant that carries the cell -/

/-- Before the first point the launch's own invariant (every scoped buffer at anything); before point `n + 1` the cell
    at what point `n` left, the other scoped buffers at anything, the generator register at some state. -/
def PhiS (c : Dev nD) : (n : ℕ) → n ≤ cfg0.N → sProp 𝕄
  | 0, _ => Pipeline.ΦA spec0 c
  | n + 1, hn => iprop((owns (c : Thread nD τ) cellM fullShare (cellAt V c n hn)
      ∗ Pipeline.scopedRestBut (Ix := Unit) (Name := ℕ) (U := UR sig nD τ) (Lvl := ℕ) (Val := Elt F) spec0 c [cc0_scratch0])
      ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) cellM fullShare (cellAt V c n hn)
      ∗ Pipeline.scopedRestBut (Ix := Unit) (Name := ℕ) (U := UR sig nD τ) (Lvl := ℕ) (Val := Elt F) spec0 c [cc0_scratch0])
      ∗ (∃ r, prngReg c r)) := rfl
theorem PhiS_pos (c : Dev nD) (n : ℕ) (h : n ≤ cfg0.N) (hz : n ≠ 0) :
    PhiS V c n h = iprop((owns (c : Thread nD τ) cellM fullShare (cellAt V c (n - 1) (by omega))
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-! ## The pipeline's proof data -/

/-- The arrays as the launch finds them; after the body each input's buffer at its block and the output's at the
    cell's contents (read only at the last point, where the body copies the cell there); the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => cellAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = cellAt V c t.val t.isLt := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; the point is the first, the last or neither, and in
    each case the run of that case applies; the invariant hands the body the cell (at anything before the first point,
    at what the point before left afterwards) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 250 := lt_of_lt_of_eq t.isLt (show cfg0.N = 250 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val = 0
  · -- the first point
    have hl : ¬t.val = 249 := by omega
    rw [Dat.leavesExact_idle (dat V c) 3 t (idle_3 t (fun h => hl ((atLast_iff t).mp h))) (noFlush_3 t (fun h => hl ((atLast_iff t).mp h)))]
    rw [Phi_castSucc V c t, PhiS_zero V c _ _ h0, PhiA_eq]
    have hcell : cellAt V c t.val t.isLt = k0_pay1 (k0_pay3 (tile V c t) (cens V c t) (labs V c t) k0_pay2) := by
      obtain ⟨n, hn⟩ := t; cases n with
      | zero => rfl
      | succ n => exact absurd h0 (Nat.succ_ne_zero n)
    rw [hcell]
    iintro ⟨⟨⟨⟨%s0, HS⟩, HR⟩, Hg⟩, Ho, ⟨%d0, H0⟩, ⟨%d1, H1⟩, ⟨%d2, H2⟩, ⟨%d3, H3⟩⟩
    iapply (runA c (grid0.coords t) _ (hs_0 t) _ (hs_1 t) _ (hs_2 t) _ (hs_3 t) cellM (Memref.isWhole_whole _)
      ((atFirst_iff t).mpr h0) (fun h => hl ((atLast_iff t).mp h)) (tile V c t) (labs V c t) (cens V c t) _ s0 Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · rw [Phi_castSucc V c t, PhiS_pos V c _ _ h0, cellAt_pos V c t h0]
    by_cases hl : t.val = 249
    · -- the last point
      rw [show (dat V c).leavesExact 3 t = owns (c : Thread nD τ) (ms_3 t) fullShare ((dat V c).after 3 t) from by
        unfold Dat.leavesExact; rw [live_3 t ((atLast_iff t).mpr hl)], after_3, cellAt_pos V c t h0]
      iintro ⟨⟨⟨HS, HR⟩, Hg⟩, Ho, ⟨%d0, H0⟩, ⟨%d1, H1⟩, ⟨%d2, H2⟩, ⟨%d3, H3⟩⟩
      iapply (runC c (grid0.coords t) _ (hs_0 t) _ (hs_1 t) _ (hs_2 t) _ (hs_3 t) cellM (Memref.isWhole_whole _)
        (fun h => h0 ((atFirst_iff t).mp h)) ((atLast_iff t).mpr hl) (tile V c t) (labs V c t) (cens V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- an inner point
      rw [Dat.leavesExact_idle (dat V c) 3 t (idle_3 t (fun h => hl ((atLast_iff t).mp h))) (noFlush_3 t (fun h => hl ((atLast_iff t).mp h)))]
      iintro ⟨⟨⟨HS, HR⟩, Hg⟩, Ho, ⟨%d0, H0⟩, ⟨%d1, H1⟩, ⟨%d2, H2⟩, ⟨%d3, H3⟩⟩
      iapply (runB c (grid0.coords t) _ (hs_0 t) _ (hs_1 t) _ (hs_2 t) _ (hs_3 t) cellM (Memref.isWhole_whole _)
        (fun h => h0 ((atFirst_iff t).mp h)) (fun h => hl ((atLast_iff t).mp h)) (tile V c t) (labs V c t) (cens V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the launch's back: the cell's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 250 := N_0; omega), PhiA_eq]
  iintro ⟨⟨HS, HR⟩, Hg⟩
  isplitl [HS HR]
  · isplitl [HS]; · iexists _; iexact HS
    iexact HR
  iexact Hg

end AtEntry

end Cert.KernelIdeal.Branch0

end
-- ==== Proof.Branch1.lean ====
/-
  One launch of the branch kernel as the pipeline runs it: 250 grid points, each staging a tile of 4000 rows (window 0),
  the tile's 4000 labels (window 1) and the 128×7 table of scaled centres (window 2, fetched once), a 1×1 output
  (window 3, written back at the last point only) and a 1×1 scratch cell that lives across the points.

  At every point the body adds the tile's share of the loss to the cell: at the first point it first stores zero
  into the cell, at the last point it also copies the cell into the output's staging buffer.  So after point `n` the
  cell holds `cellAt n`, defined by recursion on the point from the body's own arithmetic (the skeleton's payload):
  `cellAt 0 = step tile₀ 0`, `cellAt (n+1) = step tileₙ₊₁ (cellAt n)`.

  Stated here for any contents `V` of the core's buffers at the launch's entry: the body's run in each of the three
  cases (first point, inner point, last point), the invariant that carries the cell from point to point, the
  pipeline's proof data and the body obligation, and the invariant's two ends.
-/
import proofs.«401307_j46866683134130_1_alg».proof.Proof.Gen.KernelIdeal.Launch
import proofs.«401307_j46866683134130_1_alg».proof.Proof.Gen.KernelIdeal.Skeleton
import proofs.«401307_j46866683134130_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Branch1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the grid point -/

/-- The body's first `scf.if`: the point is the grid's first. -/
abbrev atFirst (i : grid1.Coords) : Prop := (Scalar.cmpi .ne (Scalar.extui (Scalar.cmpi .eq (BitVec.ofNat 32 (i 0).val) 0#32)) 0#32) = 1#1
theorem atFirst_iff : ∀ t : Fin cfg1.N, atFirst (grid1.coords t) ↔ t.val = 0 :=
  (by decide +kernel : ∀ t : Fin grid1.N, atFirst (grid1.coords t) ↔ t.val = 0)

/-- The body's second `scf.if`: the point is the grid's last. -/
abbrev atLast (i : grid1.Coords) : Prop := k1_cond2 i = 1#1
theorem atLast_iff : ∀ t : Fin cfg1.N, atLast (grid1.coords t) ↔ t.val = 249 :=
  (by decide +kernel : ∀ t : Fin grid1.N, atLast (grid1.coords t) ↔ t.val = 249)

/-- The three inputs are never idle; the output is idle, and not written back, everywhere but at the last point. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_3 : ∀ t : Fin cfg1.N, ¬atLast (grid1.coords t) → cfg1.idle 3 (grid1.coords t) = true := by decide +kernel
theorem noFlush_3 : ∀ t : Fin cfg1.N, ¬atLast (grid1.coords t) → (cfg1.win 3).flush t = false := by decide +kernel
theorem live_3 : ∀ t : Fin cfg1.N, atLast (grid1.coords t) → cfg1.idle 3 (grid1.coords t) = false := by decide +kernel

/-! ## The staging memrefs at a point, and the cell -/

abbrev ms_0 (t : Fin cfg1.N) : Memref sig .tc .vmem S4000x128 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4000x1 .i32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S128x7 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1 .f32 := win1_3.stage (cfg1.slots t 3)
abbrev hs_3 (t : Fin cfg1.N) : (ms_3 t).IsWhole := hstage1_3 ((cfg1.slots t 3).cast nbuf1_3)
/-- The cell: the kernel's one scratch operand, a whole scoped buffer. -/
abbrev cellM : Memref sig .tc .vmem S1x1 .f32 := Memref.whole cc1_scratch0

/-- The launch's invariant with the cell split off: the cell at some contents, every other scoped buffer that is no
    staging buffer of this launch at some contents, the generator register at some state. -/
theorem PhiA_eq (c : Dev nD) :
    (Pipeline.ΦA spec1 c : sProp 𝕄)
      = iprop(((∃ d, owns (c : Thread nD τ) cellM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [cellM, owns_whole, bigSepL]
  try rfl

/-! ## The body's run in each case

On whole memrefs holding a tile `x0`, its labels `l0`, the centres `c0`, an output buffer at `o0` and the cell at
`s0`: the body ends with the inputs as they were and the cell at the payload's value — over the zero it has just
stored (first point) or over `s0` —, the output untouched, or (last point) holding a copy of the cell. -/

set_option maxHeartbeats 1000000 in
theorem runA (c : Dev nD) (i : grid1.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : atFirst i) (hc1 : ¬atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (o0) ∗ owns (c : Thread nD τ) arg5 fullShare (k1_pay1 (k1_pay3 x0 c0 l0 k1_pay2))) -∗ K ⟨⟩))
      ⊢ wp frame (wpE (defs₀ (F := F)) Variants.none c none) E (cc1__branch_kernel i arg1 harg1 arg2 harg2 arg3 harg3 arg4 harg4 arg5 harg5) K := by
  simp only [cc1__branch_kernel_eq_skeleton]; unfold cc1__branch_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

set_option maxHeartbeats 1000000 in
theorem runB (c : Dev nD) (i : grid1.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : ¬atFirst i) (hc1 : ¬atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (o0) ∗ owns (c : Thread nD τ) arg5 fullShare (k1_pay1 (k1_pay3 x0 c0 l0 s0))) -∗ K ⟨⟩))
      ⊢ wp frame (wpE (defs₀ (F := F)) Variants.none c none) E (cc1__branch_kernel i arg1 harg1 arg2 harg2 arg3 harg3 arg4 harg4 arg5 harg5) K := by
  simp only [cc1__branch_kernel_eq_skeleton]; unfold cc1__branch_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

set_option maxHeartbeats 1000000 in
theorem runC (c : Dev nD) (i : grid1.Coords) (arg1 : Memref sig .tc .vmem S4000x128 .f32) (harg1 : arg1.IsWhole) (arg2 : Memref sig .tc .vmem S4000x1 .i32) (harg2 : arg2.IsWhole) (arg3 : Memref sig .tc .vmem S128x7 .f32) (harg3 : arg3.IsWhole) (arg4 : Memref sig .tc .vmem S1x1 .f32) (harg4 : arg4.IsWhole) (arg5 : Memref sig .tc .vmem S1x1 .f32) (harg5 : arg5.IsWhole)
    (hc0 : ¬atFirst i) (hc1 : atLast i)
    (x0 : Vec F S4000x128 .f32) (l0 : Vec F S4000x1 .i32) (c0 : Vec F S128x7 .f32) (o0 s0 : Vec F S1x1 .f32) (E : Set ℕ) (K : PUnit → sProp 𝕄) :
    iprop(owns (c : Thread nD τ) arg1 fullShare x0 ∗ owns (c : Thread nD τ) arg2 fullShare l0 ∗ owns (c : Thread nD τ) arg3 fullShare c0 ∗ owns (c : Thread nD τ) arg4 fullShare o0 ∗ owns (c : Thread nD τ) arg5 fullShare s0
        ∗ (iprop(owns (c : Thread nD τ) arg1 fullShare x0 ∗ owns (c : Thread nD τ) arg2 fullShare l0 ∗ owns (c : Thread nD τ) arg3 fullShare c0 ∗ owns (c : Thread nD τ) arg4 fullShare (k1_pay1 (k1_pay3 x0 c0 l0 s0)) ∗ owns (c : Thread nD τ) arg5 fullShare (k1_pay1 (k1_pay3 x0 c0 l0 s0))) -∗ K ⟨⟩))
      ⊢ wp frame (wpE (defs₀ (F := F)) Variants.none c none) E (cc1__branch_kernel i arg1 harg1 arg2 harg2 arg3 harg3 arg4 harg4 arg5 harg5) K := by
  simp only [cc1__branch_kernel_eq_skeleton]; unfold cc1__branch_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  have hz : (![0, 0] : Fin 2 → Nat) = fun _ => 0 := by funext a; fin_cases a <;> rfl
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_eq_canon _ _ _ (fun y => View.cover_of_tiledL _ S1x1.size (by sl_kernel_rfl) y)]
    sl_unfold_run_names
    rw [View.canon_cons_unit_zero hz]
    simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]
  iexists _; isplitr
  swap; · iexact H5
  ipureintro
  rw [View.read_writes_eq_canon _ _ _ (fun y => View.cover_of_tiledL _ S1x1.size (by sl_kernel_rfl) y)]
  sl_unfold_run_names
  rw [View.canon_cons_unit_zero hz]
  simp only [View.readAt_eq_ld, hf1, hf2, hf3, hf5, View.readCov_unit_zero (S := S1x1) _ hz, View.ld_unit_zero (S := S4000x128) hz, View.ld_unit_zero (S := S128x7) hz, View.ld_unit_zero (S := S4000x1) hz, View.ld_unit_zero (S := S1x1) hz]

/-! ## The blocks at a point, and what the cell holds after it -/

section AtEntry

variable (V : (c : Dev nD) → (b : Ref sig .tc) → Buf (Elt F) ((c : Thread nD τ).loc b))

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile, its labels and the centres at point `t`, at their literal types. -/
abbrev tile (c : Dev nD) (t : Fin cfg1.N) : Vec F S4000x128 .f32 := iblk V c 0 t
abbrev labs (c : Dev nD) (t : Fin cfg1.N) : Vec F S4000x1 .i32 := iblk V c 1 t
abbrev cens (c : Dev nD) (t : Fin cfg1.N) : Vec F S128x7 .f32 := iblk V c 2 t

/-- What the cell holds after point `n`: the body's arithmetic over the zero it stores at the first point, then over
    what the point before left. -/
def cellAt (c : Dev nD) : (n : ℕ) → n < cfg1.N → Vec F S1x1 .f32
  | 0, hn => k1_pay1 (k1_pay3 (tile V c ⟨0, hn⟩) (cens V c ⟨0, hn⟩) (labs V c ⟨0, hn⟩) k1_pay2)
  | n + 1, hn => k1_pay1 (k1_pay3 (tile V c ⟨n + 1, hn⟩) (cens V c ⟨n + 1, hn⟩) (labs V c ⟨n + 1, hn⟩) (cellAt c n (Nat.lt_of_succ_lt hn)))

theorem cellAt_zero (c : Dev nD) (hn : 0 < cfg1.N) :
    cellAt V c 0 hn = k1_pay1 (k1_pay3 (tile V c ⟨0, hn⟩) (cens V c ⟨0, hn⟩) (labs V c ⟨0, hn⟩) k1_pay2) := rfl
theorem cellAt_succ (c : Dev nD) (n : ℕ) (hn : n + 1 < cfg1.N) :
    cellAt V c (n + 1) hn = k1_pay1 (k1_pay3 (tile V c ⟨n + 1, hn⟩) (cens V c ⟨n + 1, hn⟩) (labs V c ⟨n + 1, hn⟩) (cellAt V c n (Nat.lt_of_succ_lt hn))) := rfl
/-- At a point that is not the first, over what the point before left. -/
theorem cellAt_pos (c : Dev nD) (t : Fin cfg1.N) (ht : t.val ≠ 0) :
    cellAt V c t.val t.isLt = k1_pay1 (k1_pay3 (tile V c t) (cens V c t) (labs V c t) (cellAt V c (t.val - 1) (Nat.lt_of_le_of_lt (Nat.sub_le _ _) t.isLt))) := by
  obtain ⟨n, hn⟩ := t
  cases n with
  | zero => exact absurd rfl ht
  | succ n => rfl

/-! ## The invariant that carries the cell -/

/-- Before the first point the launch's own invariant (every scoped buffer at anything); before point `n + 1` the cell
    at what point `n` left, the other scoped buffers at anything, the generator register at some state. -/
def PhiS (c : Dev nD) : (n : ℕ) → n ≤ cfg1.N → sProp 𝕄
  | 0, _ => Pipeline.ΦA spec1 c
  | n + 1, hn => iprop((owns (c : Thread nD τ) cellM fullShare (cellAt V c n hn)
      ∗ Pipeline.scopedRestBut (Ix := Unit) (Name := ℕ) (U := UR sig nD τ) (Lvl := ℕ) (Val := Elt F) spec1 c [cc1_scratch0])
      ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((owns (c : Thread nD τ) cellM fullShare (cellAt V c n hn)
      ∗ Pipeline.scopedRestBut (Ix := Unit) (Name := ℕ) (U := UR sig nD τ) (Lvl := ℕ) (Val := Elt F) spec1 c [cc1_scratch0])
      ∗ (∃ r, prngReg c r)) := rfl
theorem PhiS_pos (c : Dev nD) (n : ℕ) (h : n ≤ cfg1.N) (hz : n ≠ 0) :
    PhiS V c n h = iprop((owns (c : Thread nD τ) cellM fullShare (cellAt V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The pipeline's proof data -/

/-- The arrays as the launch finds them; after the body each input's buffer at its block and the output's at the
    cell's contents (read only at the last point, where the body copies the cell there); the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => cellAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = cellAt V c t.val t.isLt := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; the point is the first, the last or neither, and in
    each case the run of that case applies; the invariant hands the body the cell (at anything before the first point,
    at what the point before left afterwards) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 250 := lt_of_lt_of_eq t.isLt (show cfg1.N = 250 from N_1)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val = 0
  · -- the first point
    have hl : ¬t.val = 249 := by omega
    rw [Dat.leavesExact_idle (dat V c) 3 t (idle_3 t (fun h => hl ((atLast_iff t).mp h))) (noFlush_3 t (fun h => hl ((atLast_iff t).mp h)))]
    rw [Phi_castSucc V c t, PhiS_zero V c _ _ h0, PhiA_eq]
    have hcell : cellAt V c t.val t.isLt = k1_pay1 (k1_pay3 (tile V c t) (cens V c t) (labs V c t) k1_pay2) := by
      obtain ⟨n, hn⟩ := t; cases n with
      | zero => rfl
      | succ n => exact absurd h0 (Nat.succ_ne_zero n)
    rw [hcell]
    iintro ⟨⟨⟨⟨%s0, HS⟩, HR⟩, Hg⟩, Ho, ⟨%d0, H0⟩, ⟨%d1, H1⟩, ⟨%d2, H2⟩, ⟨%d3, H3⟩⟩
    iapply (runA c (grid1.coords t) _ (hs_0 t) _ (hs_1 t) _ (hs_2 t) _ (hs_3 t) cellM (Memref.isWhole_whole _)
      ((atFirst_iff t).mpr h0) (fun h => hl ((atLast_iff t).mp h)) (tile V c t) (labs V c t) (cens V c t) _ s0 Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · rw [Phi_castSucc V c t, PhiS_pos V c _ _ h0, cellAt_pos V c t h0]
    by_cases hl : t.val = 249
    · -- the last point
      rw [show (dat V c).leavesExact 3 t = owns (c : Thread nD τ) (ms_3 t) fullShare ((dat V c).after 3 t) from by
        unfold Dat.leavesExact; rw [live_3 t ((atLast_iff t).mpr hl)], after_3, cellAt_pos V c t h0]
      iintro ⟨⟨⟨HS, HR⟩, Hg⟩, Ho, ⟨%d0, H0⟩, ⟨%d1, H1⟩, ⟨%d2, H2⟩, ⟨%d3, H3⟩⟩
      iapply (runC c (grid1.coords t) _ (hs_0 t) _ (hs_1 t) _ (hs_2 t) _ (hs_3 t) cellM (Memref.isWhole_whole _)
        (fun h => h0 ((atFirst_iff t).mp h)) ((atLast_iff t).mpr hl) (tile V c t) (labs V c t) (cens V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- an inner point
      rw [Dat.leavesExact_idle (dat V c) 3 t (idle_3 t (fun h => hl ((atLast_iff t).mp h))) (noFlush_3 t (fun h => hl ((atLast_iff t).mp h)))]
      iintro ⟨⟨⟨HS, HR⟩, Hg⟩, Ho, ⟨%d0, H0⟩, ⟨%d1, H1⟩, ⟨%d2, H2⟩, ⟨%d3, H3⟩⟩
      iapply (runB c (grid1.coords t) _ (hs_0 t) _ (hs_1 t) _ (hs_2 t) _ (hs_3 t) cellM (Memref.isWhole_whole _)
        (fun h => h0 ((atFirst_iff t).mp h)) (fun h => hl ((atLast_iff t).mp h)) (tile V c t) (labs V c t) (cens V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the launch's back: the cell's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 250 := N_1; omega), PhiA_eq]
  iintro ⟨⟨HS, HR⟩, Hg⟩
  isplitl [HS HR]
  · isplitl [HS]; · iexists _; iexact HS
    iexact HR
  iexact Hg

end AtEntry

end Cert.KernelIdeal.Branch1

end
-- ==== Proof.RunAll.lean ====
/-
  The whole program as a run: @main is five segments — the host stretch that scales the centres and lays out the first
  branch's labels, the first launch of the branch kernel, the stretch that reshapes its result and lays out the second
  branch's labels, the second launch, and the stretch that reshapes and adds the two results.

  The contents of the core's buffers are followed from segment to segment: a host stretch applies its operations; a
  launch leaves each of its windows' arrays at what its write-backs leave (the inputs as found, the 1×1 output at the
  block the last grid point writes back) and every other buffer as found.  Each launch is entered with its arrays
  split off the buffers, the generator register and the scoped buffers handed to the kernel's invariant, and left
  with the arrays put back.  The run ends with every buffer at the last of these contents; read at the argument
  arrays, which nothing writes, that is the frame.
-/
import proofs.«401307_j46866683134130_1_alg».proof.Proof.Branch0
import proofs.«401307_j46866683134130_1_alg».proof.Proof.Branch1
import proofs.«401307_j46866683134130_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m ((c : Dev nD), b)
/-- After the first host stretch: the first launch's entry contents. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first launch: its arrays at what the pipeline leaves, every other buffer as entered. -/
def W2 (c : Dev nD) : Valuation τ sig (Elt F) :=
  Pipeline.withArrays spec0 c (W1 m c) fun w => (Branch0.dat (V1 m) c).arrAt w cfg0.N
theorem W2_arr (c : Dev nD) (w : Fin cfg0.W) :
    W2 m c (Proc.devRef .tc (Pipeline.arrRef spec0 w)) = (Branch0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Branch0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch: the second launch's entry contents. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (Branch1.dat (V3 m) c).arrAt w cfg1.N
theorem W4_arr (c : Dev nD) (w : Fin cfg1.W) :
    W4 m c (Proc.devRef .tc (Pipeline.arrRef spec1 w)) = (Branch1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Branch1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch: the contents the run ends with. -/
abbrev W5 (c : Dev nD) : Valuation τ sig (Elt F) := StableHlo.after hostOps2 (W4 m c)

/-! ## The proof data family and the thread state -/

abbrev admK : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) admK p) c
  | ⟨0, _⟩ => fun c => Branch0.dat (V1 m) c
  | ⟨1, _⟩ => fun c => Branch1.dat (V3 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The launches as segments -/

set_option backward.isDefEq.respectTransparency.types false in
/-- The first launch: entered from every unscoped buffer at `W1`, left at `W2`. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (Branch0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Branch0.hin (V1 m) c)
    unfold Pipeline.ΦA
    iintro ⟨Hp, -, Hr⟩
    isplitl [Hr]; · iexact Hr
    iexact Hp
  hout c := by
    refine BIBase.Entails.trans (Branch0.hout (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `W3`, left at `W4`. -/
def reg1 : Pipeline.RegionSeg (pcfgs (F := F)) admK (pdats m) () defs₀ 𝒱₀ L lv 1 where
  win := launch1.win.to₀
  block_pos := launch1.block_pos
  stage_whole := launch1.stage_whole
  K := PEmpty
  osem k := k.elim
  ho := Pipeline.OwnSemFacts.none _
  hbody c := (Branch1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Branch1.hin (V3 m) c)
    unfold Pipeline.ΦA
    iintro ⟨Hp, -, Hr⟩
    isplitl [Hr]; · iexact Hr
    iexact Hp
  hout c := by
    refine BIBase.Entails.trans (Branch1.hout (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev host0 := hseg (F := F) hostOps0 hostOps0_sub hostOps0_fresh (W0 m)
abbrev host1 := hseg (F := F) hostOps1 hostOps1_sub hostOps1_fresh (W2 m)
abbrev host2 := hseg (F := F) hostOps2 hostOps2_sub hostOps2_fresh (W4 m)

abbrev segs : List (Pipeline.Seg (pcfgs (F := F)) admK (pdats m) () defs₀ 𝒱₀ L lv) :=
  [ .host (host0 m), .region (reg0 m), .host (host1 m), .region (reg1 m), .host (host2 m) ]

theorem main_run (c : Dev nD) : main (F := F) c = Pipeline.Seg.run (segs m) :=
  main_segs admK (pdats m) () 𝒱₀ L lv (host0 m) (host1 m) (host2 m) (reg0 m) (reg1 m) rfl rfl rfl c

set_option backward.isDefEq.respectTransparency.types false in
/-- Every weakly fair execution of @main from memory `m` with zero counters terminates, nothing faulting, and the final
    memory holds every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admK (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((Branch0.dat (V1 m) c).arrAt_in 0 rfl _).trans (Branch0.A_eq (V1 m) c 0))
    _ = m ((c : Thread nD τ).loc main_arg0) := StableHlo.after_of_writes_sub hostOps0 _ hostOps0_writes (by decide)
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := (W4_arr m c 0).trans (((Branch1.dat (V3 m) c).arrAt_in 0 rfl _).trans (Branch1.A_eq (V3 m) c 0))
    _ = W2 m c (Proc.devRef .tc main_arg1) := StableHlo.after_of_writes_sub hostOps1 _ hostOps1_writes (by decide)
    _ = W1 m c (Proc.devRef .tc main_arg1) := W2_of_ne m c main_arg1 (by decide)
    _ = m ((c : Thread nD τ).loc main_arg1) := StableHlo.after_of_writes_sub hostOps0 _ hostOps0_writes (by decide)
theorem W5_of_untouched (c : Dev nD) (b : Ref sig .tc) (h2 : b ∉ hostOps2_W) (h1 : b ∉ hostOps1_W) (h0 : b ∉ hostOps0_W)
    (ha : ∀ w, Pipeline.arrRef spec0 w ≠ b) (hb : ∀ w, Pipeline.arrRef spec1 w ≠ b) :
    W5 m c (Proc.devRef .tc b) = m ((c : Thread nD τ).loc b) :=
  calc W5 m c (Proc.devRef .tc b)
    _ = W4 m c (Proc.devRef .tc b) := StableHlo.after_of_writes_sub hostOps2 _ hostOps2_writes h2
    _ = W3 m c (Proc.devRef .tc b) := W4_of_ne m c b hb
    _ = W2 m c (Proc.devRef .tc b) := StableHlo.after_of_writes_sub hostOps1 _ hostOps1_writes h1
    _ = W1 m c (Proc.devRef .tc b) := W2_of_ne m c b ha
    _ = m ((c : Thread nD τ).loc b) := StableHlo.after_of_writes_sub hostOps0 _ hostOps0_writes h0
theorem W5_main_arg2 (c : Dev nD) : W5 m c (Proc.devRef .tc main_arg2) = m ((c : Thread nD τ).loc main_arg2) :=
  W5_of_untouched m c main_arg2 (by decide) (by decide) (by decide) (by decide) (by decide)
theorem W5_main_arg3 (c : Dev nD) : W5 m c (Proc.devRef .tc main_arg3) = m ((c : Thread nD τ).loc main_arg3) :=
  W5_of_untouched m c main_arg3 (by decide) (by decide) (by decide) (by decide) (by decide)
theorem W5_main_arg4 (c : Dev nD) : W5 m c (Proc.devRef .tc main_arg4) = m ((c : Thread nD τ).loc main_arg4) :=
  W5_of_untouched m c main_arg4 (by decide) (by decide) (by decide) (by decide) (by decide)

/-- THE FRAME, at any `F`: the run, read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.RunAll

end
-- ==== Proof.Spec.lean ====
/-
  The loss both programs compute, as one function of the argument arrays over the extended reals.

  A row `x` of 128 entries is scaled to unit length with a floor under the length: entry `d` becomes
  `x d / max (√(Σ e, x e · x e)) floor`.  The seven class centres are scaled the same way.  The cosine of a point
  with centre `c` is the dot product of the two scaled rows.  A point labelled `l` contributes `1 - cos` with the
  centre its label names when `l ≥ 1`, and nothing when `l ≤ 0`; the centre is picked by the sum over the seven
  classes of `cos c · [l = c]`, every term but (at most) one being a product with zero.  A branch's loss is the sum
  over its million points, and the result is the sum of the two branches' losses.
-/
import Idealize.ShloMosaic.PureOps.Ideal
import Idealize.ShloMosaic.PureOps.Ideal.Laws
import Idealize.ShloMosaic.Lib.ValueIdx

noncomputable section

namespace Cert.Spec

open Idealize.ShloMosaic

/-- The floor under a row's length: the f32 word the source's `1e-12` rounds to (the same word in both programs, never
    evaluated). -/
abbrev floorLen : EReal := Ideal.ofBits .f32 0x2B8CBCCC#32

/-- Entry `d` of the row `x` scaled to unit length: `x d / max (√(Σ e, x e · x e)) floor`. -/
def unit (x : Fin 128 → EReal) (d : Fin 128) : EReal :=
  Ideal.div (x d) (max (Ideal.sqrt (∑ e : Fin 128, x e * x e)) floorLen)

/-- The cosine of the point `x` with the (already scaled) centre `c`. -/
def cosTo (x : Fin 128 → EReal) (cn : Fin 7 → Fin 128 → EReal) (c : Fin 7) : EReal :=
  ∑ d : Fin 128, unit x d * cn c d

/-- `1` for a label `l ≥ 1` (signed), else `0`. -/
def keep (l : BitVec 32) : EReal := if (1#32).sle l then 1 else 0

/-- `1` when the label `l` is the class `c`, else `0`. -/
def hot (l : BitVec 32) (c : Fin 7) : EReal := if l = BitVec.ofNat 32 c.val then 1 else 0

/-- What one point adds to the loss. -/
def pointLoss (x : Fin 128 → EReal) (cn : Fin 7 → Fin 128 → EReal) (l : BitVec 32) : EReal :=
  keep l * (1 - ∑ c : Fin 7, cosTo x cn c * hot l c)

/-- One branch's loss: the sum over its million points. -/
def branchLoss (x : Fin 1000000 → Fin 128 → EReal) (cn : Fin 7 → Fin 128 → EReal) (lab : Fin 1000000 → BitVec 32) : EReal :=
  ∑ n : Fin 1000000, pointLoss (x n) cn (lab n)

/-- The result: both branches against the centres scaled to unit length. -/
def total (xA xB : Fin 1000000 → Fin 128 → EReal) (cf : Fin 7 → Fin 128 → EReal)
    (labA labB : Fin 1000000 → BitVec 32) : EReal :=
  branchLoss xA (fun c => unit (cf c)) labA + branchLoss xB (fun c => unit (cf c)) labB

end Cert.Spec

end
-- ==== Proof.BranchOps.lean ====
/-
  The branch kernel's operations that are not pointwise, read at an index at the ideal instance.

  A lane sum over one axis of a matrix is the sum over that axis's coordinates; the matrix product into a zero
  accumulator is the sum, over the contracted coordinate, of the operands' products; an iota along the columns reads
  the column; and the two 0/1 factors of the loss (the label is at least one; the label is a given class), made by a
  comparison, a zero extension and a signed conversion, are the extended reals 1 and 0.
-/
import proofs.«401307_j46866683134130_1_alg».proof.Proof.Gen.KernelIdeal
import proofs.«401307_j46866683134130_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BranchOps

open Cert.KernelIdeal Cert.KernelIdeal.Gen
open Idealize.ShloMosaic Idealize.ShloMosaic.ValueIdx

/-! ## Lane sums -/

/-- Over a matrix reduced along its columns, the source index above row `r` with column `e` inserted is `(r, e)`. -/
theorem lift_cols {a b : ℕ} (h : (⟨2, ![a, b]⟩ : Shape).Reduces [1] ⟨1, ![a]⟩) (r : Fin a) (e : Fin b) :
    h.lift (ix1 r) e = ix2 r e := by
  funext c
  apply Fin.ext
  show h.liftVal _ _ c = _
  match c with
  | ⟨0, _⟩ => simp [Shape.Reduces.liftVal]
  | ⟨1, _⟩ => simp [Shape.Reduces.liftVal]

/-- Over a matrix reduced along its rows, the source index above column `u` with row `r` inserted is `(r, u)`. -/
theorem lift_rows {a b : ℕ} (h : (⟨2, ![a, b]⟩ : Shape).Reduces [0] ⟨1, ![b]⟩) (u : Fin b) (r : Fin a) :
    h.lift (ix1 u) r = ix2 r u := by
  funext c
  apply Fin.ext
  show h.liftVal _ _ c = _
  match c with
  | ⟨0, _⟩ => simp [Shape.Reduces.liftVal]
  | ⟨1, _⟩ => simp [Shape.Reduces.liftVal]

/-- A sum along the columns, read at row `r`: the sum of the row's entries. -/
theorem sum_cols_apply {a b : ℕ} (y : FVec Ideal (⟨2, ![a, b]⟩ : Shape) .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ y acc h hφ hacc (ix1 r) = ∑ e : Fin b, y (ix2 r e) :=
  (Ideal.multiReduction_add_single y acc h hφ hacc (ix1 r)).trans
    (Finset.sum_congr rfl fun e _ => congrArg y (lift_cols h r e))

/-- A sum along the rows, read at column `u`: the sum of the column's entries. -/
theorem sum_rows_apply {a b : ℕ} (y : FVec Ideal (⟨2, ![a, b]⟩ : Shape) .f32) (acc : BitVec 32)
    (h : (⟨2, ![a, b]⟩ : Shape).Reduces [0] ⟨1, ![b]⟩) (hφ : FKind.Formats .f32) (hacc : acc = FKind.add.neutral .f32 hφ)
    (u : Fin b) :
    multiReduction .add [0] ⟨1, ![b]⟩ y acc h hφ hacc (ix1 u) = ∑ r : Fin a, y (ix2 r u) :=
  (Ideal.multiReduction_add_single y acc h hφ hacc (ix1 u)).trans
    (Finset.sum_congr rfl fun r _ => congrArg y (lift_rows h u r))

/-! ## The matrix product -/

theorem lhs_dot_0 (i : S4000x7.Idx) (q : dot_S4000x128_S128x7_S4000x7_1_0_0_1_n_n.contr.Idx) :
    (dot_S4000x128_S128x7_S4000x7_1_0_0_1_n_n.lhsIdx i q 0).val = (i 0).val := by
  unfold DotDims.lhsIdx
  rw [dif_neg (show ¬(0 : Fin S4000x128.rank) ∈ dot_S4000x128_S128x7_S4000x7_1_0_0_1_n_n.lhsBatch by decide), dif_pos (show (0 : Fin S4000x128.rank) ∈ dot_S4000x128_S128x7_S4000x7_1_0_0_1_n_n.lhsNonContracting by decide)]
  rfl
theorem lhs_dot_1 (i : S4000x7.Idx) (q : dot_S4000x128_S128x7_S4000x7_1_0_0_1_n_n.contr.Idx) :
    (dot_S4000x128_S128x7_S4000x7_1_0_0_1_n_n.lhsIdx i q 1).val = (q ⟨0, by decide⟩).val :=
  dot_S4000x128_S128x7_S4000x7_1_0_0_1_n_n.lhsIdx_val_of_single rfl i q
theorem rhs_dot_0 (i : S4000x7.Idx) (q : dot_S4000x128_S128x7_S4000x7_1_0_0_1_n_n.contr.Idx) :
    (dot_S4000x128_S128x7_S4000x7_1_0_0_1_n_n.rhsIdx i q 0).val = (q ⟨0, by decide⟩).val :=
  dot_S4000x128_S128x7_S4000x7_1_0_0_1_n_n.rhsIdx_val_of_single rfl i q
theorem rhs_dot_1 (i : S4000x7.Idx) (q : dot_S4000x128_S128x7_S4000x7_1_0_0_1_n_n.contr.Idx) :
    (dot_S4000x128_S128x7_S4000x7_1_0_0_1_n_n.rhsIdx i q 1).val = (i 1).val := by
  unfold DotDims.rhsIdx
  rw [dif_neg (show ¬(1 : Fin S128x7.rank) ∈ dot_S4000x128_S128x7_S4000x7_1_0_0_1_n_n.rhsBatch by decide), dif_pos (show (1 : Fin S128x7.rank) ∈ dot_S4000x128_S128x7_S4000x7_1_0_0_1_n_n.rhsNonContracting by decide)]
  rfl

/-- The product of a 4000×128 by a 128×7 matrix into the zero accumulator, read at `(r, k)`: the sum over the 128
    contracted coordinates of row `r` of the first against column `k` of the second. -/
theorem matmul_apply {φ₁ φ₂ : FTy} (A : FVec Ideal S4000x128 φ₁) (B : FVec Ideal S128x7 φ₂) (r : Fin 4000) (k : Fin 7) :
    matmul dot_S4000x128_S128x7_S4000x7_1_0_0_1_n_n none A B (constant (F := Ideal) S4000x7 .f32 0x00000000#32) (ix2 r k)
      = ∑ d : Fin 128, A (ix2 r d) * B (ix2 d k) := by
  simp only [matmul]
  rw [Ideal.matmul_constant_zero_apply, ← Equiv.sum_comp (ValueIdx.contrEquiv1 dot_S4000x128_S128x7_S4000x7_1_0_0_1_n_n 128 rfl rfl).symm]
  refine Finset.sum_congr rfl fun d _ => ?_
  have hk := ValueIdx.contrEquiv1_symm_val dot_S4000x128_S128x7_S4000x7_1_0_0_1_n_n 128 rfl rfl d
  have el : dot_S4000x128_S128x7_S4000x7_1_0_0_1_n_n.lhsIdx (ix2 r k) ((ValueIdx.contrEquiv1 dot_S4000x128_S128x7_S4000x7_1_0_0_1_n_n 128 rfl rfl).symm d) = ix2 r d := funext fun a => Fin.ext (by
    match a with
    | ⟨0, _⟩ => exact lhs_dot_0 _ _
    | ⟨1, _⟩ => exact (lhs_dot_1 _ _).trans hk)
  have er : dot_S4000x128_S128x7_S4000x7_1_0_0_1_n_n.rhsIdx (ix2 r k) ((ValueIdx.contrEquiv1 dot_S4000x128_S128x7_S4000x7_1_0_0_1_n_n 128 rfl rfl).symm d) = ix2 d k := funext fun a => Fin.ext (by
    match a with
    | ⟨0, _⟩ => exact (rhs_dot_0 _ _).trans hk
    | ⟨1, _⟩ => exact rhs_dot_1 _ _)
  rw [el, er]

/-! ## The iota, and the two 0/1 factors -/

/-- The iota along the columns of a 4000×7 matrix reads the column. -/
theorem iota_cols_apply (h : S4000x7.Iotas .tc 32 [1]) (r : Fin 4000) (k : Fin 7) :
    iota .tc S4000x7 32 [1] h (ix2 r k) = BitVec.ofNat 32 k.val :=
  iota_single_apply .tc S4000x7 32 1 h (ix2 r k)

/-- A one-bit truth value, widened to 32 bits and read as a signed integer, is the extended real 1 or 0. -/
theorem bit_value (b : Bool) :
    (FloatOps.sitofp (F := Ideal) .f32 ((BitVec.ofBool b).setWidth 32) : EReal) = if b then 1 else 0 := by
  cases b
  · show (((((BitVec.ofBool false).setWidth 32).toInt : ℤ) : ℝ) : EReal) = 0
    rw [show ((BitVec.ofBool false).setWidth 32).toInt = 0 by decide]; simp
  · show (((((BitVec.ofBool true).setWidth 32).toInt : ℤ) : ℝ) : EReal) = 1
    rw [show ((BitVec.ofBool true).setWidth 32).toInt = 1 by decide]; simp

/-- The factor that keeps a point whose label is at least one. -/
theorem keep_value (l : BitVec 32) :
    (FloatOps.sitofp (F := Ideal) .f32 ((IntOp.cmpi .sge l 1#32).setWidth 32) : EReal) = Cert.Spec.keep l := by
  unfold IntOp.cmpi Cert.Spec.keep
  exact bit_value _

/-- The factor that picks the class the label names. -/
theorem hot_value (l : BitVec 32) (c : Fin 7) :
    (FloatOps.sitofp (F := Ideal) .f32 ((IntOp.cmpi .eq l (BitVec.ofNat 32 c.val)).setWidth 32) : EReal) = Cert.Spec.hot l c := by
  unfold IntOp.cmpi Cert.Spec.hot
  refine (bit_value _).trans ?_
  simp only [beq_iff_eq]

/-- The word of the constant one. -/
theorem ofBits_one_f32 : Ideal.ofBits .f32 0x3F800000#32 = 1 := by
  simp [Ideal.ofBits, Ideal.ieee, -EReal.coe_mul]; norm_num

end Cert.KernelIdeal.BranchOps

end
-- ==== Proof.BranchSum.lean ====
/-
  A sum over a million rows, taken tile by tile: 250 tiles of 4000 rows, row `r` of tile `t` being row
  `4000 · t + r`.  Pure arithmetic of finite sums; no program is mentioned.
-/
import Mathlib.Algebra.BigOperators.Fin
import Mathlib.Logic.Equiv.Fin.Basic
import Mathlib.Algebra.BigOperators.Group.Finset.Basic

namespace Cert.BranchSum

open scoped BigOperators

/-- A sum over `m · n` indices is the sum over `m` blocks of the sums over each block's `n` indices, index `r` of
    block `t` being `r + n · t`. -/
theorem sum_blocks {M : Type*} [AddCommMonoid M] (m n : ℕ) (f : Fin (m * n) → M) :
    ∑ i : Fin (m * n), f i = ∑ t : Fin m, ∑ r : Fin n, f (finProdFinEquiv (t, r)) := by
  rw [← Equiv.sum_comp finProdFinEquiv f, Fintype.sum_prod_type]

/-- The million rows, tile by tile. -/
theorem sum_tiles {M : Type*} [AddCommMonoid M] (f : Fin 1000000 → M) :
    ∑ n : Fin 1000000, f n
      = ∑ t : Fin 250, ∑ r : Fin 4000, f ⟨4000 * t.val + r.val, by have := t.isLt; have := r.isLt; omega⟩ :=
  (sum_blocks 250 4000 f).trans (Finset.sum_congr rfl fun t _ => Finset.sum_congr rfl fun r _ =>
    congrArg f (Fin.ext (by
      show (finProdFinEquiv (t, r)).val = 4000 * t.val + r.val
      rw [finProdFinEquiv_apply_val]
      show r.val + 4000 * t.val = 4000 * t.val + r.val
      omega)))

end Cert.BranchSum
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.BranchValue0.lean ====
/-
  What one launch of the branch kernel leaves in its 1×1 output, at the ideal instance: the branch's loss.

  One grid point adds to the cell the sum, over the tile's 4000 rows, of the row's share of the loss (`step_value`);
  the cell starts from the zero the first point stores (`zero_value`); so after the last point it holds the sum over
  the 250 tiles of the tiles' sums, which is the sum over the million rows, tile `t`'s row `r` being row
  `4000 · t + r` of the array; the last point copies the cell to the output block, the only block written back.
-/
import proofs.«401307_j46866683134130_1_alg».proof.Proof.Branch0
import proofs.«401307_j46866683134130_1_alg».proof.Proof.Spec
import proofs.«401307_j46866683134130_1_alg».proof.Proof.BranchOps
import proofs.«401307_j46866683134130_1_alg».proof.Proof.BranchSum
import proofs.«401307_j46866683134130_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.BranchValue0

open Cert.KernelIdeal Cert.KernelIdeal.Gen Cert.KernelIdeal.Branch0
open Idealize.ShloMosaic Idealize.ShloMosaic.TcCoe Idealize.ShloMosaic.ValueIdx Idealize.SL.Sem
open Idealize.ShloMosaic.Pipeline (Dat)

/-- The zero the first point stores into the cell. -/
theorem zero_value (j : S1x1.Idx) : k0_pay2 (F := Ideal) j = 0 := by
  unfold k0_pay2
  refine (congrFun (shapeCast_self _ _) j).trans ?_
  exact Ideal.ofBits_zero_f32

/-- One grid point: the cell's new contents are its old contents plus the sum over the tile's rows of each row's share,
    the centres read through the staged table `cT` (entry `(d, k)` of the table is entry `d` of centre `k`). -/
theorem step_value (x : Vec Ideal S4000x128 .f32) (cT : Vec Ideal S128x7 .f32) (l : Vec Ideal S4000x1 .i32)
    (s : Vec Ideal S1x1 .f32) (j : S1x1.Idx) :
    k0_pay1 (F := Ideal) (k0_pay3 x cT l s) j
      = s j + ∑ r : Fin 4000, Cert.Spec.pointLoss (fun d => x (ix2 r d)) (fun k d => cT (ix2 d k)) (l (ix2 r 0)) := by
  obtain ⟨p, q, rfl⟩ : ∃ (p : Fin 1) (q : Fin 1), j = ix2 p q := ⟨j 0, j 1, eq_ix2 j⟩
  obtain rfl : p = 0 := Subsingleton.elim _ _
  unfold k0_pay1 k0_pay3
  refine (congrFun (shapeCast_self _ _) _).trans ?_
  refine (addf_apply _ _ _).trans ?_
  refine congrArg (s (ix2 0 q) + ·) ?_
  -- the 1×1 cast of the column sum over the 4000 rows
  refine (Cert.LibKeepdims.shapeCast_a_a1_apply _ _ (0 : Fin 1) q).trans ?_
  refine (BranchOps.sum_rows_apply _ _ _ _ _ (0 : Fin 1)).trans ?_
  refine Finset.sum_congr rfl fun r _ => ?_
  -- one row: the keep factor times one minus the picked cosine
  refine (mulf_apply _ _ _).trans ?_
  unfold Cert.Spec.pointLoss
  refine congrArg₂ (· * ·) ?_ ?_
  · exact (congrArg (fun v : IVec S4000x1 32 =>
        (FloatOps.sitofp (F := Ideal) .f32 ((IntOp.cmpi .sge (v (ix2 r 0)) 1#32).setWidth 32) : EReal))
        (shapeCast_self l _)).trans (BranchOps.keep_value _)
  · refine (subf_apply _ _ _).trans ?_
    refine congrArg₂ (· - ·) ?_ ?_
    · exact BranchOps.ofBits_one_f32
    · -- the picked cosine: the row's lane sum over the seven classes
      refine (Cert.LibKeepdims.shapeCast_a_a1_apply _ _ r (0 : Fin 1)).trans ?_
      refine (BranchOps.sum_cols_apply _ _ _ _ _ r).trans ?_
      refine Finset.sum_congr rfl fun k _ => ?_
      refine (mulf_apply _ _ _).trans ?_
      refine congrArg₂ (· * ·) ?_ ?_
      · -- the cosine with class k: the product's entry (r, k)
        refine (BranchOps.matmul_apply _ _ r k).trans ?_
        unfold Cert.Spec.cosTo
        refine Finset.sum_congr rfl fun d _ => ?_
        refine congrArg₂ (· * ·) ?_ ?_
        · -- the row scaled to unit length
          unfold Cert.Spec.unit
          refine (divf_apply _ _ _).trans ?_
          refine congrArg (Ideal.div (x (ix2 r d))) ?_
          refine (Cert.LibKeepdims.broadcastTo_a1_ab_apply _ _ r d).trans ?_
          refine (maximumf_apply _ _ _).trans ?_
          refine congrArg₂ max ?_ rfl
          refine congrArg Ideal.sqrt ?_
          refine (Cert.LibKeepdims.shapeCast_a_a1_apply _ _ r (0 : Fin 1)).trans ?_
          exact BranchOps.sum_cols_apply _ _ _ _ _ r
        · exact congrFun (shapeCast_self cT _) (ix2 d k)
      · -- the class the label names
        have e1 : broadcastTo S4000x7 (shapeCast S4000x1 l shapeCasts_S4000x1_S4000x1) broadcasts_S4000x1_S4000x7 (ix2 r k)
            = l (ix2 r 0) :=
          (Cert.LibKeepdims.broadcastTo_a1_ab_apply _ _ r k).trans (congrFun (shapeCast_self l _) _)
        have e2 := BranchOps.iota_cols_apply iota_S4000x7_d1_w32 r k
        exact (congrArg₂ (fun a b : BitVec 32 =>
          (FloatOps.sitofp (F := Ideal) .f32 ((IntOp.cmpi .eq a b).setWidth 32) : EReal)) e1 e2).trans
          (BranchOps.hot_value _ _)

/-! ## From the blocks to the arrays -/

section Blocks

variable (V : (c : Dev nD) → (b : Ref sig .tc) → Buf (Elt Ideal) ((c : Thread nD τ).loc b))

/-- A point of the grid is below 250. -/
theorem point_lt (t : Fin cfg0.N) : t.val < 250 := by
  have hN : cfg0.N = 250 := N_0
  have := t.isLt
  omega

/-- The windows' block indices at point `t`: the tile and its labels are block `t` along the rows; the table of
    centres and the output are their whole arrays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `r` of tile `t` is row `4000 · t + r` of the array of points. -/
theorem tile_apply (c : Dev nD) (t : Fin cfg0.N) (r : Fin 4000) (d : Fin 128) :
    (tile V c t : S4000x128.Idx → EReal) (ix2 r d)
      = (V c main_arg0 : S1000000x128.Idx → EReal) (ix2 ⟨4000 * t.val + r.val, by have := point_lt t; have := r.isLt; omega⟩ d) := by
  obtain ⟨e0, e1, -⟩ := idx_facts t
  show (V c main_arg0 : S1000000x128.Idx → EReal) (((cfg0.win 0).blk t).view.emb (ix2 r d)) = _
  refine congrArg (V c main_arg0 : S1000000x128.Idx → EReal) ?_
  funext a; apply Fin.ext
  match a with
  | ⟨0, _⟩ => show win0_0.index t (0 : Fin 2) * 4000 + 1 * r.val = 4000 * t.val + r.val; omega
  | ⟨1, _⟩ => show win0_0.index t (1 : Fin 2) * 128 + 1 * d.val = d.val; omega

/-- Label `r` of tile `t` is label `4000 · t + r` of the array of labels. -/
theorem labs_apply (c : Dev nD) (t : Fin cfg0.N) (r : Fin 4000) :
    (labs V c t : S4000x1.Idx → BitVec 32) (ix2 r 0)
      = (V c main_v9 : S1000000x1.Idx → BitVec 32) (ix2 ⟨4000 * t.val + r.val, by have := point_lt t; have := r.isLt; omega⟩ 0) := by
  obtain ⟨-, -, e0, e1, -⟩ := idx_facts t
  show (V c main_v9 : S1000000x1.Idx → BitVec 32) (((cfg0.win 1).blk t).view.emb (ix2 r 0)) = _
  refine congrArg (V c main_v9 : S1000000x1.Idx → BitVec 32) ?_
  funext a; apply Fin.ext
  match a with
  | ⟨0, _⟩ => show win0_1.index t (0 : Fin 2) * 4000 + 1 * r.val = 4000 * t.val + r.val; omega
  | ⟨1, _⟩ => show win0_1.index t (1 : Fin 2) * 1 + 1 * 0 = 0; omega

/-- The staged table at any point is the whole table of centres. -/
theorem cens_apply (c : Dev nD) (t : Fin cfg0.N) (d : Fin 128) (k : Fin 7) :
    (cens V c t : S128x7.Idx → EReal) (ix2 d k) = (V c main_v8 : S128x7.Idx → EReal) (ix2 d k) := by
  obtain ⟨-, -, -, -, e0, e1, -⟩ := idx_facts t
  show (V c main_v8 : S128x7.Idx → EReal) (((cfg0.win 2).blk t).view.emb (ix2 d k)) = _
  refine congrArg (V c main_v8 : S128x7.Idx → EReal) ?_
  funext a; apply Fin.ext
  match a with
  | ⟨0, _⟩ => show win0_2.index t (0 : Fin 2) * 128 + 1 * d.val = d.val; omega
  | ⟨1, _⟩ => show win0_2.index t (1 : Fin 2) * 7 + 1 * k.val = k.val; omega

end Blocks

/-! ## The cell after a point, and what the last point writes back -/

section Cell

variable (V : (c : Dev nD) → (b : Ref sig .tc) → Buf (Elt Ideal) ((c : Thread nD τ).loc b))

/-- What point `t` adds to the cell: the sum over its tile's rows of each row's share of the loss. -/
def share (c : Dev nD) (t : Fin cfg0.N) : EReal :=
  ∑ r : Fin 4000, Cert.Spec.pointLoss (fun d => (tile V c t : S4000x128.Idx → EReal) (ix2 r d))
    (fun k d => (cens V c t : S128x7.Idx → EReal) (ix2 d k)) ((labs V c t : S4000x1.Idx → BitVec 32) (ix2 r 0))

/-- After point `n` the cell holds the sum of the shares of the points up to `n`. -/
theorem cell_sum (c : Dev nD) (j : S1x1.Idx) : ∀ (n : ℕ) (hn : n < cfg0.N),
    (cellAt V c n hn : S1x1.Idx → EReal) j
      = ∑ i : Fin (n + 1), share V c ⟨i.val, by have := i.isLt; omega⟩
  | 0, hn => by
    rw [cellAt_zero]
    refine (step_value _ _ _ _ j).trans ?_
    rw [zero_value, zero_add, Fin.sum_univ_one]
    rfl
  | n + 1, hn => by
    rw [cellAt_succ]
    refine (step_value _ _ _ _ j).trans ?_
    refine (congrArg (· + _) (cell_sum c j n (Nat.lt_of_succ_lt hn))).trans ?_
    exact (Fin.sum_univ_castSucc (fun i : Fin (n + 1 + 1) => share V c ⟨i.val, by have := i.isLt; omega⟩)).symm

/-- The last point of the grid. -/
abbrev lastPoint : Fin cfg0.N := ⟨249, by rw [show cfg0.N = 250 from N_0]; decide⟩

/-- The one write-back, at the last point, writes the cell's final contents: the output's one block, read through
    zero offsets, is the whole 1×1 array. -/
theorem flushed_eq (c : Dev nD) (t : Fin cfg0.N) (hf : (cfg0.win 3).flush t = true) :
    (dat V c).flushed 3 t = ((cfg0.win 3).blk t).view.read (Elt Ideal) (cellAt V c lastPoint.val lastPoint.isLt) := by
  have h249 : t.val = 249 := by have := (flush0_3 t).mp hf; have := point_lt t; omega
  obtain rfl : t = lastPoint := Fin.ext h249
  show (cfg0.win 3).cut (grid0.coords lastPoint) ((dat V c).after 3 lastPoint) = _
  rw [after_3]
  obtain ⟨-, -, -, -, -, -, e0, e1⟩ := idx_facts lastPoint
  have hz' : (fun a => win0_3.index lastPoint a * main_v10.ty.shape.size a) = fun _ => 0 := funext fun a => by
    match a with
    | ⟨0, _⟩ => show win0_3.index lastPoint (0 : Fin 2) * 1 = 0; omega
    | ⟨1, _⟩ => show win0_3.index lastPoint (1 : Fin 2) * 1 = 0; omega
  exact (Memref.read_access_unit_zero (Elt Ideal) main_v10 hz' (fun a => by rw [congrFun hz' a]; simp)
    (cellAt V c lastPoint.val lastPoint.isLt)).symm

/-- So the output array ends holding the cell's final contents: the last point's block covers it. -/
theorem final_out (c : Dev nD) : (dat V c).arrAt 3 cfg0.N = cellAt V c lastPoint.val lastPoint.isLt :=
  (dat V c).arrAt_eq_of_cover 3 (cellAt V c lastPoint.val lastPoint.isLt) (flushed_eq V c) fun i =>
    ⟨lastPoint, (flush0_3 lastPoint).mpr rfl, by
      show i ∈ ((View.whole main_v10).slice (win0_3.rect lastPoint)).set
      rw [View.set_slice_whole, Rect.mem_set_unit]
      obtain ⟨-, -, -, -, -, -, e0, e1⟩ := idx_facts lastPoint
      intro a
      have h0 : (i 0 : Nat) < 1 := (i 0).isLt
      have h1 : (i 1 : Nat) < 1 := (i 1).isLt
      match a with
      | ⟨0, _⟩ =>
        show win0_3.index lastPoint 0 * win0_3.size 0 ≤ (i 0 : Nat) ∧ (i 0 : Nat) < win0_3.index lastPoint 0 * win0_3.size 0 + win0_3.xsize (grid0.coords lastPoint) 0
        rw [show win0_3.index lastPoint 0 * win0_3.size 0 = 0 from by decide +kernel, show win0_3.xsize (grid0.coords lastPoint) 0 = 1 from by decide +kernel]; omega
      | ⟨1, _⟩ =>
        show win0_3.index lastPoint 1 * win0_3.size 1 ≤ (i 1 : Nat) ∧ (i 1 : Nat) < win0_3.index lastPoint 1 * win0_3.size 1 + win0_3.xsize (grid0.coords lastPoint) 1
        rw [show win0_3.index lastPoint 1 * win0_3.size 1 = 0 from by decide +kernel, show win0_3.xsize (grid0.coords lastPoint) 1 = 1 from by decide +kernel]; omega⟩

end Cell

/-- The output array after the launch, from the launch's entry contents `V`: the branch's loss over the whole
    arrays of window 0 (the points), window 1 (the labels) and window 2 (the table of centres). -/
theorem out_value (V : (c : Dev nD) → (b : Ref sig .tc) → Buf (Elt Ideal) ((c : Thread nD τ).loc b)) (c : Dev nD)
    (j : S1x1.Idx) :
    ((dat V c).arrAt 3 cfg0.N : S1x1.Idx → EReal) j
      = Cert.Spec.branchLoss (fun n d => (V c main_arg0 : S1000000x128.Idx → EReal) (ix2 n d))
          (fun k d => (V c main_v8 : S128x7.Idx → EReal) (ix2 d k))
          (fun n => (V c main_v9 : S1000000x1.Idx → BitVec 32) (ix2 n 0)) := by
  refine (congrFun (final_out V c) j).trans ?_
  refine (cell_sum V c j 249 lastPoint.isLt).trans ?_
  unfold Cert.Spec.branchLoss
  refine Eq.trans ?_ (Cert.BranchSum.sum_tiles _).symm
  refine Finset.sum_congr rfl fun t _ => ?_
  unfold share
  refine Finset.sum_congr rfl fun r _ => ?_
  have hx : (fun d => (tile V c ⟨t.val, by have := t.isLt; have hN : cfg0.N = 250 := N_0; omega⟩ : S4000x128.Idx → EReal) (ix2 r d))
      = fun d => (V c main_arg0 : S1000000x128.Idx → EReal) (ix2 ⟨4000 * t.val + r.val, by have := t.isLt; have := r.isLt; omega⟩ d) :=
    funext fun d => tile_apply V c _ r d
  have hc : (fun (k : Fin 7) (d : Fin 128) => (cens V c ⟨t.val, by have := t.isLt; have hN : cfg0.N = 250 := N_0; omega⟩ : S128x7.Idx → EReal) (ix2 d k))
      = fun k d => (V c main_v8 : S128x7.Idx → EReal) (ix2 d k) :=
    funext fun k => funext fun d => cens_apply V c _ d k
  have hl : (labs V c ⟨t.val, by have := t.isLt; have hN : cfg0.N = 250 := N_0; omega⟩ : S4000x1.Idx → BitVec 32) (ix2 r 0)
      = (V c main_v9 : S1000000x1.Idx → BitVec 32) (ix2 ⟨4000 * t.val + r.val, by have := t.isLt; have := r.isLt; omega⟩ 0) :=
    labs_apply V c _ r
  exact (congrArg₂ (fun a b => Cert.Spec.pointLoss a _ b) hx hl).trans (congrArg (fun b => Cert.Spec.pointLoss _ b _) hc)

end Cert.KernelIdeal.BranchValue0

end
-- ==== Proof.BranchValue1.lean ====
/-
  What one launch of the branch kernel leaves in its 1×1 output, at the ideal instance: the branch's loss.

  One grid point adds to the cell the sum, over the tile's 4000 rows, of the row's share of the loss (`step_value`);
  the cell starts from the zero the first point stores (`zero_value`); so after the last point it holds the sum over
  the 250 tiles of the tiles' sums, which is the sum over the million rows, tile `t`'s row `r` being row
  `4000 · t + r` of the array; the last point copies the cell to the output block, the only block written back.
-/
import proofs.«401307_j46866683134130_1_alg».proof.Proof.Branch1
import proofs.«401307_j46866683134130_1_alg».proof.Proof.Spec
import proofs.«401307_j46866683134130_1_alg».proof.Proof.BranchOps
import proofs.«401307_j46866683134130_1_alg».proof.Proof.BranchSum
import proofs.«401307_j46866683134130_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.BranchValue1

open Cert.KernelIdeal Cert.KernelIdeal.Gen Cert.KernelIdeal.Branch1
open Idealize.ShloMosaic Idealize.ShloMosaic.TcCoe Idealize.ShloMosaic.ValueIdx Idealize.SL.Sem
open Idealize.ShloMosaic.Pipeline (Dat)

/-- The zero the first point stores into the cell. -/
theorem zero_value (j : S1x1.Idx) : k1_pay2 (F := Ideal) j = 0 := by
  unfold k1_pay2
  refine (congrFun (shapeCast_self _ _) j).trans ?_
  exact Ideal.ofBits_zero_f32

/-- One grid point: the cell's new contents are its old contents plus the sum over the tile's rows of each row's share,
    the centres read through the staged table `cT` (entry `(d, k)` of the table is entry `d` of centre `k`). -/
theorem step_value (x : Vec Ideal S4000x128 .f32) (cT : Vec Ideal S128x7 .f32) (l : Vec Ideal S4000x1 .i32)
    (s : Vec Ideal S1x1 .f32) (j : S1x1.Idx) :
    k1_pay1 (F := Ideal) (k1_pay3 x cT l s) j
      = s j + ∑ r : Fin 4000, Cert.Spec.pointLoss (fun d => x (ix2 r d)) (fun k d => cT (ix2 d k)) (l (ix2 r 0)) := by
  obtain ⟨p, q, rfl⟩ : ∃ (p : Fin 1) (q : Fin 1), j = ix2 p q := ⟨j 0, j 1, eq_ix2 j⟩
  obtain rfl : p = 0 := Subsingleton.elim _ _
  unfold k1_pay1 k1_pay3
  refine (congrFun (shapeCast_self _ _) _).trans ?_
  refine (addf_apply _ _ _).trans ?_
  refine congrArg (s (ix2 0 q) + ·) ?_
  -- the 1×1 cast of the column sum over the 4000 rows
  refine (Cert.LibKeepdims.shapeCast_a_a1_apply _ _ (0 : Fin 1) q).trans ?_
  refine (BranchOps.sum_rows_apply _ _ _ _ _ (0 : Fin 1)).trans ?_
  refine Finset.sum_congr rfl fun r _ => ?_
  -- one row: the keep factor times one minus the picked cosine
  refine (mulf_apply _ _ _).trans ?_
  unfold Cert.Spec.pointLoss
  refine congrArg₂ (· * ·) ?_ ?_
  · exact (congrArg (fun v : IVec S4000x1 32 =>
        (FloatOps.sitofp (F := Ideal) .f32 ((IntOp.cmpi .sge (v (ix2 r 0)) 1#32).setWidth 32) : EReal))
        (shapeCast_self l _)).trans (BranchOps.keep_value _)
  · refine (subf_apply _ _ _).trans ?_
    refine congrArg₂ (· - ·) ?_ ?_
    · exact BranchOps.ofBits_one_f32
    · -- the picked cosine: the row's lane sum over the seven classes
      refine (Cert.LibKeepdims.shapeCast_a_a1_apply _ _ r (0 : Fin 1)).trans ?_
      refine (BranchOps.sum_cols_apply _ _ _ _ _ r).trans ?_
      refine Finset.sum_congr rfl fun k _ => ?_
      refine (mulf_apply _ _ _).trans ?_
      refine congrArg₂ (· * ·) ?_ ?_
      · -- the cosine with class k: the product's entry (r, k)
        refine (BranchOps.matmul_apply _ _ r k).trans ?_
        unfold Cert.Spec.cosTo
        refine Finset.sum_congr rfl fun d _ => ?_
        refine congrArg₂ (· * ·) ?_ ?_
        · -- the row scaled to unit length
          unfold Cert.Spec.unit
          refine (divf_apply _ _ _).trans ?_
          refine congrArg (Ideal.div (x (ix2 r d))) ?_
          refine (Cert.LibKeepdims.broadcastTo_a1_ab_apply _ _ r d).trans ?_
          refine (maximumf_apply _ _ _).trans ?_
          refine congrArg₂ max ?_ rfl
          refine congrArg Ideal.sqrt ?_
          refine (Cert.LibKeepdims.shapeCast_a_a1_apply _ _ r (0 : Fin 1)).trans ?_
          exact BranchOps.sum_cols_apply _ _ _ _ _ r
        · exact congrFun (shapeCast_self cT _) (ix2 d k)
      · -- the class the label names
        have e1 : broadcastTo S4000x7 (shapeCast S4000x1 l shapeCasts_S4000x1_S4000x1) broadcasts_S4000x1_S4000x7 (ix2 r k)
            = l (ix2 r 0) :=
          (Cert.LibKeepdims.broadcastTo_a1_ab_apply _ _ r k).trans (congrFun (shapeCast_self l _) _)
        have e2 := BranchOps.iota_cols_apply iota_S4000x7_d1_w32 r k
        exact (congrArg₂ (fun a b : BitVec 32 =>
          (FloatOps.sitofp (F := Ideal) .f32 ((IntOp.cmpi .eq a b).setWidth 32) : EReal)) e1 e2).trans
          (BranchOps.hot_value _ _)

/-! ## From the blocks to the arrays -/

section Blocks

variable (V : (c : Dev nD) → (b : Ref sig .tc) → Buf (Elt Ideal) ((c : Thread nD τ).loc b))

/-- A point of the grid is below 250. -/
theorem point_lt (t : Fin cfg1.N) : t.val < 250 := by
  have hN : cfg1.N = 250 := N_1
  have := t.isLt
  omega

/-- The windows' block indices at point `t`: the tile and its labels are block `t` along the rows; the table of
    centres and the output are their whole arrays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row `r` of tile `t` is row `4000 · t + r` of the array of points. -/
theorem tile_apply (c : Dev nD) (t : Fin cfg1.N) (r : Fin 4000) (d : Fin 128) :
    (tile V c t : S4000x128.Idx → EReal) (ix2 r d)
      = (V c main_arg1 : S1000000x128.Idx → EReal) (ix2 ⟨4000 * t.val + r.val, by have := point_lt t; have := r.isLt; omega⟩ d) := by
  obtain ⟨e0, e1, -⟩ := idx_facts t
  show (V c main_arg1 : S1000000x128.Idx → EReal) (((cfg1.win 0).blk t).view.emb (ix2 r d)) = _
  refine congrArg (V c main_arg1 : S1000000x128.Idx → EReal) ?_
  funext a; apply Fin.ext
  match a with
  | ⟨0, _⟩ => show win1_0.index t (0 : Fin 2) * 4000 + 1 * r.val = 4000 * t.val + r.val; omega
  | ⟨1, _⟩ => show win1_0.index t (1 : Fin 2) * 128 + 1 * d.val = d.val; omega

/-- Label `r` of tile `t` is label `4000 · t + r` of the array of labels. -/
theorem labs_apply (c : Dev nD) (t : Fin cfg1.N) (r : Fin 4000) :
    (labs V c t : S4000x1.Idx → BitVec 32) (ix2 r 0)
      = (V c main_v12 : S1000000x1.Idx → BitVec 32) (ix2 ⟨4000 * t.val + r.val, by have := point_lt t; have := r.isLt; omega⟩ 0) := by
  obtain ⟨-, -, e0, e1, -⟩ := idx_facts t
  show (V c main_v12 : S1000000x1.Idx → BitVec 32) (((cfg1.win 1).blk t).view.emb (ix2 r 0)) = _
  refine congrArg (V c main_v12 : S1000000x1.Idx → BitVec 32) ?_
  funext a; apply Fin.ext
  match a with
  | ⟨0, _⟩ => show win1_1.index t (0 : Fin 2) * 4000 + 1 * r.val = 4000 * t.val + r.val; omega
  | ⟨1, _⟩ => show win1_1.index t (1 : Fin 2) * 1 + 1 * 0 = 0; omega

/-- The staged table at any point is the whole table of centres. -/
theorem cens_apply (c : Dev nD) (t : Fin cfg1.N) (d : Fin 128) (k : Fin 7) :
    (cens V c t : S128x7.Idx → EReal) (ix2 d k) = (V c main_v8 : S128x7.Idx → EReal) (ix2 d k) := by
  obtain ⟨-, -, -, -, e0, e1, -⟩ := idx_facts t
  show (V c main_v8 : S128x7.Idx → EReal) (((cfg1.win 2).blk t).view.emb (ix2 d k)) = _
  refine congrArg (V c main_v8 : S128x7.Idx → EReal) ?_
  funext a; apply Fin.ext
  match a with
  | ⟨0, _⟩ => show win1_2.index t (0 : Fin 2) * 128 + 1 * d.val = d.val; omega
  | ⟨1, _⟩ => show win1_2.index t (1 : Fin 2) * 7 + 1 * k.val = k.val; omega

end Blocks

/-! ## The cell after a point, and what the last point writes back -/

section Cell

variable (V : (c : Dev nD) → (b : Ref sig .tc) → Buf (Elt Ideal) ((c : Thread nD τ).loc b))

/-- What point `t` adds to the cell: the sum over its tile's rows of each row's share of the loss. -/
def share (c : Dev nD) (t : Fin cfg1.N) : EReal :=
  ∑ r : Fin 4000, Cert.Spec.pointLoss (fun d => (tile V c t : S4000x128.Idx → EReal) (ix2 r d))
    (fun k d => (cens V c t : S128x7.Idx → EReal) (ix2 d k)) ((labs V c t : S4000x1.Idx → BitVec 32) (ix2 r 0))

/-- After point `n` the cell holds the sum of the shares of the points up to `n`. -/
theorem cell_sum (c : Dev nD) (j : S1x1.Idx) : ∀ (n : ℕ) (hn : n < cfg1.N),
    (cellAt V c n hn : S1x1.Idx → EReal) j
      = ∑ i : Fin (n + 1), share V c ⟨i.val, by have := i.isLt; omega⟩
  | 0, hn => by
    rw [cellAt_zero]
    refine (step_value _ _ _ _ j).trans ?_
    rw [zero_value, zero_add, Fin.sum_univ_one]
    rfl
  | n + 1, hn => by
    rw [cellAt_succ]
    refine (step_value _ _ _ _ j).trans ?_
    refine (congrArg (· + _) (cell_sum c j n (Nat.lt_of_succ_lt hn))).trans ?_
    exact (Fin.sum_univ_castSucc (fun i : Fin (n + 1 + 1) => share V c ⟨i.val, by have := i.isLt; omega⟩)).symm

/-- The last point of the grid. -/
abbrev lastPoint : Fin cfg1.N := ⟨249, by rw [show cfg1.N = 250 from N_1]; decide⟩

/-- The one write-back, at the last point, writes the cell's final contents: the output's one block, read through
    zero offsets, is the whole 1×1 array. -/
theorem flushed_eq (c : Dev nD) (t : Fin cfg1.N) (hf : (cfg1.win 3).flush t = true) :
    (dat V c).flushed 3 t = ((cfg1.win 3).blk t).view.read (Elt Ideal) (cellAt V c lastPoint.val lastPoint.isLt) := by
  have h249 : t.val = 249 := by have := (flush1_3 t).mp hf; have := point_lt t; omega
  obtain rfl : t = lastPoint := Fin.ext h249
  show (cfg1.win 3).cut (grid1.coords lastPoint) ((dat V c).after 3 lastPoint) = _
  rw [after_3]
  obtain ⟨-, -, -, -, -, -, e0, e1⟩ := idx_facts lastPoint
  have hz' : (fun a => win1_3.index lastPoint a * main_v13.ty.shape.size a) = fun _ => 0 := funext fun a => by
    match a with
    | ⟨0, _⟩ => show win1_3.index lastPoint (0 : Fin 2) * 1 = 0; omega
    | ⟨1, _⟩ => show win1_3.index lastPoint (1 : Fin 2) * 1 = 0; omega
  exact (Memref.read_access_unit_zero (Elt Ideal) main_v13 hz' (fun a => by rw [congrFun hz' a]; simp)
    (cellAt V c lastPoint.val lastPoint.isLt)).symm

/-- So the output array ends holding the cell's final contents: the last point's block covers it. -/
theorem final_out (c : Dev nD) : (dat V c).arrAt 3 cfg1.N = cellAt V c lastPoint.val lastPoint.isLt :=
  (dat V c).arrAt_eq_of_cover 3 (cellAt V c lastPoint.val lastPoint.isLt) (flushed_eq V c) fun i =>
    ⟨lastPoint, (flush1_3 lastPoint).mpr rfl, by
      show i ∈ ((View.whole main_v13).slice (win1_3.rect lastPoint)).set
      rw [View.set_slice_whole, Rect.mem_set_unit]
      obtain ⟨-, -, -, -, -, -, e0, e1⟩ := idx_facts lastPoint
      intro a
      have h0 : (i 0 : Nat) < 1 := (i 0).isLt
      have h1 : (i 1 : Nat) < 1 := (i 1).isLt
      match a with
      | ⟨0, _⟩ =>
        show win1_3.index lastPoint 0 * win1_3.size 0 ≤ (i 0 : Nat) ∧ (i 0 : Nat) < win1_3.index lastPoint 0 * win1_3.size 0 + win1_3.xsize (grid1.coords lastPoint) 0
        rw [show win1_3.index lastPoint 0 * win1_3.size 0 = 0 from by decide +kernel, show win1_3.xsize (grid1.coords lastPoint) 0 = 1 from by decide +kernel]; omega
      | ⟨1, _⟩ =>
        show win1_3.index lastPoint 1 * win1_3.size 1 ≤ (i 1 : Nat) ∧ (i 1 : Nat) < win1_3.index lastPoint 1 * win1_3.size 1 + win1_3.xsize (grid1.coords lastPoint) 1
        rw [show win1_3.index lastPoint 1 * win1_3.size 1 = 0 from by decide +kernel, show win1_3.xsize (grid1.coords lastPoint) 1 = 1 from by decide +kernel]; omega⟩

end Cell

/-- The output array after the launch, from the launch's entry contents `V`: the branch's loss over the whole
    arrays of window 0 (the points), window 1 (the labels) and window 2 (the table of centres). -/
theorem out_value (V : (c : Dev nD) → (b : Ref sig .tc) → Buf (Elt Ideal) ((c : Thread nD τ).loc b)) (c : Dev nD)
    (j : S1x1.Idx) :
    ((dat V c).arrAt 3 cfg1.N : S1x1.Idx → EReal) j
      = Cert.Spec.branchLoss (fun n d => (V c main_arg1 : S1000000x128.Idx → EReal) (ix2 n d))
          (fun k d => (V c main_v8 : S128x7.Idx → EReal) (ix2 d k))
          (fun n => (V c main_v12 : S1000000x1.Idx → BitVec 32) (ix2 n 0)) := by
  refine (congrFun (final_out V c) j).trans ?_
  refine (cell_sum V c j 249 lastPoint.isLt).trans ?_
  unfold Cert.Spec.branchLoss
  refine Eq.trans ?_ (Cert.BranchSum.sum_tiles _).symm
  refine Finset.sum_congr rfl fun t _ => ?_
  unfold share
  refine Finset.sum_congr rfl fun r _ => ?_
  have hx : (fun d => (tile V c ⟨t.val, by have := t.isLt; have hN : cfg1.N = 250 := N_1; omega⟩ : S4000x128.Idx → EReal) (ix2 r d))
      = fun d => (V c main_arg1 : S1000000x128.Idx → EReal) (ix2 ⟨4000 * t.val + r.val, by have := t.isLt; have := r.isLt; omega⟩ d) :=
    funext fun d => tile_apply V c _ r d
  have hc : (fun (k : Fin 7) (d : Fin 128) => (cens V c ⟨t.val, by have := t.isLt; have hN : cfg1.N = 250 := N_1; omega⟩ : S128x7.Idx → EReal) (ix2 d k))
      = fun k d => (V c main_v8 : S128x7.Idx → EReal) (ix2 d k) :=
    funext fun k => funext fun d => cens_apply V c _ d k
  have hl : (labs V c ⟨t.val, by have := t.isLt; have hN : cfg1.N = 250 := N_1; omega⟩ : S4000x1.Idx → BitVec 32) (ix2 r 0)
      = (V c main_v12 : S1000000x1.Idx → BitVec 32) (ix2 ⟨4000 * t.val + r.val, by have := t.isLt; have := r.isLt; omega⟩ 0) :=
    labs_apply V c _ r
  exact (congrArg₂ (fun a b => Cert.Spec.pointLoss a _ b) hx hl).trans (congrArg (fun b => Cert.Spec.pointLoss _ b _) hc)

end Cert.KernelIdeal.BranchValue1

end
-- ==== Proof.KernelValue.lean ====
/-
  The idealized kernel program's result is the specification's loss.

  The first host stretch scales the seven centres to unit length and transposes them (entry `(d, k)` of the table is
  entry `d` of the scaled centre `k`), and lays the first branch's labels out as a column; the first launch leaves
  that branch's loss in its 1×1 output; the next stretch reshapes it to a scalar and lays out the second branch's
  labels; the second launch does the same over the second branch's points against the same table; the last stretch
  adds the two scalars.  Read through the contents followed from segment to segment, the result is
  `branchLoss A + branchLoss B` over the centres scaled to unit length: the specification's `total`.
-/
import proofs.«401307_j46866683134130_1_alg».proof.Proof.RunAll
import proofs.«401307_j46866683134130_1_alg».proof.Proof.BranchValue0
import proofs.«401307_j46866683134130_1_alg».proof.Proof.BranchValue1
import proofs.«401307_j46866683134130_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelValue

open Cert.KernelIdeal Cert.KernelIdeal.Gen Cert.KernelIdeal.RunAll
open Idealize.ShloMosaic Idealize.ShloMosaic.TcCoe Idealize.ShloMosaic.ValueIdx Idealize.SL.Sem Idealize.ShloMosaic.StableHlo

/-! ## The centres scaled to unit length, as the host stretch computes them -/

/-- The seven centres divided, row by row, by `max (√(Σ e, x e · x e)) floor`: the host operations' term. -/
def centres (x : S7x128.Idx → EReal) : S7x128.Idx → EReal :=
  Host.divf (F := Ideal) (φ := .f32) x
    (broadcastInDim S7x128 ![0, 1] bcast_S7x1_S7x128_0_1
      (maximumf (F := Ideal) (φ := .f32) (Host.sqrt (F := Ideal) (φ := .f32) (broadcastInDim S7x1 ![0] bcast_S7_S7x1_0
          (Host.reduceAdd (F := Ideal) (φ := .f32) (mulf (F := Ideal) (φ := .f32) x x) (constant (F := Ideal) S_ .f32 0x00000000#32) reducesTo_S7x128_S7_d1 h_S_)))
        (broadcastInDim S7x1 ![] bcast_S_S7x1 (constant (F := Ideal) S_ .f32 0x2B8CBCCC#32))))

/-- Entry `d` of the scaled centre `k` is the specification's unit row. -/
theorem centres_apply (x : S7x128.Idx → EReal) (k : Fin 7) (d : Fin 128) :
    centres x (ix2 k d) = Cert.Spec.unit (fun e => x (ix2 k e)) d := by
  unfold centres Cert.Spec.unit
  show Ideal.div (x (ix2 k d)) _ = _
  refine congrArg (Ideal.div (x (ix2 k d))) ?_
  rw [broadcastInDim_apply _ bcast_S7x1_S7x128_0_1 _ (ix2 k d) (ix2 k (0 : Fin 1)) (fun a => match a with
    | ⟨0, _⟩ => by show k.val = if (7 : Nat) = 1 then 0 else k.val; rw [if_neg (by decide)]
    | ⟨1, _⟩ => by show 0 = if (1 : Nat) = 1 then 0 else d.val; rw [if_pos rfl])]
  show max (Ideal.sqrt _) _ = _
  congr 1
  · refine congrArg Ideal.sqrt ?_
    rw [broadcastInDim_apply _ bcast_S7_S7x1_0 _ (ix2 k (0 : Fin 1)) (ix1 k) (fun a => match a with
      | ⟨0, _⟩ => by show k.val = if (7 : Nat) = 1 then 0 else k.val; rw [if_neg (by decide)])]
    simp only [Host.reduceAdd, Ideal.hostReduceAdd_def]
    rw [Ideal.hostReduceAdd_single reducesTo_S7x128_S7_d1 (by decide)]
    rw [show (constant (F := Ideal) S_ .f32 0x00000000#32) (Shape.Idx.first h_S_) = 0 from Ideal.ofBits_zero_f32, zero_add]
    refine Finset.sum_congr rfl fun e _ => ?_
    exact congrArg (fun i => x i * x i) (funext fun a => Fin.ext (by match a with | ⟨0, _⟩ => rfl | ⟨1, _⟩ => rfl))

variable (m : (ℓ : Loc nD τ sig) → Buf (Elt Ideal) ℓ)

/-! ## The argument arrays at their literal types -/

abbrev xA (c : Dev nD) : S1000000x128.Idx → EReal := m ((c : Thread nD τ).loc main_arg0)
abbrev xB (c : Dev nD) : S1000000x128.Idx → EReal := m ((c : Thread nD τ).loc main_arg1)
abbrev cf (c : Dev nD) : S7x128.Idx → EReal := m ((c : Thread nD τ).loc main_arg2)
abbrev lA (c : Dev nD) : S1000000.Idx → BitVec 32 := m ((c : Thread nD τ).loc main_arg3)
abbrev lB (c : Dev nD) : S1000000.Idx → BitVec 32 := m ((c : Thread nD τ).loc main_arg4)

/-! ## The first host stretch -/

theorem W1_arg0 (c : Dev nD) : W1 m c (Proc.devRef .tc main_arg0) = xA m c :=
  StableHlo.after_of_writes_sub hostOps0 _ hostOps0_writes (by decide)
theorem W1_arg1 (c : Dev nD) : W1 m c (Proc.devRef .tc main_arg1) = xB m c :=
  StableHlo.after_of_writes_sub hostOps0 _ hostOps0_writes (by decide)
theorem W1_arg4 (c : Dev nD) : W1 m c (Proc.devRef .tc main_arg4) = lB m c :=
  StableHlo.after_of_writes_sub hostOps0 _ hostOps0_writes (by decide)

/-- A column of labels laid out from the vector: entry `(n, 0)` is entry `n`. -/
theorem column_apply (l : S1000000.Idx → BitVec 32) (n : Fin 1000000) :
    shapeCast S1000000x1 l shapeCasts_S1000000_S1000000x1 (ix2 n (0 : Fin 1)) = l (ix1 n) :=
  shapeCast_apply l shapeCasts_S1000000_S1000000x1 (ix2 n (0 : Fin 1)) (ix1 n) (by
    rw [Shape.rowMajor_val_one, Shape.rowMajor_val_two]
    show n.val = n.val * 1 + 0
    omega)

theorem W1_v9 (c : Dev nD) : (W1 m c (Proc.devRef .tc main_v9) : S1000000x1.Idx → BitVec 32)
    = shapeCast S1000000x1 (lA m c) shapeCasts_S1000000_S1000000x1 := by
  show StableHlo.after hostOps0 (fun b => m (c, b)) (Proc.devRef .tc main_v9) = _
  after_results <;> rfl

theorem W1_v8 (c : Dev nD) : (W1 m c (Proc.devRef .tc main_v8) : S128x7.Idx → EReal)
    = transpose S128x7 [1, 0] (centres (cf m c)) transposes_S7x128_S128x7_1_0 := by
  show StableHlo.after hostOps0 (fun b => m (c, b)) (Proc.devRef .tc main_v8) = _
  unfold centres
  after_results <;> rfl

/-- Entry `(d, k)` of the table the launches stage is entry `d` of the scaled centre `k`. -/
theorem W1_v8_apply (c : Dev nD) (d : Fin 128) (k : Fin 7) :
    (W1 m c (Proc.devRef .tc main_v8) : S128x7.Idx → EReal) (ix2 d k) = Cert.Spec.unit (fun e => cf m c (ix2 k e)) d := by
  rw [W1_v8, transpose_apply [1, 0] _ transposes_S7x128_S128x7_1_0 (ix2 d k) (ix2 k d) (fun b => match b with
    | ⟨0, _⟩ => rfl
    | ⟨1, _⟩ => rfl)]
  exact centres_apply (cf m c) k d

/-! ## The first launch's output -/

theorem out0 (c : Dev nD) (j : S1x1.Idx) :
    (W2 m c (Proc.devRef .tc main_v10) : S1x1.Idx → EReal) j
      = Cert.Spec.branchLoss (fun n d => xA m c (ix2 n d)) (fun k => Cert.Spec.unit (fun e => cf m c (ix2 k e))) (fun n => lA m c (ix1 n)) := by
  rw [show W2 m c (Proc.devRef .tc main_v10) = (Branch0.dat (RunAll.V1 m) c).arrAt 3 cfg0.N from W2_arr m c 3]
  rw [BranchValue0.out_value (RunAll.V1 m) c j]
  have e0 : (RunAll.V1 m c main_arg0 : S1000000x128.Idx → EReal) = xA m c := W1_arg0 m c
  have e9 : ∀ n : Fin 1000000, (RunAll.V1 m c main_v9 : S1000000x1.Idx → BitVec 32) (ix2 n (0 : Fin 1)) = lA m c (ix1 n) := fun n => by
    rw [show (RunAll.V1 m c main_v9 : S1000000x1.Idx → BitVec 32) = _ from W1_v9 m c]; exact column_apply _ n
  have e8 : ∀ (k : Fin 7) (d : Fin 128), (RunAll.V1 m c main_v8 : S128x7.Idx → EReal) (ix2 d k) = Cert.Spec.unit (fun e => cf m c (ix2 k e)) d :=
    fun k d => W1_v8_apply m c d k
  rw [e0]
  simp only [e9, e8]

/-! ## The second host stretch and the second launch -/

theorem W3_v11 (c : Dev nD) (i : S_.Idx) :
    (W3 m c (Proc.devRef .tc main_v11) : S_.Idx → EReal) i = (W2 m c (Proc.devRef .tc main_v10) : S1x1.Idx → EReal) (ix2 (0 : Fin 1) (0 : Fin 1)) := by
  have e : (W3 m c (Proc.devRef .tc main_v11) : S_.Idx → EReal)
      = shapeCast S_ (W2 m c (Proc.devRef .tc main_v10) : S1x1.Idx → EReal) shapeCasts_S1x1_S_ := by
    show StableHlo.after hostOps1 (W2 m c) (Proc.devRef .tc main_v11) = _
    after_results <;> rfl
  rw [e]
  exact shapeCast_apply _ shapeCasts_S1x1_S_ i (ix2 (0 : Fin 1) (0 : Fin 1)) (by
    have h0 : (S_.rowMajor i).val = 0 := Nat.lt_one_iff.mp (lt_of_lt_of_eq (S_.rowMajor i).isLt (by decide))
    rw [Shape.rowMajor_val_two, h0]; rfl)

theorem W2_arg1 (c : Dev nD) : W2 m c (Proc.devRef .tc main_arg1) = xB m c :=
  (W2_of_ne m c main_arg1 (by decide)).trans (W1_arg1 m c)
theorem W2_arg4 (c : Dev nD) : W2 m c (Proc.devRef .tc main_arg4) = lB m c :=
  (W2_of_ne m c main_arg4 (by decide)).trans (W1_arg4 m c)
theorem W2_v8 (c : Dev nD) : W2 m c (Proc.devRef .tc main_v8) = W1 m c (Proc.devRef .tc main_v8) :=
  (W2_arr m c 2).trans (((Branch0.dat (RunAll.V1 m) c).arrAt_in 2 rfl _).trans (Branch0.A_eq (RunAll.V1 m) c 2))

theorem W3_arg1 (c : Dev nD) : W3 m c (Proc.devRef .tc main_arg1) = xB m c :=
  (StableHlo.after_of_writes_sub hostOps1 _ hostOps1_writes (by decide)).trans (W2_arg1 m c)
theorem W3_v8 (c : Dev nD) : W3 m c (Proc.devRef .tc main_v8) = W1 m c (Proc.devRef .tc main_v8) :=
  (StableHlo.after_of_writes_sub hostOps1 _ hostOps1_writes (by decide)).trans (W2_v8 m c)
theorem W3_v12 (c : Dev nD) : (W3 m c (Proc.devRef .tc main_v12) : S1000000x1.Idx → BitVec 32)
    = shapeCast S1000000x1 (lB m c) shapeCasts_S1000000_S1000000x1 := by
  have e : (W3 m c (Proc.devRef .tc main_v12) : S1000000x1.Idx → BitVec 32)
      = shapeCast S1000000x1 (W2 m c (Proc.devRef .tc main_arg4) : S1000000.Idx → BitVec 32) shapeCasts_S1000000_S1000000x1 := by
    show StableHlo.after hostOps1 (W2 m c) (Proc.devRef .tc main_v12) = _
    after_results <;> rfl
  rw [e, W2_arg4]

theorem out1 (c : Dev nD) (j : S1x1.Idx) :
    (W4 m c (Proc.devRef .tc main_v13) : S1x1.Idx → EReal) j
      = Cert.Spec.branchLoss (fun n d => xB m c (ix2 n d)) (fun k => Cert.Spec.unit (fun e => cf m c (ix2 k e))) (fun n => lB m c (ix1 n)) := by
  rw [show W4 m c (Proc.devRef .tc main_v13) = (Branch1.dat (RunAll.V3 m) c).arrAt 3 cfg1.N from W4_arr m c 3]
  rw [BranchValue1.out_value (RunAll.V3 m) c j]
  have e1 : (RunAll.V3 m c main_arg1 : S1000000x128.Idx → EReal) = xB m c := W3_arg1 m c
  have e12 : ∀ n : Fin 1000000, (RunAll.V3 m c main_v12 : S1000000x1.Idx → BitVec 32) (ix2 n (0 : Fin 1)) = lB m c (ix1 n) := fun n => by
    rw [show (RunAll.V3 m c main_v12 : S1000000x1.Idx → BitVec 32) = _ from W3_v12 m c]; exact column_apply _ n
  have e8 : ∀ (k : Fin 7) (d : Fin 128), (RunAll.V3 m c main_v8 : S128x7.Idx → EReal) (ix2 d k) = Cert.Spec.unit (fun e => cf m c (ix2 k e)) d :=
    fun k d => by rw [show (RunAll.V3 m c main_v8 : S128x7.Idx → EReal) = _ from W3_v8 m c]; exact W1_v8_apply m c d k
  rw [e1]
  simp only [e12, e8]

/-! ## The last host stretch: the sum of the two -/

theorem W4_v11 (c : Dev nD) : W4 m c (Proc.devRef .tc main_v11) = W3 m c (Proc.devRef .tc main_v11) :=
  W4_of_ne m c main_v11 (by decide)

theorem W5_v15 (c : Dev nD) (i : S_.Idx) :
    (W5 m c (Proc.devRef .tc main_v15) : S_.Idx → EReal) i
      = Cert.Spec.total (fun n d => xA m c (ix2 n d)) (fun n d => xB m c (ix2 n d)) (fun k d => cf m c (ix2 k d))
          (fun n => lA m c (ix1 n)) (fun n => lB m c (ix1 n)) := by
  have e : (W5 m c (Proc.devRef .tc main_v15) : S_.Idx → EReal)
      = addf (F := Ideal) (φ := .f32) (W4 m c (Proc.devRef .tc main_v11) : S_.Idx → EReal)
          (shapeCast S_ (W4 m c (Proc.devRef .tc main_v13) : S1x1.Idx → EReal) shapeCasts_S1x1_S_) := by
    show StableHlo.after hostOps2 (W4 m c) (Proc.devRef .tc main_v15) = _
    after_results <;> rfl
  have h0 : (S_.rowMajor i).val = 0 := Nat.lt_one_iff.mp (lt_of_lt_of_eq (S_.rowMajor i).isLt (by decide))
  refine (congrFun e i).trans ((addf_apply (s := S_) (φ := .f32) _ _ i).trans ?_)
  rw [shapeCast_apply _ shapeCasts_S1x1_S_ i (ix2 (0 : Fin 1) (0 : Fin 1)) (by rw [Shape.rowMajor_val_two, h0]; rfl)]
  rw [W4_v11, W3_v11, out0, out1]
  rfl

/-! ## The run -/

/-- The idealized kernel program's run: it ends with its result at the specification's loss of the launch arrays and the
    arguments unchanged. -/
theorem run_value (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = (fun _ => Cert.Spec.total
          (fun n d => xA m c (ix2 n d)) (fun n d => xB m c (ix2 n d)) (fun k d => cf m c (ix2 k d))
          (fun n => lA m c (ix1 n)) (fun n => lB m c (ix1 n)))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c _ (mem_uc main_v15 (by decide))).trans (funext fun i => W5_v15 m c i),
     (h c _ (mem_uc main_arg2 (by decide))).trans (W5_main_arg2 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelValue

end
-- ==== Proof.RefRunChunks.lean ====
/- The reference program's operations in four stretches, and what each stretch leaves, from any contents `V` of the
   buffers: the ten operations that scale the centres' rows to unit length (`opsC`), the 47 of the first branch
   (`opsA`), the 47 of the second branch (`opsB`), and the sum of the two branches' terms (`opsL`). The two branches
   are the same function `resBranch` of their rows, their labels and the unit centres `resC`; a stretch reads the other
   stretches' results only through the buffers named in its lemma, and leaves every buffer it does not write as it was.
   `after_chunks_v44` puts the four together: the last buffer after all 105 operations. -/
import proofs.«401307_j46866683134130_1_alg».proof.Proof.Gen.ReferenceIdeal
import Idealize.ShloMosaic.Lib.StableHlo.Run
import Idealize.ShloMosaic.Lib.Pipeline.Frame
import Idealize.ShloMosaic.Lib.Pipeline.Regions

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The four stretches -/

/-- The ten operations that scale the centres' rows to unit length: `main_arg2 ↦ main_v7`. -/
abbrev opsC : List (HloOp τ sig (Elt F)) :=
  [ binary main_arg2 main_arg2 main_v0 (mulf : (⟨S7x128, .f32⟩ : BufTy).Contents (Elt F) → (⟨S7x128, .f32⟩ : BufTy).Contents (Elt F) → (⟨S7x128, .f32⟩ : BufTy).Contents (Elt F)),
    nullary main_cst (constant S_ .f32 0x00000000#32),
    binary main_v0 main_cst main_v1 ((fun x v => Host.reduceAdd x v reducesTo_S7x128_S7_d1 h_S_) : (⟨S7x128, .f32⟩ : BufTy).Contents (Elt F) → (⟨S_, .f32⟩ : BufTy).Contents (Elt F) → (⟨S7, .f32⟩ : BufTy).Contents (Elt F)),
    unary main_v1 main_v2 (broadcastInDim S7x1 ![0] bcast_S7_S7x1_0 : (⟨S7, .f32⟩ : BufTy).Contents (Elt F) → (⟨S7x1, .f32⟩ : BufTy).Contents (Elt F)),
    unary main_v2 main_v3 (Host.sqrt : (⟨S7x1, .f32⟩ : BufTy).Contents (Elt F) → (⟨S7x1, .f32⟩ : BufTy).Contents (Elt F)),
    nullary main_cst_0 (constant S_ .f32 0x2B8CBCCC#32),
    unary main_cst_0 main_v4 (broadcastInDim S7x1 ![] bcast_S_S7x1 : (⟨S_, .f32⟩ : BufTy).Contents (Elt F) → (⟨S7x1, .f32⟩ : BufTy).Contents (Elt F)),
    binary main_v3 main_v4 main_v5 (maximumf : (⟨S7x1, .f32⟩ : BufTy).Contents (Elt F) → (⟨S7x1, .f32⟩ : BufTy).Contents (Elt F) → (⟨S7x1, .f32⟩ : BufTy).Contents (Elt F)),
    unary main_v5 main_v6 (broadcastInDim S7x128 ![0, 1] bcast_S7x1_S7x128_0_1 : (⟨S7x1, .f32⟩ : BufTy).Contents (Elt F) → (⟨S7x128, .f32⟩ : BufTy).Contents (Elt F)),
    binary main_arg2 main_v6 main_v7 (Host.divf : (⟨S7x128, .f32⟩ : BufTy).Contents (Elt F) → (⟨S7x128, .f32⟩ : BufTy).Contents (Elt F) → (⟨S7x128, .f32⟩ : BufTy).Contents (Elt F)) ]

/-- The first branch's 47 operations: `main_arg0`, `main_arg3`, `main_v7 ↦ main_v25`. -/
abbrev opsA : List (HloOp τ sig (Elt F)) :=
  [ binary main_arg0 main_arg0 main_v8 (mulf : (⟨S1000000x128, .f32⟩ : BufTy).Contents (Elt F) → (⟨S1000000x128, .f32⟩ : BufTy).Contents (Elt F) → (⟨S1000000x128, .f32⟩ : BufTy).Contents (Elt F)),
    nullary main_cst_1 (constant S_ .f32 0x00000000#32),
    binary main_v8 main_cst_1 main_v9 ((fun x v => Host.reduceAdd x v reducesTo_S1000000x128_S1000000_d1 h_S_) : (⟨S1000000x128, .f32⟩ : BufTy).Contents (Elt F) → (⟨S_, .f32⟩ : BufTy).Contents (Elt F) → (⟨S1000000, .f32⟩ : BufTy).Contents (Elt F)),
    unary main_v9 main_v10 (broadcastInDim S1000000x1 ![0] bcast_S1000000_S1000000x1_0 : (⟨S1000000, .f32⟩ : BufTy).Contents (Elt F) → (⟨S1000000x1, .f32⟩ : BufTy).Contents (Elt F)),
    unary main_v10 main_v11 (Host.sqrt : (⟨S1000000x1, .f32⟩ : BufTy).Contents (Elt F) → (⟨S1000000x1, .f32⟩ : BufTy).Contents (Elt F)),
    nullary main_cst_2 (constant S_ .f32 0x2B8CBCCC#32),
    unary main_cst_2 main_v12 (broadcastInDim S1000000x1 ![] bcast_S_S1000000x1 : (⟨S_, .f32⟩ : BufTy).Contents (Elt F) → (⟨S1000000x1, .f32⟩ : BufTy).Contents (Elt F)),
    binary main_v11 main_v12 main_v13 (maximumf : (⟨S1000000x1, .f32⟩ : BufTy).Contents (Elt F) → (⟨S1000000x1, .f32⟩ : BufTy).Contents (Elt F) → (⟨S1000000x1, .f32⟩ : BufTy).Contents (Elt F)),
    unary main_v13 main_v14 (broadcastInDim S1000000x128 ![0, 1] bcast_S1000000x1_S1000000x128_0_1 : (⟨S1000000x1, .f32⟩ : BufTy).Contents (Elt F) → (⟨S1000000x128, .f32⟩ : BufTy).Contents (Elt F)),
    binary main_arg0 main_v14 main_v15 (Host.divf : (⟨S1000000x128, .f32⟩ : BufTy).Contents (Elt F) → (⟨S1000000x128, .f32⟩ : BufTy).Contents (Elt F) → (⟨S1000000x128, .f32⟩ : BufTy).Contents (Elt F)),
    binary main_v15 main_v7 main_v16 ((fun l r => Host.dotGeneral dot_S1000000x128_S7x128_S1000000x7_1_1_0_0_n_n none l r) : (⟨S1000000x128, .f32⟩ : BufTy).Contents (Elt F) → (⟨S7x128, .f32⟩ : BufTy).Contents (Elt F) → (⟨S1000000x7, .f32⟩ : BufTy).Contents (Elt F)),
    unary main_arg3 main_v17 (broadcastInDim S1000000x1 ![0] bcast_S1000000_S1000000x1_0 : (⟨S1000000, .i32⟩ : BufTy).Contents (Elt F) → (⟨S1000000x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1000000x1, .i32⟩) main_call0_v0) (broadcastInDim S1000000x1 ![] bcast_S_S1000000x1),
    TRef.binary (TRef.of (T := ⟨S1000000x1, .i32⟩) main_v17) (TRef.of (T := ⟨S1000000x1, .i32⟩) main_call0_v0) (TRef.of (T := ⟨S1000000x1, .i1⟩) main_call0_v1) (cmpi .slt),
    TRef.nullary (TRef.of (T := ⟨S_, .i32⟩) main_call0_c_0) (constantI S_ 32 7#32),
    TRef.unary (TRef.of (T := ⟨S_, .i32⟩) main_call0_c_0) (TRef.of (T := ⟨S1000000x1, .i32⟩) main_call0_v2) (broadcastInDim S1000000x1 ![] bcast_S_S1000000x1),
    TRef.binary (TRef.of (T := ⟨S1000000x1, .i32⟩) main_v17) (TRef.of (T := ⟨S1000000x1, .i32⟩) main_call0_v2) (TRef.of (T := ⟨S1000000x1, .i32⟩) main_call0_v3) addi,
    TRef.ternary (TRef.of (T := ⟨S1000000x1, .i1⟩) main_call0_v1) (TRef.of (T := ⟨S1000000x1, .i32⟩) main_call0_v3) (TRef.of (T := ⟨S1000000x1, .i32⟩) main_v17) (TRef.of (T := ⟨S1000000x1, .i32⟩) main_call0_v4) select,
    TRef.reshape (TRef.of (T := ⟨S1000000x1, .i32⟩) main_call0_v4) (TRef.of (T := ⟨S1000000x1x1, .i32⟩) main_call0_v5) rfl shapeCasts_S1000000x1_S1000000x1x1,
    TRef.nullary (TRef.of (T := ⟨S1, .i32⟩) main_call0_c_1) (constantI S1 32 6#32),
    TRef.nullary (TRef.of (T := ⟨S_, .i32⟩) main_call0_c_2) (constantI S_ 32 0#32),
    TRef.unary (TRef.of (T := ⟨S_, .i32⟩) main_call0_c_2) (TRef.of (T := ⟨S1000000x1x1, .i32⟩) main_call0_v6) (broadcastInDim S1000000x1x1 ![] bcast_S_S1000000x1x1),
    TRef.binary (TRef.of (T := ⟨S1000000x1x1, .i32⟩) main_call0_v5) (TRef.of (T := ⟨S1000000x1x1, .i32⟩) main_call0_v6) (TRef.of (T := ⟨S1000000x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1000000x1x1, .i32⟩) main_call0_v9) (broadcastInDim S1000000x1x1 ![0, 1, 2] bcast_S1x1x1_S1000000x1x1_0_1_2),
    TRef.binary (TRef.of (T := ⟨S1000000x1x1, .i32⟩) main_call0_v5) (TRef.of (T := ⟨S1000000x1x1, .i32⟩) main_call0_v9) (TRef.of (T := ⟨S1000000x1x1, .i1⟩) main_call0_v10) (cmpi .sle),
    TRef.binary (TRef.of (T := ⟨S1000000x1x1, .i1⟩) main_call0_v7) (TRef.of (T := ⟨S1000000x1x1, .i1⟩) main_call0_v10) (TRef.of (T := ⟨S1000000x1x1, .i1⟩) main_call0_v11) andi,
    TRef.nullary (TRef.of (T := ⟨S_, .i1⟩) main_call0_c_3) (constantI S_ 1 1#1),
    TRef.binary (TRef.of (T := ⟨S1000000x1x1, .i1⟩) main_call0_v11) (TRef.of (T := ⟨S_, .i1⟩) main_call0_c_3) (TRef.of (T := ⟨S1000000x1, .i1⟩) main_call0_v12) (fun x v => Host.reduce IntOp.andi x v reducesTo_S1000000x1x1_S1000000x1_d2 h_S_),
    TRef.binary (TRef.of (T := ⟨S1000000x7, .f32⟩) main_v16) (TRef.of (T := ⟨S1000000x1x1, .i32⟩) main_call0_v5) (TRef.of (T := ⟨S1000000x1, .f32⟩) main_call0_v13) (fun x i => Host.gather gather_S1000000x7_S1000000x1x1_S1000000x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S1000000x1, .f32⟩) main_call0_v14) (broadcastInDim S1000000x1 ![] bcast_S_S1000000x1),
    TRef.ternary (TRef.of (T := ⟨S1000000x1, .i1⟩) main_call0_v12) (TRef.of (T := ⟨S1000000x1, .f32⟩) main_call0_v13) (TRef.of (T := ⟨S1000000x1, .f32⟩) main_call0_v14) (TRef.of (T := ⟨S1000000x1, .f32⟩) main_v18) select,
    reshape main_v18 main_v19 rfl shapeCasts_S1000000x1_S1000000,
    nullary main_c (constantI S_ 32 1#32),
    unary main_c main_v20 (broadcastInDim S1000000 ![] bcast_S_S1000000 : (⟨S_, .i32⟩ : BufTy).Contents (Elt F) → (⟨S1000000, .i32⟩ : BufTy).Contents (Elt F)),
    binary main_arg3 main_v20 main_v21 (cmpi .sge : (⟨S1000000, .i32⟩ : BufTy).Contents (Elt F) → (⟨S1000000, .i32⟩ : BufTy).Contents (Elt F) → (⟨S1000000, .i1⟩ : BufTy).Contents (Elt F)),
    nullary main_cst_3 (constant S_ .f32 0x3F800000#32),
    unary main_cst_3 main_v22 (broadcastInDim S1000000 ![] bcast_S_S1000000 : (⟨S_, .f32⟩ : BufTy).Contents (Elt F) → (⟨S1000000, .f32⟩ : BufTy).Contents (Elt F)),
    binary main_v22 main_v19 main_v23 (subf : (⟨S1000000, .f32⟩ : BufTy).Contents (Elt F) → (⟨S1000000, .f32⟩ : BufTy).Contents (Elt F) → (⟨S1000000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S1000000, .f32⟩) main_call1_v1) (broadcastInDim S1000000 ![] bcast_S_S1000000),
    TRef.ternary (TRef.of (T := ⟨S1000000, .i1⟩) main_v21) (TRef.of (T := ⟨S1000000, .f32⟩) main_v23) (TRef.of (T := ⟨S1000000, .f32⟩) main_call1_v1) (TRef.of (T := ⟨S1000000, .f32⟩) main_v24) select,
    nullary main_cst_5 (constant S_ .f32 0x00000000#32),
    binary main_v24 main_cst_5 main_v25 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)) ]

/-- The second branch's 47 operations: `main_arg1`, `main_arg4`, `main_v7 ↦ main_v43`. -/
abbrev opsB : List (HloOp τ sig (Elt F)) :=
  [ binary main_arg1 main_arg1 main_v26 (mulf : (⟨S1000000x128, .f32⟩ : BufTy).Contents (Elt F) → (⟨S1000000x128, .f32⟩ : BufTy).Contents (Elt F) → (⟨S1000000x128, .f32⟩ : BufTy).Contents (Elt F)),
    nullary main_cst_6 (constant S_ .f32 0x00000000#32),
    binary main_v26 main_cst_6 main_v27 ((fun x v => Host.reduceAdd x v reducesTo_S1000000x128_S1000000_d1 h_S_) : (⟨S1000000x128, .f32⟩ : BufTy).Contents (Elt F) → (⟨S_, .f32⟩ : BufTy).Contents (Elt F) → (⟨S1000000, .f32⟩ : BufTy).Contents (Elt F)),
    unary main_v27 main_v28 (broadcastInDim S1000000x1 ![0] bcast_S1000000_S1000000x1_0 : (⟨S1000000, .f32⟩ : BufTy).Contents (Elt F) → (⟨S1000000x1, .f32⟩ : BufTy).Contents (Elt F)),
    unary main_v28 main_v29 (Host.sqrt : (⟨S1000000x1, .f32⟩ : BufTy).Contents (Elt F) → (⟨S1000000x1, .f32⟩ : BufTy).Contents (Elt F)),
    nullary main_cst_7 (constant S_ .f32 0x2B8CBCCC#32),
    unary main_cst_7 main_v30 (broadcastInDim S1000000x1 ![] bcast_S_S1000000x1 : (⟨S_, .f32⟩ : BufTy).Contents (Elt F) → (⟨S1000000x1, .f32⟩ : BufTy).Contents (Elt F)),
    binary main_v29 main_v30 main_v31 (maximumf : (⟨S1000000x1, .f32⟩ : BufTy).Contents (Elt F) → (⟨S1000000x1, .f32⟩ : BufTy).Contents (Elt F) → (⟨S1000000x1, .f32⟩ : BufTy).Contents (Elt F)),
    unary main_v31 main_v32 (broadcastInDim S1000000x128 ![0, 1] bcast_S1000000x1_S1000000x128_0_1 : (⟨S1000000x1, .f32⟩ : BufTy).Contents (Elt F) → (⟨S1000000x128, .f32⟩ : BufTy).Contents (Elt F)),
    binary main_arg1 main_v32 main_v33 (Host.divf : (⟨S1000000x128, .f32⟩ : BufTy).Contents (Elt F) → (⟨S1000000x128, .f32⟩ : BufTy).Contents (Elt F) → (⟨S1000000x128, .f32⟩ : BufTy).Contents (Elt F)),
    binary main_v33 main_v7 main_v34 ((fun l r => Host.dotGeneral dot_S1000000x128_S7x128_S1000000x7_1_1_0_0_n_n none l r) : (⟨S1000000x128, .f32⟩ : BufTy).Contents (Elt F) → (⟨S7x128, .f32⟩ : BufTy).Contents (Elt F) → (⟨S1000000x7, .f32⟩ : BufTy).Contents (Elt F)),
    unary main_arg4 main_v35 (broadcastInDim S1000000x1 ![0] bcast_S1000000_S1000000x1_0 : (⟨S1000000, .i32⟩ : BufTy).Contents (Elt F) → (⟨S1000000x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1000000x1, .i32⟩) main_call2_v0) (broadcastInDim S1000000x1 ![] bcast_S_S1000000x1),
    TRef.binary (TRef.of (T := ⟨S1000000x1, .i32⟩) main_v35) (TRef.of (T := ⟨S1000000x1, .i32⟩) main_call2_v0) (TRef.of (T := ⟨S1000000x1, .i1⟩) main_call2_v1) (cmpi .slt),
    TRef.nullary (TRef.of (T := ⟨S_, .i32⟩) main_call2_c_0) (constantI S_ 32 7#32),
    TRef.unary (TRef.of (T := ⟨S_, .i32⟩) main_call2_c_0) (TRef.of (T := ⟨S1000000x1, .i32⟩) main_call2_v2) (broadcastInDim S1000000x1 ![] bcast_S_S1000000x1),
    TRef.binary (TRef.of (T := ⟨S1000000x1, .i32⟩) main_v35) (TRef.of (T := ⟨S1000000x1, .i32⟩) main_call2_v2) (TRef.of (T := ⟨S1000000x1, .i32⟩) main_call2_v3) addi,
    TRef.ternary (TRef.of (T := ⟨S1000000x1, .i1⟩) main_call2_v1) (TRef.of (T := ⟨S1000000x1, .i32⟩) main_call2_v3) (TRef.of (T := ⟨S1000000x1, .i32⟩) main_v35) (TRef.of (T := ⟨S1000000x1, .i32⟩) main_call2_v4) select,
    TRef.reshape (TRef.of (T := ⟨S1000000x1, .i32⟩) main_call2_v4) (TRef.of (T := ⟨S1000000x1x1, .i32⟩) main_call2_v5) rfl shapeCasts_S1000000x1_S1000000x1x1,
    TRef.nullary (TRef.of (T := ⟨S1, .i32⟩) main_call2_c_1) (constantI S1 32 6#32),
    TRef.nullary (TRef.of (T := ⟨S_, .i32⟩) main_call2_c_2) (constantI S_ 32 0#32),
    TRef.unary (TRef.of (T := ⟨S_, .i32⟩) main_call2_c_2) (TRef.of (T := ⟨S1000000x1x1, .i32⟩) main_call2_v6) (broadcastInDim S1000000x1x1 ![] bcast_S_S1000000x1x1),
    TRef.binary (TRef.of (T := ⟨S1000000x1x1, .i32⟩) main_call2_v5) (TRef.of (T := ⟨S1000000x1x1, .i32⟩) main_call2_v6) (TRef.of (T := ⟨S1000000x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1000000x1x1, .i32⟩) main_call2_v9) (broadcastInDim S1000000x1x1 ![0, 1, 2] bcast_S1x1x1_S1000000x1x1_0_1_2),
    TRef.binary (TRef.of (T := ⟨S1000000x1x1, .i32⟩) main_call2_v5) (TRef.of (T := ⟨S1000000x1x1, .i32⟩) main_call2_v9) (TRef.of (T := ⟨S1000000x1x1, .i1⟩) main_call2_v10) (cmpi .sle),
    TRef.binary (TRef.of (T := ⟨S1000000x1x1, .i1⟩) main_call2_v7) (TRef.of (T := ⟨S1000000x1x1, .i1⟩) main_call2_v10) (TRef.of (T := ⟨S1000000x1x1, .i1⟩) main_call2_v11) andi,
    TRef.nullary (TRef.of (T := ⟨S_, .i1⟩) main_call2_c_3) (constantI S_ 1 1#1),
    TRef.binary (TRef.of (T := ⟨S1000000x1x1, .i1⟩) main_call2_v11) (TRef.of (T := ⟨S_, .i1⟩) main_call2_c_3) (TRef.of (T := ⟨S1000000x1, .i1⟩) main_call2_v12) (fun x v => Host.reduce IntOp.andi x v reducesTo_S1000000x1x1_S1000000x1_d2 h_S_),
    TRef.binary (TRef.of (T := ⟨S1000000x7, .f32⟩) main_v34) (TRef.of (T := ⟨S1000000x1x1, .i32⟩) main_call2_v5) (TRef.of (T := ⟨S1000000x1, .f32⟩) main_call2_v13) (fun x i => Host.gather gather_S1000000x7_S1000000x1x1_S1000000x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S1000000x1, .f32⟩) main_call2_v14) (broadcastInDim S1000000x1 ![] bcast_S_S1000000x1),
    TRef.ternary (TRef.of (T := ⟨S1000000x1, .i1⟩) main_call2_v12) (TRef.of (T := ⟨S1000000x1, .f32⟩) main_call2_v13) (TRef.of (T := ⟨S1000000x1, .f32⟩) main_call2_v14) (TRef.of (T := ⟨S1000000x1, .f32⟩) main_v36) select,
    reshape main_v36 main_v37 rfl shapeCasts_S1000000x1_S1000000,
    nullary main_c_8 (constantI S_ 32 1#32),
    unary main_c_8 main_v38 (broadcastInDim S1000000 ![] bcast_S_S1000000 : (⟨S_, .i32⟩ : BufTy).Contents (Elt F) → (⟨S1000000, .i32⟩ : BufTy).Contents (Elt F)),
    binary main_arg4 main_v38 main_v39 (cmpi .sge : (⟨S1000000, .i32⟩ : BufTy).Contents (Elt F) → (⟨S1000000, .i32⟩ : BufTy).Contents (Elt F) → (⟨S1000000, .i1⟩ : BufTy).Contents (Elt F)),
    nullary main_cst_9 (constant S_ .f32 0x3F800000#32),
    unary main_cst_9 main_v40 (broadcastInDim S1000000 ![] bcast_S_S1000000 : (⟨S_, .f32⟩ : BufTy).Contents (Elt F) → (⟨S1000000, .f32⟩ : BufTy).Contents (Elt F)),
    binary main_v40 main_v37 main_v41 (subf : (⟨S1000000, .f32⟩ : BufTy).Contents (Elt F) → (⟨S1000000, .f32⟩ : BufTy).Contents (Elt F) → (⟨S1000000, .f32⟩ : BufTy).Contents (Elt F)),
    nullary main_cst_10 (constant S_ .f32 0x00000000#32),
    TRef.unary (TRef.of (T := ⟨S_, .f32⟩) main_cst_10) (TRef.of (T := ⟨S_, .f32⟩) main_call3_v0) id,
    TRef.unary (TRef.of (T := ⟨S_, .f32⟩) main_call3_v0) (TRef.of (T := ⟨S1000000, .f32⟩) main_call3_v1) (broadcastInDim S1000000 ![] bcast_S_S1000000),
    TRef.ternary (TRef.of (T := ⟨S1000000, .i1⟩) main_v39) (TRef.of (T := ⟨S1000000, .f32⟩) main_v41) (TRef.of (T := ⟨S1000000, .f32⟩) main_call3_v1) (TRef.of (T := ⟨S1000000, .f32⟩) main_v42) select,
    nullary main_cst_11 (constant S_ .f32 0x00000000#32),
    binary main_v42 main_cst_11 main_v43 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)) ]

/-- The closing sum of the two branches: `main_v25`, `main_v43 ↦ main_v44`. -/
abbrev opsL : List (HloOp τ sig (Elt F)) :=
  [ binary main_v25 main_v43 main_v44 (addf : (⟨S_, .f32⟩ : BufTy).Contents (Elt F) → (⟨S_, .f32⟩ : BufTy).Contents (Elt F) → (⟨S_, .f32⟩ : BufTy).Contents (Elt F)) ]

/-! ## What the stretches compute -/

/-- The centres' rows, each divided by its length (the length taken at least 1e-12). -/
def resC (w : (⟨S7x128, .f32⟩ : BufTy).Contents (Elt F)) : (⟨S7x128, .f32⟩ : BufTy).Contents (Elt F) :=
  Host.divf w (broadcastInDim S7x128 ![0, 1] bcast_S7x1_S7x128_0_1 (maximumf (Host.sqrt (broadcastInDim S7x1 ![0] bcast_S7_S7x1_0 (Host.reduceAdd (mulf w w) (constant S_ .f32 0x00000000#32) reducesTo_S7x128_S7_d1 h_S_))) (broadcastInDim S7x1 ![] bcast_S_S7x1 (constant S_ .f32 0x2B8CBCCC#32))))

/-- One branch's loss term from its rows `x`, its labels `lab` and the unit centres `w`: the rows scaled to unit length,
    their products with every centre, the product at each row's label (a negative label counted from the end; not-a-number
    outside 0..6), one minus it where the label is at least 1 and zero elsewhere, summed over the rows. -/
def resBranch (x : (⟨S1000000x128, .f32⟩ : BufTy).Contents (Elt F)) (lab : (⟨S1000000, .i32⟩ : BufTy).Contents (Elt F)) (w : (⟨S7x128, .f32⟩ : BufTy).Contents (Elt F)) : (⟨S_, .f32⟩ : BufTy).Contents (Elt F) :=
  Host.reduceAdd (select (cmpi .sge lab (broadcastInDim S1000000 ![] bcast_S_S1000000 (constantI S_ 32 1#32))) (subf (broadcastInDim S1000000 ![] bcast_S_S1000000 (constant S_ .f32 0x3F800000#32)) (shapeCast _ (select (Host.reduce IntOp.andi (andi (cmpi .sge (shapeCast _ (select (cmpi .slt (broadcastInDim S1000000x1 ![0] bcast_S1000000_S1000000x1_0 lab) (broadcastInDim S1000000x1 ![] bcast_S_S1000000x1 (constantI S_ 32 0#32))) (addi (broadcastInDim S1000000x1 ![0] bcast_S1000000_S1000000x1_0 lab) (broadcastInDim S1000000x1 ![] bcast_S_S1000000x1 (constantI S_ 32 7#32))) (broadcastInDim S1000000x1 ![0] bcast_S1000000_S1000000x1_0 lab)) shapeCasts_S1000000x1_S1000000x1x1) (broadcastInDim S1000000x1x1 ![] bcast_S_S1000000x1x1 (constantI S_ 32 0#32))) (cmpi .sle (shapeCast _ (select (cmpi .slt (broadcastInDim S1000000x1 ![0] bcast_S1000000_S1000000x1_0 lab) (broadcastInDim S1000000x1 ![] bcast_S_S1000000x1 (constantI S_ 32 0#32))) (addi (broadcastInDim S1000000x1 ![0] bcast_S1000000_S1000000x1_0 lab) (broadcastInDim S1000000x1 ![] bcast_S_S1000000x1 (constantI S_ 32 7#32))) (broadcastInDim S1000000x1 ![0] bcast_S1000000_S1000000x1_0 lab)) shapeCasts_S1000000x1_S1000000x1x1) (broadcastInDim S1000000x1x1 ![0, 1, 2] bcast_S1x1x1_S1000000x1x1_0_1_2 (broadcastInDim S1x1x1 ![2] bcast_S1_S1x1x1_2 (constantI S1 32 6#32))))) (constantI S_ 1 1#1) reducesTo_S1000000x1x1_S1000000x1_d2 h_S_) (Host.gather gather_S1000000x7_S1000000x1x1_S1000000x1_n_1_0_0_1_2_11 (Host.dotGeneral dot_S1000000x128_S7x128_S1000000x7_1_1_0_0_n_n none (Host.divf x (broadcastInDim S1000000x128 ![0, 1] bcast_S1000000x1_S1000000x128_0_1 (maximumf (Host.sqrt (broadcastInDim S1000000x1 ![0] bcast_S1000000_S1000000x1_0 (Host.reduceAdd (mulf x x) (constant S_ .f32 0x00000000#32) reducesTo_S1000000x128_S1000000_d1 h_S_))) (broadcastInDim S1000000x1 ![] bcast_S_S1000000x1 (constant S_ .f32 0x2B8CBCCC#32))))) w) (shapeCast _ (select (cmpi .slt (broadcastInDim S1000000x1 ![0] bcast_S1000000_S1000000x1_0 lab) (broadcastInDim S1000000x1 ![] bcast_S_S1000000x1 (constantI S_ 32 0#32))) (addi (broadcastInDim S1000000x1 ![0] bcast_S1000000_S1000000x1_0 lab) (broadcastInDim S1000000x1 ![] bcast_S_S1000000x1 (constantI S_ 32 7#32))) (broadcastInDim S1000000x1 ![0] bcast_S1000000_S1000000x1_0 lab)) shapeCasts_S1000000x1_S1000000x1x1)) (broadcastInDim S1000000x1 ![] bcast_S_S1000000x1 (constant S_ .f32 0x7FC00000#32))) shapeCasts_S1000000x1_S1000000)) (broadcastInDim S1000000 ![] bcast_S_S1000000 (id (constant S_ .f32 0x00000000#32)))) (constant S_ .f32 0x00000000#32) reducesTo_S1000000_S_d0 h_S_

/-- Contents moved to a buffer's own type and back are the contents. -/
theorem ofBuf_toBuf {T : BufTy} (x : TRef sig T) (v : T.Contents (Elt F)) : x.ofBuf (x.toBuf v) = v := by
  obtain ⟨r, rfl, _, _⟩ := x
  rfl

/-! ## The centres' stretch: the unit centres in `main_v7`, every argument as it was -/

theorem afterC_v7 (V : Valuation τ sig (Elt F)) :
    after opsC V (Proc.devRef .tc main_v7) = resC (V (Proc.devRef .tc main_arg2)) := by
  after_results_simp <;> rfl
theorem afterC_arg0 (V : Valuation τ sig (Elt F)) :
    after opsC V (Proc.devRef .tc main_arg0) = V (Proc.devRef .tc main_arg0) := by
  after_results_simp <;> rfl
theorem afterC_arg1 (V : Valuation τ sig (Elt F)) :
    after opsC V (Proc.devRef .tc main_arg1) = V (Proc.devRef .tc main_arg1) := by
  after_results_simp <;> rfl
theorem afterC_arg3 (V : Valuation τ sig (Elt F)) :
    after opsC V (Proc.devRef .tc main_arg3) = V (Proc.devRef .tc main_arg3) := by
  after_results_simp <;> rfl
theorem afterC_arg4 (V : Valuation τ sig (Elt F)) :
    after opsC V (Proc.devRef .tc main_arg4) = V (Proc.devRef .tc main_arg4) := by
  after_results_simp <;> rfl

/-! ## The first branch: its term in `main_v25`; what the second branch reads as it was -/

set_option maxRecDepth 8192 in
set_option maxHeartbeats 4000000 in
theorem afterA_v25 (V : Valuation τ sig (Elt F)) :
    after opsA V (Proc.devRef .tc main_v25)
      = resBranch (V (Proc.devRef .tc main_arg0)) (V (Proc.devRef .tc main_arg3)) (V (Proc.devRef .tc main_v7)) := by
  after_results_simp
  simp only [ofBuf_toBuf]
  chain_rfl
set_option maxRecDepth 8192 in
theorem afterA_arg1 (V : Valuation τ sig (Elt F)) :
    after opsA V (Proc.devRef .tc main_arg1) = V (Proc.devRef .tc main_arg1) := by
  after_results_simp <;> rfl
set_option maxRecDepth 8192 in
theorem afterA_arg4 (V : Valuation τ sig (Elt F)) :
    after opsA V (Proc.devRef .tc main_arg4) = V (Proc.devRef .tc main_arg4) := by
  after_results_simp <;> rfl
set_option maxRecDepth 8192 in
theorem afterA_v7 (V : Valuation τ sig (Elt F)) :
    after opsA V (Proc.devRef .tc main_v7) = V (Proc.devRef .tc main_v7) := by
  after_results_simp <;> rfl

/-! ## The second branch: its term in `main_v43`; the first branch's term as it was -/

set_option maxRecDepth 8192 in
set_option maxHeartbeats 4000000 in
theorem afterB_v43 (V : Valuation τ sig (Elt F)) :
    after opsB V (Proc.devRef .tc main_v43)
      = resBranch (V (Proc.devRef .tc main_arg1)) (V (Proc.devRef .tc main_arg4)) (V (Proc.devRef .tc main_v7)) := by
  after_results_simp
  simp only [ofBuf_toBuf]
  chain_rfl
set_option maxRecDepth 8192 in
theorem afterB_v25 (V : Valuation τ sig (Elt F)) :
    after opsB V (Proc.devRef .tc main_v25) = V (Proc.devRef .tc main_v25) := by
  after_results_simp <;> rfl

/-! ## The closing sum, and the four stretches in a row -/

theorem afterL_v44 (V : Valuation τ sig (Elt F)) :
    after opsL V (Proc.devRef .tc main_v44) = addf (V (Proc.devRef .tc main_v25)) (V (Proc.devRef .tc main_v43)) := by
  after_results_simp <;> rfl

/-- After the four stretches in a row, `main_v44` holds the sum of the two branches' terms, each over its own rows and
    labels and the unit centres. -/
theorem after_chunks_v44 (V : Valuation τ sig (Elt F)) :
    after (opsC ++ (opsA ++ (opsB ++ opsL))) V (Proc.devRef .tc main_v44)
      = addf (resBranch (V (Proc.devRef .tc main_arg0)) (V (Proc.devRef .tc main_arg3)) (resC (V (Proc.devRef .tc main_arg2))))
          (resBranch (V (Proc.devRef .tc main_arg1)) (V (Proc.devRef .tc main_arg4)) (resC (V (Proc.devRef .tc main_arg2)))) := by
  rw [StableHlo.after_append, StableHlo.after_append, StableHlo.after_append,
    afterL_v44, afterB_v43, afterB_v25, afterA_v25, afterA_arg1, afterA_arg4, afterA_v7,
    afterC_v7, afterC_arg0, afterC_arg1, afterC_arg3, afterC_arg4]

end Cert.ReferenceIdeal.Value

end
-- ==== Proof.PointLaw.lean ====
/-
  One point's contribution, on both sides.

  A label `l` below 7 (signed) either is at least 1, and then it is one of `1 … 6`: as a signed word it is not
  negative, so the wrap of negative labels leaves it alone; it lies in `0 … 6`, so the range test holds and the
  clamp into `0 … 6` does nothing; and the sum over the seven classes of `cos c · [l = c]` has the one term
  `cos l · 1`, every other term being a product with zero.  Or it is below 1: then both sides are `0`, the
  program's by the choice of its zero branch whatever was picked, the specification's by `0 · y = 0`.
-/
import proofs.«401307_j46866683134130_1_alg».proof.Proof.Spec

noncomputable section

namespace Cert.PointLaw

open Idealize.ShloMosaic

/-- A choice on a Boolean's word is the choice on the Boolean. -/
theorem select_ofBool {α : Type} (b : Bool) (x y : α) : Scalar.select (BitVec.ofBool b) x y = if b then x else y := by
  cases b
  · exact if_neg (by decide)
  · exact if_pos rfl

/-- A label at least 1 and below 7 (signed) is one of the words `1 … 6`. -/
theorem label_range {l : BitVec 32} (h1 : (1#32).sle l = true) (h7 : l.slt 7#32 = true) :
    1 ≤ l.toNat ∧ l.toNat ≤ 6 := by
  rw [BitVec.sle_iff_toInt_le, show (1#32).toInt = 1 from rfl] at h1
  rw [BitVec.slt_iff_toInt_lt, show (7#32).toInt = 7 from rfl] at h7
  have hl := l.isLt
  rw [BitVec.toInt_eq_toNat_cond] at h1 h7
  by_cases hc : 2 * l.toNat < 2 ^ 32
  · rw [if_pos hc] at h1 h7; omega
  · rw [if_neg hc] at h1 h7; omega

/-- A word in `0 … 6` read as a signed integer is itself. -/
theorem toInt_of_le {l : BitVec 32} (h6 : l.toNat ≤ 6) : l.toInt = (l.toNat : Int) :=
  BitVec.toInt_eq_toNat_of_lt (by omega)

/-- The index the row-wise pick uses: a negative label is wrapped by the number of classes. -/
def wrap (l : BitVec 32) : BitVec 32 := Scalar.select (IntOp.cmpi .slt l 0#32) (IntOp.addi l 7#32) l

/-- The range test on the wrapped label. -/
def inRange (l : BitVec 32) : BitVec 1 := IntOp.andi (IntOp.cmpi .sge (wrap l) 0#32) (IntOp.cmpi .sle (wrap l) 6#32)

/-- A label in `0 … 6` is not wrapped. -/
theorem wrap_of_le {l : BitVec 32} (h6 : l.toNat ≤ 6) : wrap l = l := by
  unfold wrap
  have h : l.slt 0#32 = false := by
    rw [Bool.eq_false_iff]
    intro h
    rw [BitVec.slt_iff_toInt_lt, toInt_of_le h6, show (0#32).toInt = 0 from rfl] at h
    omega
  show Scalar.select (BitVec.ofBool (l.slt 0#32)) _ _ = l
  rw [h]
  exact if_neg (by decide)

/-- A label in `0 … 6` passes the range test. -/
theorem inRange_of_le {l : BitVec 32} (h6 : l.toNat ≤ 6) : inRange l = 1#1 := by
  unfold inRange
  rw [wrap_of_le h6]
  have ha : (0#32).sle l = true := by
    rw [BitVec.sle_iff_toInt_le, toInt_of_le h6, show (0#32).toInt = 0 from rfl]; omega
  have hb : l.sle 6#32 = true := by
    rw [BitVec.sle_iff_toInt_le, toInt_of_le h6, show (6#32).toInt = 6 from rfl]; omega
  show IntOp.andi (BitVec.ofBool ((0#32).sle l)) (BitVec.ofBool (l.sle 6#32)) = 1#1
  rw [ha, hb]
  rfl

/-- The clamp into `0 … 6` leaves a label in `0 … 6` alone. -/
theorem clamp_of_le {l : BitVec 32} (h6 : l.toNat ≤ 6) : min (wrap l).toInt.toNat (7 - 1) = l.toNat := by
  rw [wrap_of_le h6, toInt_of_le h6]
  omega

/-- The one-hot sum picks the label's entry. -/
theorem hot_sum (cos : Fin 7 → EReal) (l : BitVec 32) (h6 : l.toNat ≤ 6) :
    ∑ c : Fin 7, cos c * Cert.Spec.hot l c = cos ⟨l.toNat, by omega⟩ := by
  rw [Finset.sum_eq_single (⟨l.toNat, by omega⟩ : Fin 7)]
  · unfold Cert.Spec.hot
    rw [if_pos (BitVec.eq_of_toNat_eq (by rw [BitVec.toNat_ofNat, Nat.mod_eq_of_lt l.isLt]))]
    exact mul_one _
  · intro c _ hc
    unfold Cert.Spec.hot
    rw [if_neg, mul_zero]
    intro e
    apply hc
    apply Fin.ext
    show c.val = l.toNat
    rw [e, BitVec.toNat_ofNat]
    have := c.isLt
    omega
  · intro h
    exact absurd (Finset.mem_univ _) h

/-- THE LAW OF ONE POINT.  With `picked` whatever the program took for the point — the gathered cosine where the
    range test `inr` holds, the filler elsewhere — the kept `1 - picked` or the `0` is the specification's
    contribution, given that for a label at least 1 the test holds and the gathered entry is the label's. -/
theorem point_law (cos : Fin 7 → EReal) (l : BitVec 32) (h7 : l.slt 7#32 = true) (inr : BitVec 1) (g filler : EReal)
    (hin : l.toNat ≤ 6 → inr = 1#1) (hg : ∀ h6 : l.toNat ≤ 6, g = cos ⟨l.toNat, by omega⟩) :
    Scalar.select (IntOp.cmpi .sge l 1#32) (1 - Scalar.select inr g filler) 0
      = Cert.Spec.keep l * (1 - ∑ c : Fin 7, cos c * Cert.Spec.hot l c) := by
  show Scalar.select (BitVec.ofBool ((1#32).sle l)) _ _ = _
  rw [select_ofBool]
  unfold Cert.Spec.keep
  by_cases h1 : (1#32).sle l = true
  · have h6 := (label_range h1 h7).2
    rw [if_pos h1, if_pos h1, one_mul, hot_sum cos l h6, hin h6, ← hg h6]
    rfl
  · rw [if_neg h1, if_neg h1, zero_mul]

end Cert.PointLaw

end
-- ==== Proof.LibTakeAlongRow.lean ====
/-
  A row-wise take: `stablehlo.gather` of a rank-2 operand `x : [N, C]` at one start index per row.

  What `take_along_axis(x, idx, axis = 1)` with one picked column per row lowers to: the start indices are
  `idx : [N, 1, 1]`, the result is `[N, 1]`, and the dimension numbers are offset_dims `[]`, collapsed_slice_dims `[1]`,
  operand_batching_dims `[0]`, start_indices_batching_dims `[0]`, start_index_map `[1]`, index_vector_dim `2`,
  slice_sizes `[1, 1]`. Axis 0 is a batching axis: result row `b` reads operand row `b`. Axis 1 is the gathered
  axis: the column is the start index `idx[b, 0, 0]`, read as a signed integer and clamped into `[0, C − 1]`
  (StableHLO clamps every start index so that the slice fits). So

      result[b, 0] = x[b, clamp(idx[b, 0, 0])].

  Stated for any number of rows `N`, any number of columns `C` and any width of the index words.
-/
import Idealize.ShloMosaic.Lib.ValueIdx

noncomputable section

namespace Idealize.ShloMosaic.ValueIdx

open Idealize.ShloMosaic

section TakeAlongRow
variable {α : Type}

/-- The dimension numbers of the row-wise take, for an operand `[N, C]`, start indices `[N, 1, 1]` and result
    `[N, 1]`; their conditions `wf` are decided on a program's literal shapes. -/
abbrev takeRowDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index `[b, 0, 0]` of result index `(b, 0)`. -/
abbrev takeRowIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- THE ROW-WISE TAKE READ AT `(b, 0)`: the operand at row `b` and at the column `idx[b, 0, 0]`, read signed and
    clamped into `[0, C − 1]`. -/
theorem gather_takeRow_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) :
    Host.gather (takeRowDims N C wf) x idx y
      = x (ix2 (⟨(y 0).val, idx2_lt0 y⟩ : Fin N) (⟨min (idx (takeRowIdx y)).toInt.toNat (C - 1), by omega⟩ : Fin C)) := by
  unfold Host.gather
  congr 1
  funext a
  refine Fin.ext ?_
  show (takeRowDims N C wf).start y idx a + (takeRowDims N C wf).batchCoord y a + (takeRowDims N C wf).offCoord y a = _
  match a with
  | ⟨0, _⟩ =>
    -- the batching axis: no start index, no offset; the row is the result's own row
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, _⟩ : Fin 2) ∈ (takeRowDims N C wf).operandBatchingDims from List.mem_singleton.mpr rfl)]
    rfl
  | ⟨1, _⟩ =>
    -- the gathered axis: collapsed (no offset), not batching; the column is the clamped start index
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (⟨1, _⟩ : Fin 2) ∈ (takeRowDims N C wf).startIndexMap from List.mem_singleton.mpr rfl)]
    have hsi : (takeRowDims N C wf).siIdx y ⟨List.idxOf (⟨1, by decide⟩ : Fin 2) (takeRowDims N C wf).startIndexMap,
        List.idxOf_lt_length_iff.2 (List.mem_singleton.mpr rfl)⟩ = takeRowIdx y := by
      funext b; refine Fin.ext ?_
      match b with
      | ⟨0, _⟩ => rfl
      | ⟨1, _⟩ =>
        -- the start indices' middle axis has extent one: the result's second coordinate, itself below one, is zero
        show (y 1).val = 0
        have := idx2_lt1 y
        omega
      | ⟨2, _⟩ => rfl
    rw [hsi]
    rfl

end TakeAlongRow

end Idealize.ShloMosaic.ValueIdx

end
-- ==== Proof.RefValue.lean ====
/-
  The reference's result is the specification's loss.

  Its @main scales the centres and each branch's rows to unit length, takes each point's cosine with all seven
  centres (a contraction over the 128 entries), picks the cosine of the point's own label by a gather along the class
  axis — the label wrapped when negative, the gathered entry replaced by a filler when the index is out of range —,
  keeps `1 - cos` where the label is at least 1 and `0` elsewhere, and sums over the points.  Under `label < 7` a kept
  label lies in `1 … 6`: it is in range, unwrapped, and the gathered entry is the entry the one-hot sum over the seven
  classes picks; a label below 1 contributes `0` on both sides whatever was gathered.
-/
import proofs.«401307_j46866683134130_1_alg».proof.Proof.RefRead
import proofs.«401307_j46866683134130_1_alg».proof.Proof.Spec
import proofs.«401307_j46866683134130_1_alg».proof.Proof.PointLaw
import proofs.«401307_j46866683134130_1_alg».proof.Proof.LibTakeAlongRow
import Idealize.ShloMosaic.PureOps.Ideal.Laws
import Idealize.ShloMosaic.PureOps.Reduce
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value

set_option maxRecDepth 16384

noncomputable section

namespace Cert.RefValue

open Cert.ReferenceIdeal Cert.ReferenceIdeal.Gen Cert.ReferenceIdeal.Read
open Idealize.ShloMosaic Idealize.ShloMosaic.TcCoe Idealize.ShloMosaic.ValueIdx Idealize.SL.Sem

/-! ### The scaled centres, the scaled rows, the cosines -/

/-- The scaled centres: entry `(k, d)` is entry `d` of centre `k` scaled to unit length. -/
theorem centres (x2 : (⟨S7x128, .f32⟩ : BufTy).Contents (Elt Ideal)) (k : Fin 7) (d : Fin 128) :
    val_main_v7 (F := Ideal) x2 (ix2 k d) = Cert.Spec.unit (fun e => x2 (ix2 k e)) d := by
  have hidx : ∀ e : Fin 128, idx_main_v1 (idx_main_v2 (idx_main_v6 (ix2 k d))) e = ix2 k e := fun e =>
    funext fun a => by match a with | ⟨0, _⟩ => rfl | ⟨1, _⟩ => rfl
  rw [val_main_v7_apply, val_main_v6_apply, val_main_v5_apply, val_main_v3_apply, val_main_v2_apply,
    val_main_v1_apply, val_main_v4_apply, val_main_cst_0_apply, val_main_cst_apply]
  simp only [val_main_v0_apply, hidx]
  rw [Ideal.hostDivf_def, Ideal.hostUnary_sqrt_def]
  show Ideal.div _ (max (Ideal.sqrt (Ideal.ofBits .f32 0x00000000#32 + _)) _) = _
  rw [Ideal.ofBits_zero_f32, zero_add]
  rfl

/-- Branch A's scaled rows: entry `(n, d)` is entry `d` of row `n` scaled to unit length. -/
theorem rowsA (x0 : (⟨S1000000x128, .f32⟩ : BufTy).Contents (Elt Ideal)) (n : Fin 1000000) (d : Fin 128) :
    val_main_v15 (F := Ideal) x0 (ix2 n d) = Cert.Spec.unit (fun e => x0 (ix2 n e)) d := by
  have hidx : ∀ e : Fin 128, idx_main_v9 (idx_main_v10 (idx_main_v14 (ix2 n d))) e = ix2 n e := fun e =>
    funext fun a => by match a with | ⟨0, _⟩ => rfl | ⟨1, _⟩ => rfl
  rw [val_main_v15_apply, val_main_v14_apply, val_main_v13_apply, val_main_v11_apply, val_main_v10_apply,
    val_main_v9_apply, val_main_v12_apply, val_main_cst_2_apply, val_main_cst_1_apply]
  simp only [val_main_v8_apply, hidx]
  rw [Ideal.hostDivf_def, Ideal.hostUnary_sqrt_def]
  show Ideal.div _ (max (Ideal.sqrt (Ideal.ofBits .f32 0x00000000#32 + _)) _) = _
  rw [Ideal.ofBits_zero_f32, zero_add]
  rfl

/-- Branch A's cosines: entry `(n, k)` is the cosine of point `n` with the scaled centre `k`. -/
theorem simsA (x0 : (⟨S1000000x128, .f32⟩ : BufTy).Contents (Elt Ideal)) (x2 : (⟨S7x128, .f32⟩ : BufTy).Contents (Elt Ideal))
    (n : Fin 1000000) (k : Fin 7) :
    val_main_v16 (F := Ideal) x0 x2 (ix2 n k)
      = Cert.Spec.cosTo (fun d => x0 (ix2 n d)) (fun c => Cert.Spec.unit (fun e => x2 (ix2 c e))) k := by
  have hl : ∀ d : Fin 128, lidx_main_v16 (ix2 n k) d = ix2 n d := fun d =>
    funext fun a => by match a with | ⟨0, _⟩ => rfl | ⟨1, _⟩ => rfl
  have hr : ∀ d : Fin 128, ridx_main_v16 (ix2 n k) d = ix2 k d := fun d =>
    funext fun a => by match a with | ⟨0, _⟩ => rfl | ⟨1, _⟩ => rfl
  rw [val_main_v16_apply]
  simp only [hl, hr, rowsA, centres]
  rfl

/-! ### The pick of the label's cosine -/

/-- A fold over an index range of one element is the operation applied once. -/
theorem fold_fin_one {α : Type} (f : α → α → α) [Std.Commutative f] [Std.Associative f] (b : α) {k : Nat} (hk : k = 1)
    (g : Fin k → α) : Finset.fold f b g Finset.univ = f (g ⟨0, by omega⟩) b := by
  subst hk
  rw [Finset.univ_unique, Finset.fold_singleton]
  rfl

/-- Branch A's gather index at `j`: the wrapped label of point `j 0`. -/
theorem wrapA (x3 : (⟨S1000000, .i32⟩ : BufTy).Contents (Elt Ideal)) (j : S1000000x1x1.Idx) :
    val_main_call0_v5 (F := Ideal) x3 j = Cert.PointLaw.wrap (x3 (ix1 (j 0))) := by
  have hi : idx_main_v17 (idx_main_call0_v5 j) = ix1 (j 0) := funext fun a => by
    match a with
    | ⟨0, _⟩ =>
      apply Fin.ext
      show (((j 0).val * 1 + (j 1).val) * 1 + (j 2).val) / 1 = (j 0).val
      have h1 : (j 1).val < 1 := (j 1).isLt
      have h2 : (j 2).val < 1 := (j 2).isLt
      omega
  rw [val_main_call0_v5_apply, val_main_call0_v4_apply, val_main_call0_v1_apply, val_main_call0_v3_apply,
    val_main_v17_apply, val_main_call0_v0_apply, val_main_call0_c_apply, val_main_call0_v2_apply,
    val_main_call0_c_0_apply, hi]
  rfl

/-- Branch A's range test before the reduction over the size-one axis. -/
theorem testA (x3 : (⟨S1000000, .i32⟩ : BufTy).Contents (Elt Ideal)) (j : S1000000x1x1.Idx) :
    val_main_call0_v11 (F := Ideal) x3 j = Cert.PointLaw.inRange (x3 (ix1 (j 0))) := by
  rw [val_main_call0_v11_apply, val_main_call0_v7_apply, val_main_call0_v10_apply, wrapA, val_main_call0_v6_apply,
    val_main_call0_c_2_apply, val_main_call0_v9_apply, val_main_call0_v8_apply, val_main_call0_c_1_apply]
  rfl

/-- Branch A's range test at `y`: the reduction by `and` over the one element of the last axis, from the word 1. -/
theorem inRangeA (x3 : (⟨S1000000, .i32⟩ : BufTy).Contents (Elt Ideal)) (y : S1000000x1.Idx) :
    val_main_call0_v12 (F := Ideal) x3 y = IntOp.andi (Cert.PointLaw.inRange (x3 (ix1 (y 0)))) 1#1 := by
  unfold val_main_call0_v12
  have hR : S1000000x1x1.Reduces [2] S1000000x1 := by decide
  rw [Host.reduce_eq_fold_single IntOp.andi _ _ Facts₀.reducesTo_S1000000x1x1_S1000000x1_d2 hR Facts₀.h_S_ y,
    fold_fin_one IntOp.andi _ (show S1000000x1x1.size 2 = 1 from rfl), Function.comp_apply, testA]
  have h0 : hR.lift y ⟨0, by decide⟩ 0 = y 0 := Fin.ext (by
    rw [hR.lift_val]
    unfold Shape.Reduces.liftVal
    rw [dif_neg (by decide), dif_pos (by decide)]
    rfl)
  rw [h0]
  rfl

/-- Branch A's gathered entry at `y` for a label in `0 … 6`: the cosine of point `y 0` with the class the label names
    (the label is not wrapped and the clamp into `0 … 6` leaves it alone). -/
theorem pickA (x0 : (⟨S1000000x128, .f32⟩ : BufTy).Contents (Elt Ideal)) (x2 : (⟨S7x128, .f32⟩ : BufTy).Contents (Elt Ideal))
    (x3 : (⟨S1000000, .i32⟩ : BufTy).Contents (Elt Ideal)) (y : S1000000x1.Idx) (h6 : (x3 (ix1 (y 0))).toNat ≤ 6) :
    val_main_call0_v13 (F := Ideal) x0 x2 x3 y
      = val_main_v16 (F := Ideal) x0 x2 (ix2 (y 0) (⟨(x3 (ix1 (y 0))).toNat, by omega⟩ : Fin 7)) := by
  unfold val_main_call0_v13
  refine (gather_takeRow_apply (N := 1000000) (C := 7) (w := 32) (by decide)
    Facts₀.gather_S1000000x7_S1000000x1x1_S1000000x1_n_1_0_0_1_2_11_wf (val_main_v16 (F := Ideal) x0 x2)
    (val_main_call0_v5 (F := Ideal) x3) y).trans ?_
  refine congrArg (val_main_v16 (F := Ideal) x0 x2) (congrArg (ix2 (y 0)) (Fin.ext ?_))
  show min (val_main_call0_v5 (F := Ideal) x3 (takeRowIdx y)).toInt.toNat (7 - 1) = (x3 (ix1 (y 0))).toNat
  rw [wrapA]
  exact Cert.PointLaw.clamp_of_le h6

/-! ### One point, one branch -/

/-- Branch A at `y`: the kept `1 - picked`, or `0`, is the specification's contribution of point `y 0`. -/
theorem perA (x0 : (⟨S1000000x128, .f32⟩ : BufTy).Contents (Elt Ideal)) (x2 : (⟨S7x128, .f32⟩ : BufTy).Contents (Elt Ideal))
    (x3 : (⟨S1000000, .i32⟩ : BufTy).Contents (Elt Ideal)) (hA : ∀ n : Fin 1000000, (x3 (ix1 n)).slt 7#32 = true)
    (y : S1000000x1.Idx) :
    Scalar.select (IntOp.cmpi .sge (x3 (ix1 (y 0))) 1#32) (1 - val_main_v18 (F := Ideal) x0 x2 x3 y) 0
      = Cert.Spec.pointLoss (fun d => x0 (ix2 (y 0) d)) (fun c => Cert.Spec.unit (fun e => x2 (ix2 c e))) (x3 (ix1 (y 0))) := by
  rw [val_main_v18_apply]
  unfold Cert.Spec.pointLoss
  rw [Cert.PointLaw.point_law (fun c => val_main_v16 (F := Ideal) x0 x2 (ix2 (y 0) c)) (x3 (ix1 (y 0))) (hA (y 0))]
  · refine congrArg (fun s => Cert.Spec.keep (x3 (ix1 (y 0))) * (1 - s)) (Finset.sum_congr rfl fun c _ => ?_)
    exact congrArg (· * Cert.Spec.hot (x3 (ix1 (y 0))) c) (simsA x0 x2 (y 0) c)
  · intro h6
    rw [inRangeA, Cert.PointLaw.inRange_of_le h6]
    rfl
  · intro h6
    exact pickA x0 x2 x3 y h6

/-- Branch A's contribution of point `n`. -/
theorem pointA (x0 : (⟨S1000000x128, .f32⟩ : BufTy).Contents (Elt Ideal)) (x2 : (⟨S7x128, .f32⟩ : BufTy).Contents (Elt Ideal))
    (x3 : (⟨S1000000, .i32⟩ : BufTy).Contents (Elt Ideal)) (hA : ∀ n : Fin 1000000, (x3 (ix1 n)).slt 7#32 = true)
    (n : Fin 1000000) :
    val_main_v24 (F := Ideal) x0 x2 x3 (ix1 n)
      = Cert.Spec.pointLoss (fun d => x0 (ix2 n d)) (fun c => Cert.Spec.unit (fun e => x2 (ix2 c e))) (x3 (ix1 n)) := by
  have hy : idx_main_v19 (ix1 n) 0 = n := Fin.ext (Nat.div_one _)
  have h := perA x0 x2 x3 hA (idx_main_v19 (ix1 n))
  rw [hy] at h
  rw [val_main_v24_apply, val_main_v21_apply, val_main_v20_apply, val_main_c_apply, val_main_v23_apply,
    val_main_v22_apply, val_main_cst_3_apply, val_main_v19_apply, val_main_call1_v1_apply,
    val_main_call1_v0_apply, val_main_cst_4_apply, ← h]
  show Scalar.select _ (Ideal.ofBits .f32 0x3F800000#32 - _) (Ideal.ofBits .f32 0x00000000#32) = _
  rw [Ideal.ofBits_one_f32, Ideal.ofBits_zero_f32]

/-- Branch A's loss. -/
theorem branchA (x0 : (⟨S1000000x128, .f32⟩ : BufTy).Contents (Elt Ideal)) (x2 : (⟨S7x128, .f32⟩ : BufTy).Contents (Elt Ideal))
    (x3 : (⟨S1000000, .i32⟩ : BufTy).Contents (Elt Ideal)) (hA : ∀ n : Fin 1000000, (x3 (ix1 n)).slt 7#32 = true)
    (i : S_.Idx) :
    val_main_v25 (F := Ideal) x0 x2 x3 i
      = Cert.Spec.branchLoss (fun n d => x0 (ix2 n d)) (fun c => Cert.Spec.unit (fun e => x2 (ix2 c e))) (fun n => x3 (ix1 n)) := by
  rw [val_main_v25_apply, val_main_cst_5_apply]
  show Ideal.ofBits .f32 0x00000000#32 + _ = _
  rw [Ideal.ofBits_zero_f32, zero_add, ← Equiv.sum_comp (idxEquiv1 (n := 1000000)).symm]
  unfold Cert.Spec.branchLoss
  exact Finset.sum_congr rfl fun n _ => pointA x0 x2 x3 hA n

/-! ### Branch B: the same stages on the second rows and labels -/

/-- Branch B's scaled rows: entry `(n, d)` is entry `d` of row `n` scaled to unit length. -/
theorem rowsB (x1 : (⟨S1000000x128, .f32⟩ : BufTy).Contents (Elt Ideal)) (n : Fin 1000000) (d : Fin 128) :
    val_main_v33 (F := Ideal) x1 (ix2 n d) = Cert.Spec.unit (fun e => x1 (ix2 n e)) d := by
  have hidx : ∀ e : Fin 128, idx_main_v27 (idx_main_v28 (idx_main_v32 (ix2 n d))) e = ix2 n e := fun e =>
    funext fun a => by match a with | ⟨0, _⟩ => rfl | ⟨1, _⟩ => rfl
  rw [val_main_v33_apply, val_main_v32_apply, val_main_v31_apply, val_main_v29_apply, val_main_v28_apply,
    val_main_v27_apply, val_main_v30_apply, val_main_cst_7_apply, val_main_cst_6_apply]
  simp only [val_main_v26_apply, hidx]
  rw [Ideal.hostDivf_def, Ideal.hostUnary_sqrt_def]
  show Ideal.div _ (max (Ideal.sqrt (Ideal.ofBits .f32 0x00000000#32 + _)) _) = _
  rw [Ideal.ofBits_zero_f32, zero_add]
  rfl

/-- Branch B's cosines: entry `(n, k)` is the cosine of point `n` with the scaled centre `k`. -/
theorem simsB (x1 : (⟨S1000000x128, .f32⟩ : BufTy).Contents (Elt Ideal)) (x2 : (⟨S7x128, .f32⟩ : BufTy).Contents (Elt Ideal))
    (n : Fin 1000000) (k : Fin 7) :
    val_main_v34 (F := Ideal) x1 x2 (ix2 n k)
      = Cert.Spec.cosTo (fun d => x1 (ix2 n d)) (fun c => Cert.Spec.unit (fun e => x2 (ix2 c e))) k := by
  have hl : ∀ d : Fin 128, lidx_main_v34 (ix2 n k) d = ix2 n d := fun d =>
    funext fun a => by match a with | ⟨0, _⟩ => rfl | ⟨1, _⟩ => rfl
  have hr : ∀ d : Fin 128, ridx_main_v34 (ix2 n k) d = ix2 k d := fun d =>
    funext fun a => by match a with | ⟨0, _⟩ => rfl | ⟨1, _⟩ => rfl
  rw [val_main_v34_apply]
  simp only [hl, hr, rowsB, centres]
  rfl

/-- Branch B's gather index at `j`: the wrapped label of point `j 0`. -/
theorem wrapB (x4 : (⟨S1000000, .i32⟩ : BufTy).Contents (Elt Ideal)) (j : S1000000x1x1.Idx) :
    val_main_call2_v5 (F := Ideal) x4 j = Cert.PointLaw.wrap (x4 (ix1 (j 0))) := by
  have hi : idx_main_v35 (idx_main_call2_v5 j) = ix1 (j 0) := funext fun a => by
    match a with
    | ⟨0, _⟩ =>
      apply Fin.ext
      show (((j 0).val * 1 + (j 1).val) * 1 + (j 2).val) / 1 = (j 0).val
      have h1 : (j 1).val < 1 := (j 1).isLt
      have h2 : (j 2).val < 1 := (j 2).isLt
      omega
  rw [val_main_call2_v5_apply, val_main_call2_v4_apply, val_main_call2_v1_apply, val_main_call2_v3_apply,
    val_main_v35_apply, val_main_call2_v0_apply, val_main_call2_c_apply, val_main_call2_v2_apply,
    val_main_call2_c_0_apply, hi]
  rfl

/-- Branch B's range test before the reduction over the size-one axis. -/
theorem testB (x4 : (⟨S1000000, .i32⟩ : BufTy).Contents (Elt Ideal)) (j : S1000000x1x1.Idx) :
    val_main_call2_v11 (F := Ideal) x4 j = Cert.PointLaw.inRange (x4 (ix1 (j 0))) := by
  rw [val_main_call2_v11_apply, val_main_call2_v7_apply, val_main_call2_v10_apply, wrapB, val_main_call2_v6_apply,
    val_main_call2_c_2_apply, val_main_call2_v9_apply, val_main_call2_v8_apply, val_main_call2_c_1_apply]
  rfl

/-- Branch B's range test at `y`: the reduction by `and` over the one element of the last axis, from the word 1. -/
theorem inRangeB (x4 : (⟨S1000000, .i32⟩ : BufTy).Contents (Elt Ideal)) (y : S1000000x1.Idx) :
    val_main_call2_v12 (F := Ideal) x4 y = IntOp.andi (Cert.PointLaw.inRange (x4 (ix1 (y 0)))) 1#1 := by
  unfold val_main_call2_v12
  have hR : S1000000x1x1.Reduces [2] S1000000x1 := by decide
  rw [Host.reduce_eq_fold_single IntOp.andi _ _ Facts₀.reducesTo_S1000000x1x1_S1000000x1_d2 hR Facts₀.h_S_ y,
    fold_fin_one IntOp.andi _ (show S1000000x1x1.size 2 = 1 from rfl), Function.comp_apply, testB]
  have h0 : hR.lift y ⟨0, by decide⟩ 0 = y 0 := Fin.ext (by
    rw [hR.lift_val]
    unfold Shape.Reduces.liftVal
    rw [dif_neg (by decide), dif_pos (by decide)]
    rfl)
  rw [h0]
  rfl

/-- Branch B's gathered entry at `y` for a label in `0 … 6`: the cosine of point `y 0` with the class the label names
    (the label is not wrapped and the clamp into `0 … 6` leaves it alone). -/
theorem pickB (x1 : (⟨S1000000x128, .f32⟩ : BufTy).Contents (Elt Ideal)) (x2 : (⟨S7x128, .f32⟩ : BufTy).Contents (Elt Ideal))
    (x4 : (⟨S1000000, .i32⟩ : BufTy).Contents (Elt Ideal)) (y : S1000000x1.Idx) (h6 : (x4 (ix1 (y 0))).toNat ≤ 6) :
    val_main_call2_v13 (F := Ideal) x1 x2 x4 y
      = val_main_v34 (F := Ideal) x1 x2 (ix2 (y 0) (⟨(x4 (ix1 (y 0))).toNat, by omega⟩ : Fin 7)) := by
  unfold val_main_call2_v13
  refine (gather_takeRow_apply (N := 1000000) (C := 7) (w := 32) (by decide)
    Facts₀.gather_S1000000x7_S1000000x1x1_S1000000x1_n_1_0_0_1_2_11_wf (val_main_v34 (F := Ideal) x1 x2)
    (val_main_call2_v5 (F := Ideal) x4) y).trans ?_
  refine congrArg (val_main_v34 (F := Ideal) x1 x2) (congrArg (ix2 (y 0)) (Fin.ext ?_))
  show min (val_main_call2_v5 (F := Ideal) x4 (takeRowIdx y)).toInt.toNat (7 - 1) = (x4 (ix1 (y 0))).toNat
  rw [wrapB]
  exact Cert.PointLaw.clamp_of_le h6

/-- Branch B at `y`: the kept `1 - picked`, or `0`, is the specification's contribution of point `y 0`. -/
theorem perB (x1 : (⟨S1000000x128, .f32⟩ : BufTy).Contents (Elt Ideal)) (x2 : (⟨S7x128, .f32⟩ : BufTy).Contents (Elt Ideal))
    (x4 : (⟨S1000000, .i32⟩ : BufTy).Contents (Elt Ideal)) (hB : ∀ n : Fin 1000000, (x4 (ix1 n)).slt 7#32 = true)
    (y : S1000000x1.Idx) :
    Scalar.select (IntOp.cmpi .sge (x4 (ix1 (y 0))) 1#32) (1 - val_main_v36 (F := Ideal) x1 x2 x4 y) 0
      = Cert.Spec.pointLoss (fun d => x1 (ix2 (y 0) d)) (fun c => Cert.Spec.unit (fun e => x2 (ix2 c e))) (x4 (ix1 (y 0))) := by
  rw [val_main_v36_apply]
  unfold Cert.Spec.pointLoss
  rw [Cert.PointLaw.point_law (fun c => val_main_v34 (F := Ideal) x1 x2 (ix2 (y 0) c)) (x4 (ix1 (y 0))) (hB (y 0))]
  · refine congrArg (fun s => Cert.Spec.keep (x4 (ix1 (y 0))) * (1 - s)) (Finset.sum_congr rfl fun c _ => ?_)
    exact congrArg (· * Cert.Spec.hot (x4 (ix1 (y 0))) c) (simsB x1 x2 (y 0) c)
  · intro h6
    rw [inRangeB, Cert.PointLaw.inRange_of_le h6]
    rfl
  · intro h6
    exact pickB x1 x2 x4 y h6

/-- Branch B's contribution of point `n`. -/
theorem pointB (x1 : (⟨S1000000x128, .f32⟩ : BufTy).Contents (Elt Ideal)) (x2 : (⟨S7x128, .f32⟩ : BufTy).Contents (Elt Ideal))
    (x4 : (⟨S1000000, .i32⟩ : BufTy).Contents (Elt Ideal)) (hB : ∀ n : Fin 1000000, (x4 (ix1 n)).slt 7#32 = true)
    (n : Fin 1000000) :
    val_main_v42 (F := Ideal) x1 x2 x4 (ix1 n)
      = Cert.Spec.pointLoss (fun d => x1 (ix2 n d)) (fun c => Cert.Spec.unit (fun e => x2 (ix2 c e))) (x4 (ix1 n)) := by
  have hy : idx_main_v37 (ix1 n) 0 = n := Fin.ext (Nat.div_one _)
  have h := perB x1 x2 x4 hB (idx_main_v37 (ix1 n))
  rw [hy] at h
  rw [val_main_v42_apply, val_main_v39_apply, val_main_v38_apply, val_main_c_8_apply, val_main_v41_apply,
    val_main_v40_apply, val_main_cst_9_apply, val_main_v37_apply, val_main_call3_v1_apply,
    val_main_call3_v0_apply, val_main_cst_10_apply, ← h]
  show Scalar.select _ (Ideal.ofBits .f32 0x3F800000#32 - _) (Ideal.ofBits .f32 0x00000000#32) = _
  rw [Ideal.ofBits_one_f32, Ideal.ofBits_zero_f32]

/-- Branch B's loss. -/
theorem branchB (x1 : (⟨S1000000x128, .f32⟩ : BufTy).Contents (Elt Ideal)) (x2 : (⟨S7x128, .f32⟩ : BufTy).Contents (Elt Ideal))
    (x4 : (⟨S1000000, .i32⟩ : BufTy).Contents (Elt Ideal)) (hB : ∀ n : Fin 1000000, (x4 (ix1 n)).slt 7#32 = true)
    (i : S_.Idx) :
    val_main_v43 (F := Ideal) x1 x2 x4 i
      = Cert.Spec.branchLoss (fun n d => x1 (ix2 n d)) (fun c => Cert.Spec.unit (fun e => x2 (ix2 c e))) (fun n => x4 (ix1 n)) := by
  rw [val_main_v43_apply, val_main_cst_11_apply]
  show Ideal.ofBits .f32 0x00000000#32 + _ = _
  rw [Ideal.ofBits_zero_f32, zero_add, ← Equiv.sum_comp (idxEquiv1 (n := 1000000)).symm]
  unfold Cert.Spec.branchLoss
  exact Finset.sum_congr rfl fun n _ => pointB x1 x2 x4 hB n

/-! ### The result -/

/-- The last stage of the reference, read at its one index: the specification's loss of the argument arrays, when every
    label of either branch is below 7 (signed). -/
theorem ref_value (x0 x1 : (⟨S1000000x128, .f32⟩ : BufTy).Contents (Elt Ideal)) (x2 : (⟨S7x128, .f32⟩ : BufTy).Contents (Elt Ideal))
    (x3 x4 : (⟨S1000000, .i32⟩ : BufTy).Contents (Elt Ideal))
    (hA : ∀ n : Fin 1000000, (x3 (ix1 n)).slt 7#32 = true) (hB : ∀ n : Fin 1000000, (x4 (ix1 n)).slt 7#32 = true)
    (i : S_.Idx) :
    val_main_v44 (F := Ideal) x0 x1 x2 x3 x4 i
      = Cert.Spec.total (fun n d => x0 (ix2 n d)) (fun n d => x1 (ix2 n d)) (fun k d => x2 (ix2 k d))
          (fun n => x3 (ix1 n)) (fun n => x4 (ix1 n)) := by
  rw [val_main_v44_apply, branchA x0 x2 x3 hA i, branchB x1 x2 x4 hB i]
  rfl

/-- The reference's run: it ends with its result at the specification's loss of the launch arrays and the arguments
    unchanged, when every label of either branch is below 7. -/
theorem run_value (m : (ℓ : Loc nD τ sig) → Buf (Elt Ideal) ℓ) (ρ : Dev nD → PrngReg)
    (hA : ∀ (c : Dev nD) (n : Fin 1000000), ((m ((c.tc : Thread nD τ).loc main_arg3) : S1000000.Idx → BitVec 32) (ix1 n)).slt 7#32 = true)
    (hB : ∀ (c : Dev nD) (n : Fin 1000000), ((m ((c.tc : Thread nD τ).loc main_arg4) : S1000000.Idx → BitVec 32) (ix1 n)).slt 7#32 = true) :
    θ_run (defs (F := Ideal)) (onTc (τ := τ) (main (F := Ideal))) ⟨m, fun _ => 0, ρ⟩ fun r => ∀ c : Dev nD,
      r.2.mem ((c.tc : Thread nD τ).loc main_v44) = (fun _ => Cert.Spec.total
          (fun n d => (m ((c.tc : Thread nD τ).loc main_arg0) : S1000000x128.Idx → EReal) (ix2 n d))
          (fun n d => (m ((c.tc : Thread nD τ).loc main_arg1) : S1000000x128.Idx → EReal) (ix2 n d))
          (fun k d => (m ((c.tc : Thread nD τ).loc main_arg2) : S7x128.Idx → EReal) (ix2 k d))
          (fun n => (m ((c.tc : Thread nD τ).loc main_arg3) : S1000000.Idx → BitVec 32) (ix1 n))
          (fun n => (m ((c.tc : Thread nD τ).loc main_arg4) : S1000000.Idx → BitVec 32) (ix1 n)))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (by
      rw [val_main_v44_eq]
      funext i
      exact ref_value _ _ _ _ _ (hA c) (hB c) i), (h c).2⟩)
    (Cert.ReferenceIdeal.Value.run (F := Ideal) m ρ)

end Cert.RefValue

end
-- ==== Proof.PreLabels.lean ====
/-
  What the precondition says about the labels: it is the conjunction of three finiteness tests on the float inputs and,
  for each branch, the test that every label is below 7 (signed); read at one point `n` it gives `label n < 7`.
-/
import proofs.«401307_j46866683134130_1_alg».proof.Proof.Gen.Pre_finite_inputs
import Idealize.ShloMosaic.Lib.StableHlo.Predicate
import Idealize.ShloMosaic.Lib.ReduceAll
import Idealize.ShloMosaic.Lib.ValueIdx

noncomputable section

namespace Cert.PreLabels

open Idealize.ShloMosaic

/-- The rank-0 shape has a single index. -/
instance : Subsingleton Cert.Pre_finite_inputs.S_.Idx := ⟨fun a b => funext fun d => d.elim0⟩

/-- One entry of the mask "label < 7" being set says the label is signed-below 7: the broadcast of the scalar
    constant reads 7 at every index, and the comparison's word is the Boolean of the signed test. -/
theorem slt_of_mask (lab : IVec Cert.Pre_finite_inputs.S1000000 32)
    (hb : Cert.Pre_finite_inputs.S_.BroadcastsInDim Cert.Pre_finite_inputs.S1000000
      (![] : Fin 0 → Fin Cert.Pre_finite_inputs.S1000000.rank))
    (j : Cert.Pre_finite_inputs.S1000000.Idx)
    (e : cmpi .slt lab (broadcastInDim Cert.Pre_finite_inputs.S1000000 ![] hb
      (constantI Cert.Pre_finite_inputs.S_ 32 7#32)) j = 1#1) :
    (lab j).slt 7#32 = true := by
  have e' : BitVec.ofBool ((lab j).slt 7#32) = 1#1 := e
  exact (StableHlo.Predicate.ofBool_eq_one_iff _).1 e'

/-- Under the precondition every label of either branch is below 7 (signed). -/
theorem labels_lt {F : FTy → Type} [FloatOps F]
    (xA xB : FVec F Cert.Pre_finite_inputs.S1000000x128 .f32) (cf : FVec F Cert.Pre_finite_inputs.S7x128 .f32)
    (labA labB : IVec Cert.Pre_finite_inputs.S1000000 32)
    (h : Cert.Pre_finite_inputs.fn (F := F) xA xB cf labA labB = fun _ => 1#1) :
    (∀ n : Fin 1000000, (labA (ValueIdx.ix1 n)).slt 7#32 = true)
      ∧ (∀ n : Fin 1000000, (labB (ValueIdx.ix1 n)).slt 7#32 = true) := by
  -- the predicate's value at the one index of the scalar shape
  have h0 := congrFun h ValueIdx.ix0
  dsimp only [Cert.Pre_finite_inputs.fn, Cert.Pre_finite_inputs.fn_part1] at h0
  -- the outer conjunction: (… ∧ all (labA < 7)) ∧ all (labB < 7)
  obtain ⟨h1, hB⟩ := IntOp.andi_eq_one.1 h0
  obtain ⟨_, hA⟩ := IntOp.andi_eq_one.1 h1
  exact ⟨fun n => slt_of_mask labA _ _ (Host.reduce_andi_all _ _ _ _ _ hA (ValueIdx.ix1 n)),
    fun n => slt_of_mask labB _ _ (Host.reduce_andi_all _ _ _ _ _ hB (ValueIdx.ix1 n))⟩

end Cert.PreLabels

end
-- ==== Proof.lean ====
/-
  The certificate: the word-level kernel program, its idealization and the idealized reference each run to the end with
  their argument arrays unchanged, and — when every label of either branch is below 7, the range in which the
  reference's `take_along_axis` indexes the seven classes — the idealized kernel and the idealized reference end with
  the same result over the extended reals.

  Both results are ONE function of the argument arrays, `Cert.Spec.total`: the sum over both branches' million points
  of `[label ≥ 1] · (1 − cos(point, centre of its label))`, points and centres scaled to unit length with a floor under
  the length.  The kernel picks the cosine by a one-hot sum over the seven classes and accumulates tile by tile in a
  cell carried across the grid; the reference gathers it along the class axis and sums once.  For a label in `1 … 6`
  the one-hot sum is the gathered entry; a label below 1 contributes zero on both sides (a product with zero there,
  a select here); tiling and order of summation do not matter over the extended reals.  The kernel's frames need no
  hypothesis on the labels: it never indexes with them.  The idealization rewrote nothing, so `preserves` is trivial.
-/
import proofs.«401307_j46866683134130_1_alg».proof.Defs
import proofs.«401307_j46866683134130_1_alg».proof.Proof.Gen.Kernel
import proofs.«401307_j46866683134130_1_alg».proof.Proof.Gen.KernelIdeal
import proofs.«401307_j46866683134130_1_alg».proof.Proof.Gen.ReferenceIdeal
import proofs.«401307_j46866683134130_1_alg».proof.Proof.Gen.Pre_finite_inputs
import proofs.«401307_j46866683134130_1_alg».proof.Proof.WRunAll
import proofs.«401307_j46866683134130_1_alg».proof.Proof.KernelValue
import proofs.«401307_j46866683134130_1_alg».proof.Proof.RefValue
import proofs.«401307_j46866683134130_1_alg».proof.Proof.PreLabels
import Idealize.ShloMosaic.Adequacy
import Idealize.ShloMosaic.Init

noncomputable section

namespace Cert.Proof

open Idealize.ShloMosaic Idealize.ShloMosaic.ValueIdx Idealize.SL.Sem

/-- The word-level program's frame: its run, read at the argument arrays. -/
theorem frame_kernel : Cert.frame_Kernel := fun m ρ _ => Cert.Kernel.RunAll.frame m ρ

/-- The idealized program's frame: the same text at the ideal instance. -/
theorem frame_kernelIdeal : Cert.frame_KernelIdeal := fun m ρ _ => Cert.KernelIdeal.RunAll.frame m ρ

/-- The reference's frame: its run with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end at `Cert.Spec.total` of the argument arrays; the reference's side uses `label < 7`, read off the
    precondition. -/
theorem algebraic : Cert.algebraic_KernelIdeal_ReferenceIdeal := by
  intro m ρ m' ρ' hpre hagree
  have hlab := fun c : Dev Cert.KernelIdeal.nD => Cert.PreLabels.labels_lt (F := Ideal) _ _ _ _ _ (hpre c)
  refine ⟨fun c => fun _ => Cert.Spec.total
      (fun n d => Cert.KernelValue.xA m c (ix2 n d)) (fun n d => Cert.KernelValue.xB m c (ix2 n d))
      (fun k d => Cert.KernelValue.cf m c (ix2 k d)) (fun n => Cert.KernelValue.lA m c (ix1 n)) (fun n => Cert.KernelValue.lB m c (ix1 n)),
    fun c => m ((c.tc : Thread Cert.KernelIdeal.nD Cert.KernelIdeal.τ).loc Cert.KernelIdeal.main_arg2),
    Cert.KernelValue.run_value m ρ, ?_⟩
  refine (θ_run Cert.ReferenceIdeal.defs _ _).mono (fun _ h c => ⟨(h c).1.trans ?_, (h c).2.1.trans (hagree c).2.2.1, (h c).2.2⟩)
    (Cert.RefValue.run_value m' ρ'
      (fun c n => by rw [(hagree c).2.2.2.1]; exact (hlab c).1 n)
      (fun c n => by rw [(hagree c).2.2.2.2]; exact (hlab c).2 n))
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
